-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S512x4096 : Shape := ⟨2, ![512, 4096]⟩
abbrev S4096x1 : Shape := ⟨2, ![4096, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S512x4096 32) (main_arg2 : FVec F S4096x1 .f32) (main_arg3 : FVec F S4096x1 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x1 .f32 := Host.absf main_arg3
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S512x4096 : Shape := ⟨2, ![512, 4096]⟩
abbrev S4096x1 : Shape := ⟨2, ![4096, 1]⟩
abbrev S4096 : Shape := ⟨1, ![4096]⟩
abbrev S8192x4096 : Shape := ⟨2, ![8192, 4096]⟩
abbrev S1x4096 : Shape := ⟨2, ![1, 4096]⟩
abbrev S3x4096 : Shape := ⟨2, ![3, 4096]⟩
abbrev S512x512 : Shape := ⟨2, ![512, 512]⟩
abbrev S3x512 : Shape := ⟨2, ![3, 512]⟩
abbrev S512x1 : Shape := ⟨2, ![512, 1]⟩
abbrev S1x8x1 : Shape := ⟨3, ![1, 8, 1]⟩
abbrev S512 : Shape := ⟨1, ![512]⟩
abbrev S64x512 : Shape := ⟨2, ![64, 512]⟩
abbrev S64x1x512 : Shape := ⟨3, ![64, 1, 512]⟩
abbrev S64x8x512 : Shape := ⟨3, ![64, 8, 512]⟩
abbrev S1x512 : Shape := ⟨2, ![1, 512]⟩

abbrev nBuf : Space → Nat
  | .hbm => 12
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S512x4096, .i32⟩
  | .hbm, ⟨2, _⟩ => ⟨S4096x1, .f32⟩
  | .hbm, ⟨3, _⟩ => ⟨S4096x1, .f32⟩
  | .hbm, ⟨4, _⟩ => ⟨S4096, .f32⟩
  | .hbm, ⟨5, _⟩ => ⟨S8192x4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S3x4096, .f32⟩
  | .hbm, ⟨10, _⟩ => ⟨S8192x4096, .f32⟩
  | .hbm, ⟨11, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S512x512, .i32⟩
  | .local _ .vmem, ⟨3, _⟩ => ⟨S512x512, .i32⟩
  | .local _ .vmem, ⟨4, _⟩ => ⟨S3x512, .f32⟩
  | .local _ .vmem, ⟨5, _⟩ => ⟨S3x512, .f32⟩
  | .local _ .vmem, ⟨6, _⟩ => ⟨S512x512, .f32⟩
  | .local _ .vmem, ⟨7, _⟩ => ⟨S512x512, .f32⟩
  | .local _ .vmem, ⟨8, _⟩ => ⟨S512x4096, .bf16⟩
  | .local _ .vmem, ⟨9, _⟩ => ⟨S512x1, .f32⟩
  | .local _ .vmem, ⟨10, _⟩ => ⟨S512x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_mult1 : BitVec 32 :=
  let c0_i32_2 : BitVec 32 := 0#32
  let c64_i32 : BitVec 32 := 64#32
  let v10 : BitVec 32 := Scalar.muli c0_i32_2 c64_i32
  v10
def k0_mult2 : BitVec 32 :=
  let c0_i32_2 : BitVec 32 := 0#32
  let c512_i32 : BitVec 32 := 512#32
  let v12 : BitVec 32 := Scalar.muli c0_i32_2 c512_i32
  v12
def k0_cond2 (i : grid0.Coords) : BitVec 1 :=
  let arg1 : BitVec 32 := BitVec.ofNat 32 (i 1).val
  let c0_i32_3 : BitVec 32 := 0#32
  let v14 : BitVec 1 := Scalar.cmpi .eq arg1 c0_i32_3
  let v15 : BitVec 32 := Scalar.extui v14
  let c0_i32_4 : BitVec 32 := 0#32
  let v16 : BitVec 1 := Scalar.cmpi .ne v15 c0_i32_4
  v16

def k0_off1 : Fin 2 → Nat :=
  let c0_107 : Index := 0#32
  let c0_i32_2 : BitVec 32 := 0#32
  let c512_i32 : BitVec 32 := 512#32
  let v12 : BitVec 32 := Scalar.muli c0_i32_2 c512_i32
  let v13 : BitVec 32 := v12
  let v227 : Index := Scalar.indexCast v13
  ![0, v227.toNat]
def k0_off2 (c0_i32_2 : BitVec 32) : Fin 2 → Nat :=
  let c64_i32 : BitVec 32 := 64#32
  let v10 : BitVec 32 := Scalar.muli c0_i32_2 c64_i32
  let v11 : BitVec 32 := v10
  let v17 : Index := Scalar.indexCast v11
  let c0_5 : Index := 0#32
  ![v17.toNat, 0]
def k0_off3 (c0_i32_2 : BitVec 32) : Fin 2 → Nat :=
  let c0_6 : Index := 0#32
  let c512_i32 : BitVec 32 := 512#32
  let v12 : BitVec 32 := Scalar.muli c0_i32_2 c512_i32
  let v13 : BitVec 32 := v12
  let v27 : Index := Scalar.indexCast v13
  ![0, v27.toNat]
def k0_mult3 : BitVec 32 :=
  let c1_i32 : BitVec 32 := 1#32
  let c64_i32_12 : BitVec 32 := 64#32
  let v35 : BitVec 32 := Scalar.muli c1_i32 c64_i32_12
  v35
def k0_mult4 : BitVec 32 :=
  let c1_i32 : BitVec 32 := 1#32
  let c512_i32_13 : BitVec 32 := 512#32
  let v37 : BitVec 32 := Scalar.muli c1_i32 c512_i32_13
  v37
def k0_cond3 (i : grid0.Coords) : BitVec 1 :=
  let arg1 : BitVec 32 := BitVec.ofNat 32 (i 1).val
  let c0_i32_14 : BitVec 32 := 0#32
  let v39 : BitVec 1 := Scalar.cmpi .eq arg1 c0_i32_14
  let v40 : BitVec 32 := Scalar.extui v39
  let c0_i32_15 : BitVec 32 := 0#32
  let v41 : BitVec 1 := Scalar.cmpi .ne v40 c0_i32_15
  v41

def k0_off4 : Fin 2 → Nat :=
  let c0_107 : Index := 0#32
  let c1_i32 : BitVec 32 := 1#32
  let c512_i32_13 : BitVec 32 := 512#32
  let v37 : BitVec 32 := Scalar.muli c1_i32 c512_i32_13
  let v38 : BitVec 32 := v37
  let v227 : Index := Scalar.indexCast v38
  ![0, v227.toNat]
def k0_mult5 : BitVec 32 :=
  let c2_i32 : BitVec 32 := 2#32
  let c64_i32_24 : BitVec 32 := 64#32
  let v60 : BitVec 32 := Scalar.muli c2_i32 c64_i32_24
  v60
def k0_mult6 : BitVec 32 :=
  let c2_i32 : BitVec 32 := 2#32
  let c512_i32_25 : BitVec 32 := 512#32
  let v62 : BitVec 32 := Scalar.muli c2_i32 c512_i32_25
  v62
def k0_cond4 (i : grid0.Coords) : BitVec 1 :=
  let arg1 : BitVec 32 := BitVec.ofNat 32 (i 1).val
  let c0_i32_26 : BitVec 32 := 0#32
  let v64 : BitVec 1 := Scalar.cmpi .eq arg1 c0_i32_26
  let v65 : BitVec 32 := Scalar.extui v64
  let c0_i32_27 : BitVec 32 := 0#32
  let v66 : BitVec 1 := Scalar.cmpi .ne v65 c0_i32_27
  v66

def k0_off5 : Fin 2 → Nat :=
  let c0_107 : Index := 0#32
  let c2_i32 : BitVec 32 := 2#32
  let c512_i32_25 : BitVec 32 := 512#32
  let v62 : BitVec 32 := Scalar.muli c2_i32 c512_i32_25
  let v63 : BitVec 32 := v62
  let v227 : Index := Scalar.indexCast v63
  ![0, v227.toNat]
def k0_mult7 : BitVec 32 :=
  let c3_i32 : BitVec 32 := 3#32
  let c64_i32_36 : BitVec 32 := 64#32
  let v85 : BitVec 32 := Scalar.muli c3_i32 c64_i32_36
  v85
def k0_mult8 : BitVec 32 :=
  let c3_i32 : BitVec 32 := 3#32
  let c512_i32_37 : BitVec 32 := 512#32
  let v87 : BitVec 32 := Scalar.muli c3_i32 c512_i32_37
  v87
def k0_cond5 (i : grid0.Coords) : BitVec 1 :=
  let arg1 : BitVec 32 := BitVec.ofNat 32 (i 1).val
  let c0_i32_38 : BitVec 32 := 0#32
  let v89 : BitVec 1 := Scalar.cmpi .eq arg1 c0_i32_38
  let v90 : BitVec 32 := Scalar.extui v89
  let c0_i32_39 : BitVec 32 := 0#32
  let v91 : BitVec 1 := Scalar.cmpi .ne v90 c0_i32_39
  v91

def k0_off6 : Fin 2 → Nat :=
  let c0_107 : Index := 0#32
  let c3_i32 : BitVec 32 := 3#32
  let c512_i32_37 : BitVec 32 := 512#32
  let v87 : BitVec 32 := Scalar.muli c3_i32 c512_i32_37
  let v88 : BitVec 32 := v87
  let v227 : Index := Scalar.indexCast v88
  ![0, v227.toNat]
def k0_mult9 : BitVec 32 :=
  let c4_i32_48 : BitVec 32 := 4#32
  let c64_i32_49 : BitVec 32 := 64#32
  let v110 : BitVec 32 := Scalar.muli c4_i32_48 c64_i32_49
  v110
def k0_mult10 : BitVec 32 :=
  let c4_i32_48 : BitVec 32 := 4#32
  let c512_i32_50 : BitVec 32 := 512#32
  let v112 : BitVec 32 := Scalar.muli c4_i32_48 c512_i32_50
  v112
def k0_cond6 (i : grid0.Coords) : BitVec 1 :=
  let arg1 : BitVec 32 := BitVec.ofNat 32 (i 1).val
  let c0_i32_51 : BitVec 32 := 0#32
  let v114 : BitVec 1 := Scalar.cmpi .eq arg1 c0_i32_51
  let v115 : BitVec 32 := Scalar.extui v114
  let c0_i32_52 : BitVec 32 := 0#32
  let v116 : BitVec 1 := Scalar.cmpi .ne v115 c0_i32_52
  v116

def k0_off7 : Fin 2 → Nat :=
  let c0_107 : Index := 0#32
  let c4_i32_48 : BitVec 32 := 4#32
  let c512_i32_50 : BitVec 32 := 512#32
  let v112 : BitVec 32 := Scalar.muli c4_i32_48 c512_i32_50
  let v113 : BitVec 32 := v112
  let v227 : Index := Scalar.indexCast v113
  ![0, v227.toNat]
def k0_mult11 : BitVec 32 :=
  let c5_i32 : BitVec 32 := 5#32
  let c64_i32_61 : BitVec 32 := 64#32
  let v135 : BitVec 32 := Scalar.muli c5_i32 c64_i32_61
  v135
def k0_mult12 : BitVec 32 :=
  let c5_i32 : BitVec 32 := 5#32
  let c512_i32_62 : BitVec 32 := 512#32
  let v137 : BitVec 32 := Scalar.muli c5_i32 c512_i32_62
  v137
def k0_cond7 (i : grid0.Coords) : BitVec 1 :=
  let arg1 : BitVec 32 := BitVec.ofNat 32 (i 1).val
  let c0_i32_63 : BitVec 32 := 0#32
  let v139 : BitVec 1 := Scalar.cmpi .eq arg1 c0_i32_63
  let v140 : BitVec 32 := Scalar.extui v139
  let c0_i32_64 : BitVec 32 := 0#32
  let v141 : BitVec 1 := Scalar.cmpi .ne v140 c0_i32_64
  v141

def k0_off8 : Fin 2 → Nat :=
  let c0_107 : Index := 0#32
  let c5_i32 : BitVec 32 := 5#32
  let c512_i32_62 : BitVec 32 := 512#32
  let v137 : BitVec 32 := Scalar.muli c5_i32 c512_i32_62
  let v138 : BitVec 32 := v137
  let v227 : Index := Scalar.indexCast v138
  ![0, v227.toNat]
def k0_mult13 : BitVec 32 :=
  let c6_i32 : BitVec 32 := 6#32
  let c64_i32_73 : BitVec 32 := 64#32
  let v160 : BitVec 32 := Scalar.muli c6_i32 c64_i32_73
  v160
def k0_mult14 : BitVec 32 :=
  let c6_i32 : BitVec 32 := 6#32
  let c512_i32_74 : BitVec 32 := 512#32
  let v162 : BitVec 32 := Scalar.muli c6_i32 c512_i32_74
  v162
def k0_cond8 (i : grid0.Coords) : BitVec 1 :=
  let arg1 : BitVec 32 := BitVec.ofNat 32 (i 1).val
  let c0_i32_75 : BitVec 32 := 0#32
  let v164 : BitVec 1 := Scalar.cmpi .eq arg1 c0_i32_75
  let v165 : BitVec 32 := Scalar.extui v164
  let c0_i32_76 : BitVec 32 := 0#32
  let v166 : BitVec 1 := Scalar.cmpi .ne v165 c0_i32_76
  v166

def k0_off9 : Fin 2 → Nat :=
  let c0_107 : Index := 0#32
  let c6_i32 : BitVec 32 := 6#32
  let c512_i32_74 : BitVec 32 := 512#32
  let v162 : BitVec 32 := Scalar.muli c6_i32 c512_i32_74
  let v163 : BitVec 32 := v162
  let v227 : Index := Scalar.indexCast v163
  ![0, v227.toNat]
def k0_mult15 : BitVec 32 :=
  let c7_i32 : BitVec 32 := 7#32
  let c64_i32_85 : BitVec 32 := 64#32
  let v185 : BitVec 32 := Scalar.muli c7_i32 c64_i32_85
  v185
def k0_mult16 : BitVec 32 :=
  let c7_i32 : BitVec 32 := 7#32
  let c512_i32_86 : BitVec 32 := 512#32
  let v187 : BitVec 32 := Scalar.muli c7_i32 c512_i32_86
  v187
def k0_cond9 (i : grid0.Coords) : BitVec 1 :=
  let arg1 : BitVec 32 := BitVec.ofNat 32 (i 1).val
  let c0_i32_87 : BitVec 32 := 0#32
  let v189 : BitVec 1 := Scalar.cmpi .eq arg1 c0_i32_87
  let v190 : BitVec 32 := Scalar.extui v189
  let c0_i32_88 : BitVec 32 := 0#32
  let v191 : BitVec 1 := Scalar.cmpi .ne v190 c0_i32_88
  v191

def k0_off10 : Fin 2 → Nat :=
  let c0_107 : Index := 0#32
  let c7_i32 : BitVec 32 := 7#32
  let c512_i32_86 : BitVec 32 := 512#32
  let v187 : BitVec 32 := Scalar.muli c7_i32 c512_i32_86
  let v188 : BitVec 32 := v187
  let v227 : Index := Scalar.indexCast v188
  ![0, v227.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x2048x4096_S8192x4096 : S4x2048x4096.ShapeCasts S8192x4096
  shapeCasts_S4096x1_S1x4096 : S4096x1.ShapeCasts S1x4096
  shapeCasts_S4096_S1x4096 : S4096.ShapeCasts S1x4096
  concatenates_S1x4096_S1x4096_S1x4096_S3x4096_d0 : Shape.Concatenates [S1x4096, S1x4096, S1x4096] S3x4096 0
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  iota_S1x8x1_d1_w32 : S1x8x1.Iotas .tc 32 [1]
  bitsLt_bf16_f32 : FTy.bits .bf16 < FTy.bits .f32
  reduces_S512x512_S512 : S512x512.Reduces [1] S512
  shapeCasts_S512_S512x1 : S512.ShapeCasts S512x1
  h_S64x512 : 0 < S64x512.numel
  shapeCasts_S64x512_S64x1x512 : S64x512.ShapeCasts S64x1x512
  broadcasts_S64x1x512_S64x8x512 : S64x1x512.Broadcasts S64x8x512
  broadcasts_S1x8x1_S64x8x512 : S1x8x1.Broadcasts S64x8x512
  shapeCasts_S64x8x512_S512x512 : S64x8x512.ShapeCasts S512x512
  inb_S3x512_S1x512_0_0 : ∀ a, (![0, 0] : Fin 2 → Nat) a + S1x512.size a ≤ S3x512.size a
  h_S1x512 : 0 < S1x512.numel
  shapeCasts_S1x512_S1x512 : S1x512.ShapeCasts S1x512
  inb_S3x512_S1x512_1_0 : ∀ a, (![1, 0] : Fin 2 → Nat) a + S1x512.size a ≤ S3x512.size a
  inb_S3x512_S1x512_2_0 : ∀ a, (![2, 0] : Fin 2 → Nat) a + S1x512.size a ≤ S3x512.size a
  broadcasts_S1x512_S512x512 : S1x512.Broadcasts S512x512
  broadcasts_S512x1_S512x512 : S512x1.Broadcasts S512x512
  shapeCasts_S8192x4096_S4x2048x4096 : S8192x4096.ShapeCasts S4x2048x4096
  dot_S512x512_S512x512_S512x512_1_0_0_1_n_n_wf : DotDims.WF S512x512 S512x512 S512x512 [1] [0] [0] [1] [] []
  hrank0 : 0 < grid0.rank
  k0_mult1_dvd : 64 ∣ k0_mult1.toNat
  k0_mult2_dvd : 512 ∣ k0_mult2.toNat
  k0_off1_inb : ∀ i : grid0.Coords, ∀ (k0_h2 : k0_cond2 i = 1#1), ∀ a, k0_off1 a + S512x512.size a ≤ S512x4096.size a
  k0_off1_packedbf16 : ∀ i : grid0.Coords, ∀ (k0_h2 : k0_cond2 i = 1#1), (Rect.unit (s := S512x4096) k0_off1 S512x512.size (k0_off1_inb i k0_h2)).PackedRows (EltTy.packing .bf16)
  k0_off2_inb : ∀ (r : Fin 8), ∀ a, (k0_off2 (BitVec.ofNat 32 r.val)) a + S64x512.size a ≤ S512x512.size a
  k0_off3_inb : ∀ (r : Fin 8), ∀ a, (k0_off3 (BitVec.ofNat 32 r.val)) a + S512x512.size a ≤ S512x4096.size a
  k0_mult3_dvd : 64 ∣ k0_mult3.toNat
  k0_mult4_dvd : 512 ∣ k0_mult4.toNat
  k0_off4_inb : ∀ i : grid0.Coords, ∀ (k0_h3 : k0_cond3 i = 1#1), ∀ a, k0_off4 a + S512x512.size a ≤ S512x4096.size a
  k0_off4_packedbf16 : ∀ i : grid0.Coords, ∀ (k0_h3 : k0_cond3 i = 1#1), (Rect.unit (s := S512x4096) k0_off4 S512x512.size (k0_off4_inb i k0_h3)).PackedRows (EltTy.packing .bf16)
  k0_mult5_dvd : 64 ∣ k0_mult5.toNat
  k0_mult6_dvd : 512 ∣ k0_mult6.toNat
  k0_off5_inb : ∀ i : grid0.Coords, ∀ (k0_h4 : k0_cond4 i = 1#1), ∀ a, k0_off5 a + S512x512.size a ≤ S512x4096.size a
  k0_off5_packedbf16 : ∀ i : grid0.Coords, ∀ (k0_h4 : k0_cond4 i = 1#1), (Rect.unit (s := S512x4096) k0_off5 S512x512.size (k0_off5_inb i k0_h4)).PackedRows (EltTy.packing .bf16)
  k0_mult7_dvd : 64 ∣ k0_mult7.toNat
  k0_mult8_dvd : 512 ∣ k0_mult8.toNat
  k0_off6_inb : ∀ i : grid0.Coords, ∀ (k0_h5 : k0_cond5 i = 1#1), ∀ a, k0_off6 a + S512x512.size a ≤ S512x4096.size a
  k0_off6_packedbf16 : ∀ i : grid0.Coords, ∀ (k0_h5 : k0_cond5 i = 1#1), (Rect.unit (s := S512x4096) k0_off6 S512x512.size (k0_off6_inb i k0_h5)).PackedRows (EltTy.packing .bf16)
  k0_mult9_dvd : 64 ∣ k0_mult9.toNat
  k0_mult10_dvd : 512 ∣ k0_mult10.toNat
  k0_off7_inb : ∀ i : grid0.Coords, ∀ (k0_h6 : k0_cond6 i = 1#1), ∀ a, k0_off7 a + S512x512.size a ≤ S512x4096.size a
  k0_off7_packedbf16 : ∀ i : grid0.Coords, ∀ (k0_h6 : k0_cond6 i = 1#1), (Rect.unit (s := S512x4096) k0_off7 S512x512.size (k0_off7_inb i k0_h6)).PackedRows (EltTy.packing .bf16)
  k0_mult11_dvd : 64 ∣ k0_mult11.toNat
  k0_mult12_dvd : 512 ∣ k0_mult12.toNat
  k0_off8_inb : ∀ i : grid0.Coords, ∀ (k0_h7 : k0_cond7 i = 1#1), ∀ a, k0_off8 a + S512x512.size a ≤ S512x4096.size a
  k0_off8_packedbf16 : ∀ i : grid0.Coords, ∀ (k0_h7 : k0_cond7 i = 1#1), (Rect.unit (s := S512x4096) k0_off8 S512x512.size (k0_off8_inb i k0_h7)).PackedRows (EltTy.packing .bf16)
  k0_mult13_dvd : 64 ∣ k0_mult13.toNat
  k0_mult14_dvd : 512 ∣ k0_mult14.toNat
  k0_off9_inb : ∀ i : grid0.Coords, ∀ (k0_h8 : k0_cond8 i = 1#1), ∀ a, k0_off9 a + S512x512.size a ≤ S512x4096.size a
  k0_off9_packedbf16 : ∀ i : grid0.Coords, ∀ (k0_h8 : k0_cond8 i = 1#1), (Rect.unit (s := S512x4096) k0_off9 S512x512.size (k0_off9_inb i k0_h8)).PackedRows (EltTy.packing .bf16)
  k0_mult15_dvd : 64 ∣ k0_mult15.toNat
  k0_mult16_dvd : 512 ∣ k0_mult16.toNat
  k0_off10_inb : ∀ i : grid0.Coords, ∀ (k0_h9 : k0_cond9 i = 1#1), ∀ a, k0_off10 a + S512x512.size a ≤ S512x4096.size a
  k0_off10_packedbf16 : ∀ i : grid0.Coords, ∀ (k0_h9 : k0_cond9 i = 1#1), (Rect.unit (s := S512x4096) k0_off10 S512x512.size (k0_off10_inb i k0_h9)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x4096.size a
  hwx0_1 : ∀ i : grid0.Coords, EltTy.bits .i32 = 32 ∨ (Rect.block (s := S512x4096) S512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x512.size a ≤ S3x4096.size a
  hwx0_2 : ∀ i : grid0.Coords, EltTy.bits .f32 = 32 ∨ (Rect.block (s := S3x4096) S3x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S8192x4096.size a
  hwx0_3 : ∀ i : grid0.Coords, EltTy.bits .f32 = 32 ∨ (Rect.block (s := S8192x4096) S512x512.size (cc0_transform_3 i) (hinb0_3 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S3x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S512x4096 : Shape := ⟨2, ![512, 4096]⟩
abbrev S4096x1 : Shape := ⟨2, ![4096, 1]⟩
abbrev S4096 : Shape := ⟨1, ![4096]⟩
abbrev S8192x4096 : Shape := ⟨2, ![8192, 4096]⟩
abbrev S8 : Shape := ⟨1, ![8]⟩
abbrev S_ : Shape := ⟨0, ![]⟩
abbrev S1x8x1 : Shape := ⟨3, ![1, 8, 1]⟩
abbrev S512x1x4096 : Shape := ⟨3, ![512, 1, 4096]⟩
abbrev S512x8x4096 : Shape := ⟨3, ![512, 8, 4096]⟩
abbrev S4096x4096 : Shape := ⟨2, ![4096, 4096]⟩
abbrev S1x4096 : Shape := ⟨2, ![1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S512x4096, .i32⟩
  | .hbm, ⟨2, _⟩ => ⟨S4096x1, .f32⟩
  | .hbm, ⟨3, _⟩ => ⟨S4096x1, .f32⟩
  | .hbm, ⟨4, _⟩ => ⟨S4096, .f32⟩
  | .hbm, ⟨5, _⟩ => ⟨S8192x4096, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S1x8x1, .i32⟩
  | .hbm, ⟨11, _⟩ => ⟨S512x1x4096, .i32⟩
  | .hbm, ⟨12, _⟩ => ⟨S512x8x4096, .i32⟩
  | .hbm, ⟨13, _⟩ => ⟨S512x8x4096, .i32⟩
  | .hbm, ⟨14, _⟩ => ⟨S512x8x4096, .i32⟩
  | .hbm, ⟨15, _⟩ => ⟨S_, .i32⟩
  | .hbm, ⟨16, _⟩ => ⟨S512x8x4096, .i32⟩
  | .hbm, ⟨17, _⟩ => ⟨S512x8x4096, .i32⟩
  | .hbm, ⟨18, _⟩ => ⟨S4096x4096, .i32⟩
  | .hbm, ⟨19, _⟩ => ⟨S4096x4096, .f32⟩
  | .hbm, ⟨20, _⟩ => ⟨S1x4096, .f32⟩
  | .hbm, ⟨21, _⟩ => ⟨S4096x4096, .f32⟩
  | .hbm, ⟨22, _⟩ => ⟨S4096x4096, .f32⟩
  | .hbm, ⟨23, _⟩ => ⟨S1x4096, .f32⟩
  | .hbm, ⟨24, _⟩ => ⟨S4096x4096, .f32⟩
  | .hbm, ⟨25, _⟩ => ⟨S4096x4096, .f32⟩
  | .hbm, ⟨26, _⟩ => ⟨S8192x4096, .f32⟩
  | .hbm, ⟨27, _⟩ => ⟨S1x4096, .f32⟩
  | .hbm, ⟨28, _⟩ => ⟨S8192x4096, .f32⟩
  | .hbm, ⟨29, _⟩ => ⟨S8192x4096, .f32⟩
  | .hbm, ⟨30, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  shapeCasts_S4x2048x4096_S8192x4096 : S4x2048x4096.ShapeCasts S8192x4096
  bcast_S_S8 : S_.BroadcastsInDim S8 (![] : Fin 0 → Fin S8.rank)
  bcast_S8_S1x8x1_1 : S8.BroadcastsInDim S1x8x1 (![1] : Fin 1 → Fin S1x8x1.rank)
  bcast_S512x4096_S512x1x4096_0_2 : S512x4096.BroadcastsInDim S512x1x4096 (![0, 2] : Fin 2 → Fin S512x1x4096.rank)
  bcast_S512x1x4096_S512x8x4096_0_1_2 : S512x1x4096.BroadcastsInDim S512x8x4096 (![0, 1, 2] : Fin 3 → Fin S512x8x4096.rank)
  bcast_S1x8x1_S512x8x4096_0_1_2 : S1x8x1.BroadcastsInDim S512x8x4096 (![0, 1, 2] : Fin 3 → Fin S512x8x4096.rank)
  bcast_S_S512x8x4096 : S_.BroadcastsInDim S512x8x4096 (![] : Fin 0 → Fin S512x8x4096.rank)
  shapeCasts_S512x8x4096_S4096x4096 : S512x8x4096.ShapeCasts S4096x4096
  transposes_S4096x1_S1x4096_1_0 : S4096x1.Transposes [1, 0] S1x4096
  bcast_S1x4096_S4096x4096_0_1 : S1x4096.BroadcastsInDim S4096x4096 (![0, 1] : Fin 2 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S4x2048x4096 : S8192x4096.ShapeCasts S4x2048x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.K.Kit.lean ====
/-
  What the frame of the program is stated over. What the buffers hold when the region is entered (the fold
  of the five host operations before it — four reshapes and a three-piece concatenation — over the launch
  memory), @main as the host prefix, the region and the host reshape after it, each window's block of its array, the argument arrays untouched by the host operations, the
  nine conditionals of the body (all one test: the second grid coordinate is zero) in closed form over
  the grid, and the scratch operands as memrefs.
-/
import proofs.«400840_j54331336294693_3_alg».proof.Proof.Gen.Kernel.Launch
import proofs.«400840_j54331336294693_3_alg».proof.Proof.Gen.Kernel.Skeleton
import proofs.«400840_j54331336294693_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffer contents when the region is entered: the launch memory after the four reshapes and the
    concatenation. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host prefix, the region, and the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches unscoped TensorCore references only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- None of the host operations before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host operations before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host operations before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host operations before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host operations before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nor does the reshape after the region: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Nor does the reshape after the region: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- Nor does the reshape after the region: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block of the array at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block of the array at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block of the array at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run's -/

/-- A run that ends with every array of the pipeline as the proof data computes it, and every other unscoped
    buffer as the reshape after the region leaves it, ends with the five argument arrays unchanged: the
    packed weights are an input window's array, the other four are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    (((h c).2 main_arg0 (Pipeline.mem_restRefs_of main_arg0 (by decide) (by decide))).trans (W_main_arg0 m dats c)),
    ((h c).1 1).trans (((dats 0 c).arrAt_in 1 rfl _).trans ((hA c 1).trans (V_main_arg1 m c))),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c))⟩) h

/-! ## The body's conditionals -/

/-- The condition of the body's conditional 0 (the grid's second coordinate is zero), `scf.if` 0. -/
abbrev cond0_0 (i : grid0.Coords) : Prop := (Scalar.cmpi .ne (Scalar.extui (Scalar.cmpi .eq (BitVec.ofNat 32 (i 1).val) 0#32)) 0#32) = 1#1
/-- It holds exactly at the points whose position is a multiple of 8: decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's conditional 1 (the grid's second coordinate is zero), `scf.if` 1. -/
abbrev cond0_1 (i : grid0.Coords) : Prop := k0_cond2 i = 1#1
/-- It holds exactly at the points whose position is a multiple of 8: decided over the grid. -/
theorem hcond0_1 : ∀ t : Fin cfg0.N, cond0_1 (grid0.coords t) ↔ t.val % 8 = 0 :=
  (by decide +kernel : ∀ t : Fin grid0.N, cond0_1 (grid0.coords t) ↔ t.val % 8 = 0)

/-- The condition of the body's conditional 2 (the grid's second coordinate is zero), `scf.if` 2. -/
abbrev cond0_2 (i : grid0.Coords) : Prop := k0_cond3 i = 1#1
/-- It holds exactly at the points whose position is a multiple of 8: decided over the grid. -/
theorem hcond0_2 : ∀ t : Fin cfg0.N, cond0_2 (grid0.coords t) ↔ t.val % 8 = 0 :=
  (by decide +kernel : ∀ t : Fin grid0.N, cond0_2 (grid0.coords t) ↔ t.val % 8 = 0)

/-- The condition of the body's conditional 3 (the grid's second coordinate is zero), `scf.if` 3. -/
abbrev cond0_3 (i : grid0.Coords) : Prop := k0_cond4 i = 1#1
/-- It holds exactly at the points whose position is a multiple of 8: decided over the grid. -/
theorem hcond0_3 : ∀ t : Fin cfg0.N, cond0_3 (grid0.coords t) ↔ t.val % 8 = 0 :=
  (by decide +kernel : ∀ t : Fin grid0.N, cond0_3 (grid0.coords t) ↔ t.val % 8 = 0)

/-- The condition of the body's conditional 4 (the grid's second coordinate is zero), `scf.if` 4. -/
abbrev cond0_4 (i : grid0.Coords) : Prop := k0_cond5 i = 1#1
/-- It holds exactly at the points whose position is a multiple of 8: decided over the grid. -/
theorem hcond0_4 : ∀ t : Fin cfg0.N, cond0_4 (grid0.coords t) ↔ t.val % 8 = 0 :=
  (by decide +kernel : ∀ t : Fin grid0.N, cond0_4 (grid0.coords t) ↔ t.val % 8 = 0)

/-- The condition of the body's conditional 5 (the grid's second coordinate is zero), `scf.if` 5. -/
abbrev cond0_5 (i : grid0.Coords) : Prop := k0_cond6 i = 1#1
/-- It holds exactly at the points whose position is a multiple of 8: decided over the grid. -/
theorem hcond0_5 : ∀ t : Fin cfg0.N, cond0_5 (grid0.coords t) ↔ t.val % 8 = 0 :=
  (by decide +kernel : ∀ t : Fin grid0.N, cond0_5 (grid0.coords t) ↔ t.val % 8 = 0)

/-- The condition of the body's conditional 6 (the grid's second coordinate is zero), `scf.if` 6. -/
abbrev cond0_6 (i : grid0.Coords) : Prop := k0_cond7 i = 1#1
/-- It holds exactly at the points whose position is a multiple of 8: decided over the grid. -/
theorem hcond0_6 : ∀ t : Fin cfg0.N, cond0_6 (grid0.coords t) ↔ t.val % 8 = 0 :=
  (by decide +kernel : ∀ t : Fin grid0.N, cond0_6 (grid0.coords t) ↔ t.val % 8 = 0)

/-- The condition of the body's conditional 7 (the grid's second coordinate is zero), `scf.if` 7. -/
abbrev cond0_7 (i : grid0.Coords) : Prop := k0_cond8 i = 1#1
/-- It holds exactly at the points whose position is a multiple of 8: decided over the grid. -/
theorem hcond0_7 : ∀ t : Fin cfg0.N, cond0_7 (grid0.coords t) ↔ t.val % 8 = 0 :=
  (by decide +kernel : ∀ t : Fin grid0.N, cond0_7 (grid0.coords t) ↔ t.val % 8 = 0)

/-- The condition of the body's conditional 8 (the grid's second coordinate is zero), `scf.if` 8. -/
abbrev cond0_8 (i : grid0.Coords) : Prop := k0_cond9 i = 1#1
/-- It holds exactly at the points whose position is a multiple of 8: decided over the grid. -/
theorem hcond0_8 : ∀ t : Fin cfg0.N, cond0_8 (grid0.coords t) ↔ t.val % 8 = 0 :=
  (by decide +kernel : ∀ t : Fin grid0.N, cond0_8 (grid0.coords t) ↔ t.val % 8 = 0)

/-! ## The windows are never idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## The memrefs the body is called with -/

/-- Each window's current staging memref at point t, as the pipeline passes it, and its wholeness. -/
abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
/-- One staging buffer of the output window, through which its contents are stated. -/
abbrev VO0_3 : View sig .tc .vmem S512x512 .f32 := (Memref.whole cc0_stg3_0 : Memref sig .tc .vmem S512x512 .f32).view
/-- The scratch operands: the row block cast to the matrix unit's input format, its row sums, the accumulator. -/
abbrev scM0_0 : Memref sig .tc .vmem S512x4096 .bf16 := Memref.whole cc0_scratch0
abbrev scM0_1 : Memref sig .tc .vmem S512x1 .f32 := Memref.whole cc0_scratch1
abbrev scM0_2 : Memref sig .tc .vmem S512x512 .f32 := Memref.whole cc0_scratch2
abbrev VS0_0 : View sig .tc .vmem S512x4096 .bf16 := scM0_0.view
abbrev VS0_1 : View sig .tc .vmem S512x1 .f32 := scM0_1.view
abbrev VS0_2 : View sig .tc .vmem S512x512 .f32 := scM0_2.view

/-- What the region lends the body beside the windows: the three scratch buffers at some contents and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Frm

end
-- ==== Proof.K.RunA.lean ====
/-
  The kernel body run once at a grid point whose second coordinate is zero (the first of the eight points
  of a row block): all nine conditionals are taken. On whole memrefs — the three input windows at their
  blocks, the output window and the three scratch buffers at anything — the body runs to the end and
  leaves the inputs as they were and, in the output window and in each scratch buffer, the pieces its
  stores wrote; the pieces are found by running the body's skeleton of memory operations.
-/
import proofs.«400840_j54331336294693_3_alg».proof.Proof.K.Kit

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body leaves in the output window and the three scratch buffers at a first point of a row
    block, with the proof that it runs to them. -/
noncomputable def kernelRun0_A (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec F S512x4096 .f32) (x1 : Vec F S512x512 .i32) (x2 : Vec F S3x512 .f32) :
    Σ' (L3 : List (View.Piece (Elt F) S512x512 .f32)) (LS0 : List (View.Piece (Elt F) S512x4096 .bf16)) (LS1 : List (View.Piece (Elt F) S512x1 .f32)), { LS2 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__dequant_matmul_kernel i arg2 harg2 arg3 harg3 arg4 harg4 arg5 harg5 arg6 harg6 arg7 harg7 arg8 harg8) K } := by
  refine ⟨?_, ?_, ?_, ?_, fun E K => ?run⟩
  case run =>
    simp only [cc0__dequant_matmul_kernel_eq_skeleton]; unfold cc0__dequant_matmul_kernel_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7 | exact hc8)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [HS0]
    · iexists _; iexact HS0
    isplitl [HS1]
    · iexists _; iexact HS1
    iexists _; iexact HS2

end Cert.Kernel.Frm

end
-- ==== Proof.K.RunB.lean ====
/-
  The kernel body run once at a grid point whose second coordinate is not zero (the seven later points of
  a row block): none of the nine conditionals is taken, so the body neither casts the row block nor sums
  its rows but reads both from the scratch buffers, where the block's first point left them. On whole
  memrefs — the three input windows at their blocks, the cast row block and the row sums at what is
  carried, the output window and the accumulator at anything — the body runs to the end, leaves the
  inputs and the two carried buffers as they were and, in the output window and the accumulator, the
  pieces its stores wrote.
-/
import proofs.«400840_j54331336294693_3_alg».proof.Proof.K.Kit

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body leaves in the output window and the accumulator at a later point of a row block, with
    the proof that it runs to them. -/
noncomputable def kernelRun0_B (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec F S512x4096 .f32) (x1 : Vec F S512x512 .i32) (x2 : Vec F S3x512 .f32)
    (xs0 : Vec F S512x4096 .bf16) (xs1 : Vec F S512x1 .f32) :
    Σ' (L3 : List (View.Piece (Elt F) S512x512 .f32)), { LS2 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xs0 ∗ owns (c : Thread nD τ) arg7 fullShare xs1 ∗ (∃ f, arg8.view.loc (c : Thread nD τ) ↦[arg8.view.set]{fullShare} arg8.view.writes (Elt F) f LS2)) -∗ K ⟨⟩))
          ⊢ wp frame (wpE (defs₀ (F := F)) Variants.none c none) E (cc0__dequant_matmul_kernel i arg2 harg2 arg3 harg3 arg4 harg4 arg5 harg5 arg6 harg6 arg7 harg7 arg8 harg8) K } := by
  refine ⟨?_, ?_, fun E K => ?run⟩
  case run =>
    simp only [cc0__dequant_matmul_kernel_eq_skeleton]; unfold cc0__dequant_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1 | exact hc2 | exact hc3 | exact hc4 | exact hc5 | exact hc6 | exact hc7 | exact hc8)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [HS0]
    · iexists _; isplitr; · ipureintro; exact harg6.read_unread _
      iexact HS0
    isplitl [HS1]
    · iexists _; isplitr; · ipureintro; exact harg7.read_unread _
      iexact HS1
    iexists _; iexact HS2

end Cert.Kernel.Frm

end
-- ==== Proof.K.Frame.lean ====
/-
  The frame of the program: what the output window's staging buffer and the two scratch buffers the kernel
  carries between grid points (the row block cast for the matrix unit, and its row sums) hold after each
  point, the pipeline's proof data, the body obligation at every point, and the run of @main.

  The grid is 16 row blocks by 8 column blocks, the column index running fastest, so a point's position is
  8·(row block) + (column block). At a position that is a multiple of 8 the body rebuilds both carried
  buffers from the row block; at the other positions it leaves them as the point before did. The
  accumulator is cleared at every point and carries nothing.
-/
import proofs.«400840_j54331336294693_3_alg».proof.Proof.K.RunA
import proofs.«400840_j54331336294693_3_alg».proof.Proof.K.RunB

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one run of the body leaves -/

/-- At a first point the one store into the output window covers it. -/
theorem cover0_A_3 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole) (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i) (x0 : Vec F S512x4096 .f32) (x1 : Vec F S512x512 .i32) (x2 : Vec F S3x512 .f32) (y : S512x512.Idx) :
    ∃ pc ∈ (kernelRun0_A c i arg2 harg2 arg3 harg3 arg4 harg4 arg5 harg5 arg6 harg6 arg7 harg7 arg8 harg8 hc0 hc1 hc2 hc3 hc4 hc5 hc6 hc7 hc8 x0 x1 x2).1, y ∈ pc.1.set :=
  View.cover_of_tiledL (kernelRun0_A c i arg2 harg2 arg3 harg3 arg4 harg4 arg5 harg5 arg6 harg6 arg7 harg7 arg8 harg8 hc0 hc1 hc2 hc3 hc4 hc5 hc6 hc7 hc8 x0 x1 x2).1 S512x512.size (by sl_kernel_rfl) y
/-- What a first point leaves in the output window's buffer: its pieces read back. -/
def out0_A_3 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole) (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i) (x0 : Vec F S512x4096 .f32) (x1 : Vec F S512x512 .i32) (x2 : Vec F S3x512 .f32) : Vec F S512x512 .f32 :=
  VO0_3.read (Elt F) (VO0_3.writes (Elt F) VO0_3.junk (kernelRun0_A c i arg2 harg2 arg3 harg3 arg4 harg4 arg5 harg5 arg6 harg6 arg7 harg7 arg8 harg8 hc0 hc1 hc2 hc3 hc4 hc5 hc6 hc7 hc8 x0 x1 x2).1)
/-- At a first point the eight column slabs stored into the cast row block tile it. -/
theorem scover0_A_0 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole) (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i) (x0 : Vec F S512x4096 .f32) (x1 : Vec F S512x512 .i32) (x2 : Vec F S3x512 .f32) (y : S512x4096.Idx) :
    ∃ pc ∈ (kernelRun0_A c i arg2 harg2 arg3 harg3 arg4 harg4 arg5 harg5 arg6 harg6 arg7 harg7 arg8 harg8 hc0 hc1 hc2 hc3 hc4 hc5 hc6 hc7 hc8 x0 x1 x2).2.1, y ∈ pc.1.set :=
  View.cover_of_tiledL (kernelRun0_A c i arg2 harg2 arg3 harg3 arg4 harg4 arg5 harg5 arg6 harg6 arg7 harg7 arg8 harg8 hc0 hc1 hc2 hc3 hc4 hc5 hc6 hc7 hc8 x0 x1 x2).2.1 S512x512.size (by sl_kernel_rfl) y
/-- What a first point leaves in the cast row block. -/
def sout0_A_0 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole) (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i) (x0 : Vec F S512x4096 .f32) (x1 : Vec F S512x512 .i32) (x2 : Vec F S3x512 .f32) : Vec F S512x4096 .bf16 :=
  VS0_0.read (Elt F) (VS0_0.writes (Elt F) VS0_0.junk (kernelRun0_A c i arg2 harg2 arg3 harg3 arg4 harg4 arg5 harg5 arg6 harg6 arg7 harg7 arg8 harg8 hc0 hc1 hc2 hc3 hc4 hc5 hc6 hc7 hc8 x0 x1 x2).2.1)
/-- At a first point the stores into the row sums (each whole) cover them. -/
theorem scover0_A_1 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole) (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i) (x0 : Vec F S512x4096 .f32) (x1 : Vec F S512x512 .i32) (x2 : Vec F S3x512 .f32) (y : S512x1.Idx) :
    ∃ pc ∈ (kernelRun0_A c i arg2 harg2 arg3 harg3 arg4 harg4 arg5 harg5 arg6 harg6 arg7 harg7 arg8 harg8 hc0 hc1 hc2 hc3 hc4 hc5 hc6 hc7 hc8 x0 x1 x2).2.2.1, y ∈ pc.1.set :=
  View.cover_of_tiledL (kernelRun0_A c i arg2 harg2 arg3 harg3 arg4 harg4 arg5 harg5 arg6 harg6 arg7 harg7 arg8 harg8 hc0 hc1 hc2 hc3 hc4 hc5 hc6 hc7 hc8 x0 x1 x2).2.2.1 S512x1.size (by sl_kernel_rfl) y
/-- What a first point leaves in the row sums. -/
def sout0_A_1 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole) (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i) (x0 : Vec F S512x4096 .f32) (x1 : Vec F S512x512 .i32) (x2 : Vec F S3x512 .f32) : Vec F S512x1 .f32 :=
  VS0_1.read (Elt F) (VS0_1.writes (Elt F) VS0_1.junk (kernelRun0_A c i arg2 harg2 arg3 harg3 arg4 harg4 arg5 harg5 arg6 harg6 arg7 harg7 arg8 harg8 hc0 hc1 hc2 hc3 hc4 hc5 hc6 hc7 hc8 x0 x1 x2).2.2.1)
/-- At a later point the one store into the output window covers it. -/
theorem cover0_B_3 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) (x0 : Vec F S512x4096 .f32) (x1 : Vec F S512x512 .i32) (x2 : Vec F S3x512 .f32) (xs0 : Vec F S512x4096 .bf16) (xs1 : Vec F S512x1 .f32) (y : S512x512.Idx) :
    ∃ pc ∈ (kernelRun0_B c i arg2 harg2 arg3 harg3 arg4 harg4 arg5 harg5 arg6 harg6 arg7 harg7 arg8 harg8 hc0 hc1 hc2 hc3 hc4 hc5 hc6 hc7 hc8 x0 x1 x2 xs0 xs1).1, y ∈ pc.1.set :=
  View.cover_of_tiledL (kernelRun0_B c i arg2 harg2 arg3 harg3 arg4 harg4 arg5 harg5 arg6 harg6 arg7 harg7 arg8 harg8 hc0 hc1 hc2 hc3 hc4 hc5 hc6 hc7 hc8 x0 x1 x2 xs0 xs1).1 S512x512.size (by sl_kernel_rfl) y
/-- What a later point leaves in the output window's buffer. -/
def out0_B_3 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) (x0 : Vec F S512x4096 .f32) (x1 : Vec F S512x512 .i32) (x2 : Vec F S3x512 .f32) (xs0 : Vec F S512x4096 .bf16) (xs1 : Vec F S512x1 .f32) : Vec F S512x512 .f32 :=
  VO0_3.read (Elt F) (VO0_3.writes (Elt F) VO0_3.junk (kernelRun0_B c i arg2 harg2 arg3 harg3 arg4 harg4 arg5 harg5 arg6 harg6 arg7 harg7 arg8 harg8 hc0 hc1 hc2 hc3 hc4 hc5 hc6 hc7 hc8 x0 x1 x2 xs0 xs1).1)

/-! ## What the buffers hold after each point -/

/-- After the body at position n: the output window's buffer, the cast row block, the row sums. A position that
    is a multiple of 8 rebuilds all three from the point's blocks; any other computes the output from the two
    carried buffers as the position before left them, and leaves those alone. -/
def outsAt0 (c : Dev nD) : (n : ℕ) → n < cfg0.N → Vec F S512x512 .f32 × Vec F S512x4096 .bf16 × Vec F S512x1 .f32
  | 0, hn =>
    have h0 : (⟨0, hn⟩ : Fin cfg0.N).val % 8 = 0 := Nat.zero_mod _
    (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr h0) ((hcond0_1 ⟨0, hn⟩).mpr h0) ((hcond0_2 ⟨0, hn⟩).mpr h0) ((hcond0_3 ⟨0, hn⟩).mpr h0) ((hcond0_4 ⟨0, hn⟩).mpr h0) ((hcond0_5 ⟨0, hn⟩).mpr h0) ((hcond0_6 ⟨0, hn⟩).mpr h0) ((hcond0_7 ⟨0, hn⟩).mpr h0) ((hcond0_8 ⟨0, hn⟩).mpr h0) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr h0) ((hcond0_1 ⟨0, hn⟩).mpr h0) ((hcond0_2 ⟨0, hn⟩).mpr h0) ((hcond0_3 ⟨0, hn⟩).mpr h0) ((hcond0_4 ⟨0, hn⟩).mpr h0) ((hcond0_5 ⟨0, hn⟩).mpr h0) ((hcond0_6 ⟨0, hn⟩).mpr h0) ((hcond0_7 ⟨0, hn⟩).mpr h0) ((hcond0_8 ⟨0, hn⟩).mpr h0) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr h0) ((hcond0_1 ⟨0, hn⟩).mpr h0) ((hcond0_2 ⟨0, hn⟩).mpr h0) ((hcond0_3 ⟨0, hn⟩).mpr h0) ((hcond0_4 ⟨0, hn⟩).mpr h0) ((hcond0_5 ⟨0, hn⟩).mpr h0) ((hcond0_6 ⟨0, hn⟩).mpr h0) ((hcond0_7 ⟨0, hn⟩).mpr h0) ((hcond0_8 ⟨0, hn⟩).mpr h0) (iblk m c 0 ⟨0, hn⟩) (iblk m c 1 ⟨0, hn⟩) (iblk m c 2 ⟨0, hn⟩))
  | n + 1, hn =>
    if h0 : (n + 1) % 8 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h0) ((hcond0_2 ⟨n + 1, hn⟩).mpr h0) ((hcond0_3 ⟨n + 1, hn⟩).mpr h0) ((hcond0_4 ⟨n + 1, hn⟩).mpr h0) ((hcond0_5 ⟨n + 1, hn⟩).mpr h0) ((hcond0_6 ⟨n + 1, hn⟩).mpr h0) ((hcond0_7 ⟨n + 1, hn⟩).mpr h0) ((hcond0_8 ⟨n + 1, hn⟩).mpr h0) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h0) ((hcond0_2 ⟨n + 1, hn⟩).mpr h0) ((hcond0_3 ⟨n + 1, hn⟩).mpr h0) ((hcond0_4 ⟨n + 1, hn⟩).mpr h0) ((hcond0_5 ⟨n + 1, hn⟩).mpr h0) ((hcond0_6 ⟨n + 1, hn⟩).mpr h0) ((hcond0_7 ⟨n + 1, hn⟩).mpr h0) ((hcond0_8 ⟨n + 1, hn⟩).mpr h0) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h0) ((hcond0_2 ⟨n + 1, hn⟩).mpr h0) ((hcond0_3 ⟨n + 1, hn⟩).mpr h0) ((hcond0_4 ⟨n + 1, hn⟩).mpr h0) ((hcond0_5 ⟨n + 1, hn⟩).mpr h0) ((hcond0_6 ⟨n + 1, hn⟩).mpr h0) ((hcond0_7 ⟨n + 1, hn⟩).mpr h0) ((hcond0_8 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h0 ((hcond0_1 ⟨n + 1, hn⟩).mp h)) (fun h => h0 ((hcond0_2 ⟨n + 1, hn⟩).mp h)) (fun h => h0 ((hcond0_3 ⟨n + 1, hn⟩).mp h)) (fun h => h0 ((hcond0_4 ⟨n + 1, hn⟩).mp h)) (fun h => h0 ((hcond0_5 ⟨n + 1, hn⟩).mp h)) (fun h => h0 ((hcond0_6 ⟨n + 1, hn⟩).mp h)) (fun h => h0 ((hcond0_7 ⟨n + 1, hn⟩).mp h)) (fun h => h0 ((hcond0_8 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2,
        (outsAt0 c n (Nat.lt_of_succ_lt hn)).2.1, (outsAt0 c n (Nat.lt_of_succ_lt hn)).2.2)

/-- At a first point of a row block. -/
theorem outsAt0_A (c : Dev nD) (t : Fin cfg0.N) (h0 : t.val % 8 = 0) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h0) ((hcond0_2 t).mpr h0) ((hcond0_3 t).mpr h0) ((hcond0_4 t).mpr h0) ((hcond0_5 t).mpr h0) ((hcond0_6 t).mpr h0) ((hcond0_7 t).mpr h0) ((hcond0_8 t).mpr h0) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h0) ((hcond0_2 t).mpr h0) ((hcond0_3 t).mpr h0) ((hcond0_4 t).mpr h0) ((hcond0_5 t).mpr h0) ((hcond0_6 t).mpr h0) ((hcond0_7 t).mpr h0) ((hcond0_8 t).mpr h0) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h0) ((hcond0_2 t).mpr h0) ((hcond0_3 t).mpr h0) ((hcond0_4 t).mpr h0) ((hcond0_5 t).mpr h0) ((hcond0_6 t).mpr h0) ((hcond0_7 t).mpr h0) ((hcond0_8 t).mpr h0) (iblk m c 0 t) (iblk m c 1 t) (iblk m c 2 t)) := by
  obtain ⟨n, hn⟩ := t
  cases n with
  | zero => exact rfl
  | succ n => exact (dif_pos h0).trans rfl

/-- At a later point, over what the point before left. -/
theorem outsAt0_B (c : Dev nD) (t : Fin cfg0.N) (h0 : ¬t.val % 8 = 0) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h0 ((hcond0_1 t).mp h)) (fun h => h0 ((hcond0_2 t).mp h)) (fun h => h0 ((hcond0_3 t).mp h)) (fun h => h0 ((hcond0_4 t).mp h)) (fun h => h0 ((hcond0_5 t).mp h)) (fun h => h0 ((hcond0_6 t).mp h)) (fun h => h0 ((hcond0_7 t).mp h)) (fun h => h0 ((hcond0_8 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
      (outsAt0 m c (t.val - 1) (Nat.lt_of_le_of_lt (Nat.sub_le _ _) t.isLt)).2.1, (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region's invariant before position n: before the first point, the three scratch buffers at anything;
    afterwards the two carried ones at what the point before left, the accumulator at anything; the generator
    register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2) ∗ (∃ d, owns (c : Thread nD τ) scM0_2 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2) ∗ (∃ d, owns (c : Thread nD τ) scM0_2 fullShare d)) ∗ (∃ r, prngReg c r)) := by
  cases n with
  | zero => exact absurd rfl hz
  | succ n => rfl

/-! ## The pipeline's proof data -/

/-- On core c: the arrays as the region finds them; after the body at a point each input's buffer at its block
    and the output's at what the point computed; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the position's remainder mod 8 says which of
    the two runs applies; the invariant lends the scratch buffers (the carried ones at what the point before
    left, or all three at anything before the first point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 8 = 0
  · rw [outsAt0_A m c t h0]
    unfold out0_A_3 sout0_A_0 sout0_A_1; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ ((hcond0_0 t).mpr h0) ((hcond0_1 t).mpr h0) ((hcond0_2 t).mpr h0) ((hcond0_3 t).mpr h0) ((hcond0_4 t).mpr h0) ((hcond0_5 t).mpr h0) ((hcond0_6 t).mpr h0) ((hcond0_7 t).mpr h0) ((hcond0_8 t).mpr h0) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _)
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _ _ _ _ _ _ _ _ _ _ _ _ _)
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ ((hcond0_0 t).mpr h0) ((hcond0_1 t).mpr h0) ((hcond0_2 t).mpr h0) ((hcond0_3 t).mpr h0) ((hcond0_4 t).mpr h0) ((hcond0_5 t).mpr h0) ((hcond0_6 t).mpr h0) ((hcond0_7 t).mpr h0) ((hcond0_8 t).mpr h0) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _)
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _ _ _ _ _ _ _ _ _ _ _ _ _)
  · rw [outsAt0_B m c t h0]
    unfold out0_B_3; (try dsimp only)
    have hz : t.val ≠ 0 := fun h => h0 (by rw [h])
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩⟩
    iapply ((kernelRun0_B c (grid0.coords t) _ _ _ _ _ _ _ _ _ _ _ _ _ _ (fun h => h0 ((hcond0_0 t).mp h)) (fun h => h0 ((hcond0_1 t).mp h)) (fun h => h0 ((hcond0_2 t).mp h)) (fun h => h0 ((hcond0_3 t).mp h)) (fun h => h0 ((hcond0_4 t).mp h)) (fun h => h0 ((hcond0_5 t).mp h)) (fun h => h0 ((hcond0_6 t).mp h)) (fun h => h0 ((hcond0_7 t).mp h)) (fun h => h0 ((hcond0_8 t).mp h)) (iblk m c 0 t) (iblk m c 1 t) (iblk m c 2 t) _ _).2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, ⟨%es2, HS2⟩⟩
    isplitl [HS0 HS1 HS2 Hg]
    · isplitr [Hg]
      · isplitl [HS0]; · iexact HS0
        isplitl [HS1]; · iexact HS1
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the scratch buffers back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitr [Hg]
  · isplitl [HS0]; · iexists _; iexact HS0
    isplitl [HS1]; · iexists _; iexact HS1
    iexact HS2
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, and every final state has each array of the pipeline at what
    the library computes from the proof data, every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any instance: the five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Frm

end
-- ==== Proof.KI.Kit.lean ====
/-
  What the frame of the program is stated over. What the buffers hold when the region is entered (the fold
  of the five host operations before it — four reshapes and a three-piece concatenation — over the launch
  memory), @main as the host prefix, the region and the host reshape after it, each window's block of its array, the argument arrays untouched by the host operations, the
  nine conditionals of the body (all one test: the second grid coordinate is zero) in closed form over
  the grid, and the scratch operands as memrefs.
-/
import proofs.«400840_j54331336294693_3_alg».proof.Proof.Gen.KernelIdeal.Launch
import proofs.«400840_j54331336294693_3_alg».proof.Proof.Gen.KernelIdeal.Skeleton
import proofs.«400840_j54331336294693_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffer contents when the region is entered: the launch memory after the four reshapes and the
    concatenation. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host prefix, the region, and the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches unscoped TensorCore references only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- None of the host operations before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host operations before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host operations before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host operations before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host operations before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nor does the reshape after the region: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Nor does the reshape after the region: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- Nor does the reshape after the region: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block of the array at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block of the array at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block of the array at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run's -/

/-- A run that ends with every array of the pipeline as the proof data computes it, and every other unscoped
    buffer as the reshape after the region leaves it, ends with the five argument arrays unchanged: the
    packed weights are an input window's array, the other four are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    (((h c).2 main_arg0 (Pipeline.mem_restRefs_of main_arg0 (by decide) (by decide))).trans (W_main_arg0 m dats c)),
    ((h c).1 1).trans (((dats 0 c).arrAt_in 1 rfl _).trans ((hA c 1).trans (V_main_arg1 m c))),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c))⟩) h

/-! ## The body's conditionals -/

/-- The condition of the body's conditional 0 (the grid's second coordinate is zero), `scf.if` 0. -/
abbrev cond0_0 (i : grid0.Coords) : Prop := (Scalar.cmpi .ne (Scalar.extui (Scalar.cmpi .eq (BitVec.ofNat 32 (i 1).val) 0#32)) 0#32) = 1#1
/-- It holds exactly at the points whose position is a multiple of 8: decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's conditional 1 (the grid's second coordinate is zero), `scf.if` 1. -/
abbrev cond0_1 (i : grid0.Coords) : Prop := k0_cond2 i = 1#1
/-- It holds exactly at the points whose position is a multiple of 8: decided over the grid. -/
theorem hcond0_1 : ∀ t : Fin cfg0.N, cond0_1 (grid0.coords t) ↔ t.val % 8 = 0 :=
  (by decide +kernel : ∀ t : Fin grid0.N, cond0_1 (grid0.coords t) ↔ t.val % 8 = 0)

/-- The condition of the body's conditional 2 (the grid's second coordinate is zero), `scf.if` 2. -/
abbrev cond0_2 (i : grid0.Coords) : Prop := k0_cond3 i = 1#1
/-- It holds exactly at the points whose position is a multiple of 8: decided over the grid. -/
theorem hcond0_2 : ∀ t : Fin cfg0.N, cond0_2 (grid0.coords t) ↔ t.val % 8 = 0 :=
  (by decide +kernel : ∀ t : Fin grid0.N, cond0_2 (grid0.coords t) ↔ t.val % 8 = 0)

/-- The condition of the body's conditional 3 (the grid's second coordinate is zero), `scf.if` 3. -/
abbrev cond0_3 (i : grid0.Coords) : Prop := k0_cond4 i = 1#1
/-- It holds exactly at the points whose position is a multiple of 8: decided over the grid. -/
theorem hcond0_3 : ∀ t : Fin cfg0.N, cond0_3 (grid0.coords t) ↔ t.val % 8 = 0 :=
  (by decide +kernel : ∀ t : Fin grid0.N, cond0_3 (grid0.coords t) ↔ t.val % 8 = 0)

/-- The condition of the body's conditional 4 (the grid's second coordinate is zero), `scf.if` 4. -/
abbrev cond0_4 (i : grid0.Coords) : Prop := k0_cond5 i = 1#1
/-- It holds exactly at the points whose position is a multiple of 8: decided over the grid. -/
theorem hcond0_4 : ∀ t : Fin cfg0.N, cond0_4 (grid0.coords t) ↔ t.val % 8 = 0 :=
  (by decide +kernel : ∀ t : Fin grid0.N, cond0_4 (grid0.coords t) ↔ t.val % 8 = 0)

/-- The condition of the body's conditional 5 (the grid's second coordinate is zero), `scf.if` 5. -/
abbrev cond0_5 (i : grid0.Coords) : Prop := k0_cond6 i = 1#1
/-- It holds exactly at the points whose position is a multiple of 8: decided over the grid. -/
theorem hcond0_5 : ∀ t : Fin cfg0.N, cond0_5 (grid0.coords t) ↔ t.val % 8 = 0 :=
  (by decide +kernel : ∀ t : Fin grid0.N, cond0_5 (grid0.coords t) ↔ t.val % 8 = 0)

/-- The condition of the body's conditional 6 (the grid's second coordinate is zero), `scf.if` 6. -/
abbrev cond0_6 (i : grid0.Coords) : Prop := k0_cond7 i = 1#1
/-- It holds exactly at the points whose position is a multiple of 8: decided over the grid. -/
theorem hcond0_6 : ∀ t : Fin cfg0.N, cond0_6 (grid0.coords t) ↔ t.val % 8 = 0 :=
  (by decide +kernel : ∀ t : Fin grid0.N, cond0_6 (grid0.coords t) ↔ t.val % 8 = 0)

/-- The condition of the body's conditional 7 (the grid's second coordinate is zero), `scf.if` 7. -/
abbrev cond0_7 (i : grid0.Coords) : Prop := k0_cond8 i = 1#1
/-- It holds exactly at the points whose position is a multiple of 8: decided over the grid. -/
theorem hcond0_7 : ∀ t : Fin cfg0.N, cond0_7 (grid0.coords t) ↔ t.val % 8 = 0 :=
  (by decide +kernel : ∀ t : Fin grid0.N, cond0_7 (grid0.coords t) ↔ t.val % 8 = 0)

/-- The condition of the body's conditional 8 (the grid's second coordinate is zero), `scf.if` 8. -/
abbrev cond0_8 (i : grid0.Coords) : Prop := k0_cond9 i = 1#1
/-- It holds exactly at the points whose position is a multiple of 8: decided over the grid. -/
theorem hcond0_8 : ∀ t : Fin cfg0.N, cond0_8 (grid0.coords t) ↔ t.val % 8 = 0 :=
  (by decide +kernel : ∀ t : Fin grid0.N, cond0_8 (grid0.coords t) ↔ t.val % 8 = 0)

/-! ## The windows are never idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## The memrefs the body is called with -/

/-- Each window's current staging memref at point t, as the pipeline passes it, and its wholeness. -/
abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
/-- One staging buffer of the output window, through which its contents are stated. -/
abbrev VO0_3 : View sig .tc .vmem S512x512 .f32 := (Memref.whole cc0_stg3_0 : Memref sig .tc .vmem S512x512 .f32).view
/-- The scratch operands: the row block cast to the matrix unit's input format, its row sums, the accumulator. -/
abbrev scM0_0 : Memref sig .tc .vmem S512x4096 .bf16 := Memref.whole cc0_scratch0
abbrev scM0_1 : Memref sig .tc .vmem S512x1 .f32 := Memref.whole cc0_scratch1
abbrev scM0_2 : Memref sig .tc .vmem S512x512 .f32 := Memref.whole cc0_scratch2
abbrev VS0_0 : View sig .tc .vmem S512x4096 .bf16 := scM0_0.view
abbrev VS0_1 : View sig .tc .vmem S512x1 .f32 := scM0_1.view
abbrev VS0_2 : View sig .tc .vmem S512x512 .f32 := scM0_2.view

/-- What the region lends the body beside the windows: the three scratch buffers at some contents and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Frm

end
-- ==== Proof.KI.RunA.lean ====
/-
  The kernel body run once at a grid point whose second coordinate is zero (the first of the eight points
  of a row block): all nine conditionals are taken. On whole memrefs — the three input windows at their
  blocks, the output window and the three scratch buffers at anything — the body runs to the end and
  leaves the inputs as they were and, in the output window and in each scratch buffer, the pieces its
  stores wrote; the pieces are found by running the body's skeleton of memory operations.
-/
import proofs.«400840_j54331336294693_3_alg».proof.Proof.KI.Kit

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body leaves in the output window and the three scratch buffers at a first point of a row
    block, with the proof that it runs to them. -/
noncomputable def kernelRun0_A (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec F S512x4096 .f32) (x1 : Vec F S512x512 .i32) (x2 : Vec F S3x512 .f32) :
    Σ' (L3 : List (View.Piece (Elt F) S512x512 .f32)) (LS0 : List (View.Piece (Elt F) S512x4096 .bf16)) (LS1 : List (View.Piece (Elt F) S512x1 .f32)), { LS2 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__dequant_matmul_kernel i arg2 harg2 arg3 harg3 arg4 harg4 arg5 harg5 arg6 harg6 arg7 harg7 arg8 harg8) K } := by
  refine ⟨?_, ?_, ?_, ?_, fun E K => ?run⟩
  case run =>
    simp only [cc0__dequant_matmul_kernel_eq_skeleton]; unfold cc0__dequant_matmul_kernel_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7 | exact hc8)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [HS0]
    · iexists _; iexact HS0
    isplitl [HS1]
    · iexists _; iexact HS1
    iexists _; iexact HS2

end Cert.KernelIdeal.Frm

end
-- ==== Proof.KI.RunB.lean ====
/-
  The kernel body run once at a grid point whose second coordinate is not zero (the seven later points of
  a row block): none of the nine conditionals is taken, so the body neither casts the row block nor sums
  its rows but reads both from the scratch buffers, where the block's first point left them. On whole
  memrefs — the three input windows at their blocks, the cast row block and the row sums at what is
  carried, the output window and the accumulator at anything — the body runs to the end, leaves the
  inputs and the two carried buffers as they were and, in the output window and the accumulator, the
  pieces its stores wrote.
-/
import proofs.«400840_j54331336294693_3_alg».proof.Proof.KI.Kit

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body leaves in the output window and the accumulator at a later point of a row block, with
    the proof that it runs to them. -/
noncomputable def kernelRun0_B (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec F S512x4096 .f32) (x1 : Vec F S512x512 .i32) (x2 : Vec F S3x512 .f32)
    (xs0 : Vec F S512x4096 .bf16) (xs1 : Vec F S512x1 .f32) :
    Σ' (L3 : List (View.Piece (Elt F) S512x512 .f32)), { LS2 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xs0 ∗ owns (c : Thread nD τ) arg7 fullShare xs1 ∗ (∃ f, arg8.view.loc (c : Thread nD τ) ↦[arg8.view.set]{fullShare} arg8.view.writes (Elt F) f LS2)) -∗ K ⟨⟩))
          ⊢ wp frame (wpE (defs₀ (F := F)) Variants.none c none) E (cc0__dequant_matmul_kernel i arg2 harg2 arg3 harg3 arg4 harg4 arg5 harg5 arg6 harg6 arg7 harg7 arg8 harg8) K } := by
  refine ⟨?_, ?_, fun E K => ?run⟩
  case run =>
    simp only [cc0__dequant_matmul_kernel_eq_skeleton]; unfold cc0__dequant_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1 | exact hc2 | exact hc3 | exact hc4 | exact hc5 | exact hc6 | exact hc7 | exact hc8)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [HS0]
    · iexists _; isplitr; · ipureintro; exact harg6.read_unread _
      iexact HS0
    isplitl [HS1]
    · iexists _; isplitr; · ipureintro; exact harg7.read_unread _
      iexact HS1
    iexists _; iexact HS2

end Cert.KernelIdeal.Frm

end
-- ==== Proof.KI.Frame.lean ====
/-
  The frame of the program: what the output window's staging buffer and the two scratch buffers the kernel
  carries between grid points (the row block cast for the matrix unit, and its row sums) hold after each
  point, the pipeline's proof data, the body obligation at every point, and the run of @main.

  The grid is 16 row blocks by 8 column blocks, the column index running fastest, so a point's position is
  8·(row block) + (column block). At a position that is a multiple of 8 the body rebuilds both carried
  buffers from the row block; at the other positions it leaves them as the point before did. The
  accumulator is cleared at every point and carries nothing.
-/
import proofs.«400840_j54331336294693_3_alg».proof.Proof.KI.RunA
import proofs.«400840_j54331336294693_3_alg».proof.Proof.KI.RunB

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one run of the body leaves -/

/-- At a first point the one store into the output window covers it. -/
theorem cover0_A_3 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole) (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i) (x0 : Vec F S512x4096 .f32) (x1 : Vec F S512x512 .i32) (x2 : Vec F S3x512 .f32) (y : S512x512.Idx) :
    ∃ pc ∈ (kernelRun0_A c i arg2 harg2 arg3 harg3 arg4 harg4 arg5 harg5 arg6 harg6 arg7 harg7 arg8 harg8 hc0 hc1 hc2 hc3 hc4 hc5 hc6 hc7 hc8 x0 x1 x2).1, y ∈ pc.1.set :=
  View.cover_of_tiledL (kernelRun0_A c i arg2 harg2 arg3 harg3 arg4 harg4 arg5 harg5 arg6 harg6 arg7 harg7 arg8 harg8 hc0 hc1 hc2 hc3 hc4 hc5 hc6 hc7 hc8 x0 x1 x2).1 S512x512.size (by sl_kernel_rfl) y
/-- What a first point leaves in the output window's buffer: its pieces read back. -/
def out0_A_3 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole) (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i) (x0 : Vec F S512x4096 .f32) (x1 : Vec F S512x512 .i32) (x2 : Vec F S3x512 .f32) : Vec F S512x512 .f32 :=
  VO0_3.read (Elt F) (VO0_3.writes (Elt F) VO0_3.junk (kernelRun0_A c i arg2 harg2 arg3 harg3 arg4 harg4 arg5 harg5 arg6 harg6 arg7 harg7 arg8 harg8 hc0 hc1 hc2 hc3 hc4 hc5 hc6 hc7 hc8 x0 x1 x2).1)
/-- At a first point the eight column slabs stored into the cast row block tile it. -/
theorem scover0_A_0 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole) (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i) (x0 : Vec F S512x4096 .f32) (x1 : Vec F S512x512 .i32) (x2 : Vec F S3x512 .f32) (y : S512x4096.Idx) :
    ∃ pc ∈ (kernelRun0_A c i arg2 harg2 arg3 harg3 arg4 harg4 arg5 harg5 arg6 harg6 arg7 harg7 arg8 harg8 hc0 hc1 hc2 hc3 hc4 hc5 hc6 hc7 hc8 x0 x1 x2).2.1, y ∈ pc.1.set :=
  View.cover_of_tiledL (kernelRun0_A c i arg2 harg2 arg3 harg3 arg4 harg4 arg5 harg5 arg6 harg6 arg7 harg7 arg8 harg8 hc0 hc1 hc2 hc3 hc4 hc5 hc6 hc7 hc8 x0 x1 x2).2.1 S512x512.size (by sl_kernel_rfl) y
/-- What a first point leaves in the cast row block. -/
def sout0_A_0 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole) (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i) (x0 : Vec F S512x4096 .f32) (x1 : Vec F S512x512 .i32) (x2 : Vec F S3x512 .f32) : Vec F S512x4096 .bf16 :=
  VS0_0.read (Elt F) (VS0_0.writes (Elt F) VS0_0.junk (kernelRun0_A c i arg2 harg2 arg3 harg3 arg4 harg4 arg5 harg5 arg6 harg6 arg7 harg7 arg8 harg8 hc0 hc1 hc2 hc3 hc4 hc5 hc6 hc7 hc8 x0 x1 x2).2.1)
/-- At a first point the stores into the row sums (each whole) cover them. -/
theorem scover0_A_1 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole) (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i) (x0 : Vec F S512x4096 .f32) (x1 : Vec F S512x512 .i32) (x2 : Vec F S3x512 .f32) (y : S512x1.Idx) :
    ∃ pc ∈ (kernelRun0_A c i arg2 harg2 arg3 harg3 arg4 harg4 arg5 harg5 arg6 harg6 arg7 harg7 arg8 harg8 hc0 hc1 hc2 hc3 hc4 hc5 hc6 hc7 hc8 x0 x1 x2).2.2.1, y ∈ pc.1.set :=
  View.cover_of_tiledL (kernelRun0_A c i arg2 harg2 arg3 harg3 arg4 harg4 arg5 harg5 arg6 harg6 arg7 harg7 arg8 harg8 hc0 hc1 hc2 hc3 hc4 hc5 hc6 hc7 hc8 x0 x1 x2).2.2.1 S512x1.size (by sl_kernel_rfl) y
/-- What a first point leaves in the row sums. -/
def sout0_A_1 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole) (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i) (x0 : Vec F S512x4096 .f32) (x1 : Vec F S512x512 .i32) (x2 : Vec F S3x512 .f32) : Vec F S512x1 .f32 :=
  VS0_1.read (Elt F) (VS0_1.writes (Elt F) VS0_1.junk (kernelRun0_A c i arg2 harg2 arg3 harg3 arg4 harg4 arg5 harg5 arg6 harg6 arg7 harg7 arg8 harg8 hc0 hc1 hc2 hc3 hc4 hc5 hc6 hc7 hc8 x0 x1 x2).2.2.1)
/-- At a later point the one store into the output window covers it. -/
theorem cover0_B_3 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) (x0 : Vec F S512x4096 .f32) (x1 : Vec F S512x512 .i32) (x2 : Vec F S3x512 .f32) (xs0 : Vec F S512x4096 .bf16) (xs1 : Vec F S512x1 .f32) (y : S512x512.Idx) :
    ∃ pc ∈ (kernelRun0_B c i arg2 harg2 arg3 harg3 arg4 harg4 arg5 harg5 arg6 harg6 arg7 harg7 arg8 harg8 hc0 hc1 hc2 hc3 hc4 hc5 hc6 hc7 hc8 x0 x1 x2 xs0 xs1).1, y ∈ pc.1.set :=
  View.cover_of_tiledL (kernelRun0_B c i arg2 harg2 arg3 harg3 arg4 harg4 arg5 harg5 arg6 harg6 arg7 harg7 arg8 harg8 hc0 hc1 hc2 hc3 hc4 hc5 hc6 hc7 hc8 x0 x1 x2 xs0 xs1).1 S512x512.size (by sl_kernel_rfl) y
/-- What a later point leaves in the output window's buffer. -/
def out0_B_3 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) (x0 : Vec F S512x4096 .f32) (x1 : Vec F S512x512 .i32) (x2 : Vec F S3x512 .f32) (xs0 : Vec F S512x4096 .bf16) (xs1 : Vec F S512x1 .f32) : Vec F S512x512 .f32 :=
  VO0_3.read (Elt F) (VO0_3.writes (Elt F) VO0_3.junk (kernelRun0_B c i arg2 harg2 arg3 harg3 arg4 harg4 arg5 harg5 arg6 harg6 arg7 harg7 arg8 harg8 hc0 hc1 hc2 hc3 hc4 hc5 hc6 hc7 hc8 x0 x1 x2 xs0 xs1).1)

/-! ## What the buffers hold after each point -/

/-- After the body at position n: the output window's buffer, the cast row block, the row sums. A position that
    is a multiple of 8 rebuilds all three from the point's blocks; any other computes the output from the two
    carried buffers as the position before left them, and leaves those alone. -/
def outsAt0 (c : Dev nD) : (n : ℕ) → n < cfg0.N → Vec F S512x512 .f32 × Vec F S512x4096 .bf16 × Vec F S512x1 .f32
  | 0, hn =>
    have h0 : (⟨0, hn⟩ : Fin cfg0.N).val % 8 = 0 := Nat.zero_mod _
    (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr h0) ((hcond0_1 ⟨0, hn⟩).mpr h0) ((hcond0_2 ⟨0, hn⟩).mpr h0) ((hcond0_3 ⟨0, hn⟩).mpr h0) ((hcond0_4 ⟨0, hn⟩).mpr h0) ((hcond0_5 ⟨0, hn⟩).mpr h0) ((hcond0_6 ⟨0, hn⟩).mpr h0) ((hcond0_7 ⟨0, hn⟩).mpr h0) ((hcond0_8 ⟨0, hn⟩).mpr h0) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr h0) ((hcond0_1 ⟨0, hn⟩).mpr h0) ((hcond0_2 ⟨0, hn⟩).mpr h0) ((hcond0_3 ⟨0, hn⟩).mpr h0) ((hcond0_4 ⟨0, hn⟩).mpr h0) ((hcond0_5 ⟨0, hn⟩).mpr h0) ((hcond0_6 ⟨0, hn⟩).mpr h0) ((hcond0_7 ⟨0, hn⟩).mpr h0) ((hcond0_8 ⟨0, hn⟩).mpr h0) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr h0) ((hcond0_1 ⟨0, hn⟩).mpr h0) ((hcond0_2 ⟨0, hn⟩).mpr h0) ((hcond0_3 ⟨0, hn⟩).mpr h0) ((hcond0_4 ⟨0, hn⟩).mpr h0) ((hcond0_5 ⟨0, hn⟩).mpr h0) ((hcond0_6 ⟨0, hn⟩).mpr h0) ((hcond0_7 ⟨0, hn⟩).mpr h0) ((hcond0_8 ⟨0, hn⟩).mpr h0) (iblk m c 0 ⟨0, hn⟩) (iblk m c 1 ⟨0, hn⟩) (iblk m c 2 ⟨0, hn⟩))
  | n + 1, hn =>
    if h0 : (n + 1) % 8 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h0) ((hcond0_2 ⟨n + 1, hn⟩).mpr h0) ((hcond0_3 ⟨n + 1, hn⟩).mpr h0) ((hcond0_4 ⟨n + 1, hn⟩).mpr h0) ((hcond0_5 ⟨n + 1, hn⟩).mpr h0) ((hcond0_6 ⟨n + 1, hn⟩).mpr h0) ((hcond0_7 ⟨n + 1, hn⟩).mpr h0) ((hcond0_8 ⟨n + 1, hn⟩).mpr h0) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h0) ((hcond0_2 ⟨n + 1, hn⟩).mpr h0) ((hcond0_3 ⟨n + 1, hn⟩).mpr h0) ((hcond0_4 ⟨n + 1, hn⟩).mpr h0) ((hcond0_5 ⟨n + 1, hn⟩).mpr h0) ((hcond0_6 ⟨n + 1, hn⟩).mpr h0) ((hcond0_7 ⟨n + 1, hn⟩).mpr h0) ((hcond0_8 ⟨n + 1, hn⟩).mpr h0) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h0) ((hcond0_2 ⟨n + 1, hn⟩).mpr h0) ((hcond0_3 ⟨n + 1, hn⟩).mpr h0) ((hcond0_4 ⟨n + 1, hn⟩).mpr h0) ((hcond0_5 ⟨n + 1, hn⟩).mpr h0) ((hcond0_6 ⟨n + 1, hn⟩).mpr h0) ((hcond0_7 ⟨n + 1, hn⟩).mpr h0) ((hcond0_8 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h0 ((hcond0_1 ⟨n + 1, hn⟩).mp h)) (fun h => h0 ((hcond0_2 ⟨n + 1, hn⟩).mp h)) (fun h => h0 ((hcond0_3 ⟨n + 1, hn⟩).mp h)) (fun h => h0 ((hcond0_4 ⟨n + 1, hn⟩).mp h)) (fun h => h0 ((hcond0_5 ⟨n + 1, hn⟩).mp h)) (fun h => h0 ((hcond0_6 ⟨n + 1, hn⟩).mp h)) (fun h => h0 ((hcond0_7 ⟨n + 1, hn⟩).mp h)) (fun h => h0 ((hcond0_8 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2,
        (outsAt0 c n (Nat.lt_of_succ_lt hn)).2.1, (outsAt0 c n (Nat.lt_of_succ_lt hn)).2.2)

/-- At a first point of a row block. -/
theorem outsAt0_A (c : Dev nD) (t : Fin cfg0.N) (h0 : t.val % 8 = 0) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h0) ((hcond0_2 t).mpr h0) ((hcond0_3 t).mpr h0) ((hcond0_4 t).mpr h0) ((hcond0_5 t).mpr h0) ((hcond0_6 t).mpr h0) ((hcond0_7 t).mpr h0) ((hcond0_8 t).mpr h0) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h0) ((hcond0_2 t).mpr h0) ((hcond0_3 t).mpr h0) ((hcond0_4 t).mpr h0) ((hcond0_5 t).mpr h0) ((hcond0_6 t).mpr h0) ((hcond0_7 t).mpr h0) ((hcond0_8 t).mpr h0) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h0) ((hcond0_2 t).mpr h0) ((hcond0_3 t).mpr h0) ((hcond0_4 t).mpr h0) ((hcond0_5 t).mpr h0) ((hcond0_6 t).mpr h0) ((hcond0_7 t).mpr h0) ((hcond0_8 t).mpr h0) (iblk m c 0 t) (iblk m c 1 t) (iblk m c 2 t)) := by
  obtain ⟨n, hn⟩ := t
  cases n with
  | zero => exact rfl
  | succ n => exact (dif_pos h0).trans rfl

/-- At a later point, over what the point before left. -/
theorem outsAt0_B (c : Dev nD) (t : Fin cfg0.N) (h0 : ¬t.val % 8 = 0) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h0 ((hcond0_1 t).mp h)) (fun h => h0 ((hcond0_2 t).mp h)) (fun h => h0 ((hcond0_3 t).mp h)) (fun h => h0 ((hcond0_4 t).mp h)) (fun h => h0 ((hcond0_5 t).mp h)) (fun h => h0 ((hcond0_6 t).mp h)) (fun h => h0 ((hcond0_7 t).mp h)) (fun h => h0 ((hcond0_8 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
      (outsAt0 m c (t.val - 1) (Nat.lt_of_le_of_lt (Nat.sub_le _ _) t.isLt)).2.1, (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region's invariant before position n: before the first point, the three scratch buffers at anything;
    afterwards the two carried ones at what the point before left, the accumulator at anything; the generator
    register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2) ∗ (∃ d, owns (c : Thread nD τ) scM0_2 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2) ∗ (∃ d, owns (c : Thread nD τ) scM0_2 fullShare d)) ∗ (∃ r, prngReg c r)) := by
  cases n with
  | zero => exact absurd rfl hz
  | succ n => rfl

/-! ## The pipeline's proof data -/

/-- On core c: the arrays as the region finds them; after the body at a point each input's buffer at its block
    and the output's at what the point computed; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the position's remainder mod 8 says which of
    the two runs applies; the invariant lends the scratch buffers (the carried ones at what the point before
    left, or all three at anything before the first point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 8 = 0
  · rw [outsAt0_A m c t h0]
    unfold out0_A_3 sout0_A_0 sout0_A_1; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ ((hcond0_0 t).mpr h0) ((hcond0_1 t).mpr h0) ((hcond0_2 t).mpr h0) ((hcond0_3 t).mpr h0) ((hcond0_4 t).mpr h0) ((hcond0_5 t).mpr h0) ((hcond0_6 t).mpr h0) ((hcond0_7 t).mpr h0) ((hcond0_8 t).mpr h0) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _)
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _ _ _ _ _ _ _ _ _ _ _ _ _)
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ ((hcond0_0 t).mpr h0) ((hcond0_1 t).mpr h0) ((hcond0_2 t).mpr h0) ((hcond0_3 t).mpr h0) ((hcond0_4 t).mpr h0) ((hcond0_5 t).mpr h0) ((hcond0_6 t).mpr h0) ((hcond0_7 t).mpr h0) ((hcond0_8 t).mpr h0) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _)
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _ _ _ _ _ _ _ _ _ _ _ _ _)
  · rw [outsAt0_B m c t h0]
    unfold out0_B_3; (try dsimp only)
    have hz : t.val ≠ 0 := fun h => h0 (by rw [h])
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩⟩
    iapply ((kernelRun0_B c (grid0.coords t) _ _ _ _ _ _ _ _ _ _ _ _ _ _ (fun h => h0 ((hcond0_0 t).mp h)) (fun h => h0 ((hcond0_1 t).mp h)) (fun h => h0 ((hcond0_2 t).mp h)) (fun h => h0 ((hcond0_3 t).mp h)) (fun h => h0 ((hcond0_4 t).mp h)) (fun h => h0 ((hcond0_5 t).mp h)) (fun h => h0 ((hcond0_6 t).mp h)) (fun h => h0 ((hcond0_7 t).mp h)) (fun h => h0 ((hcond0_8 t).mp h)) (iblk m c 0 t) (iblk m c 1 t) (iblk m c 2 t) _ _).2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, ⟨%es2, HS2⟩⟩
    isplitl [HS0 HS1 HS2 Hg]
    · isplitr [Hg]
      · isplitl [HS0]; · iexact HS0
        isplitl [HS1]; · iexact HS1
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the scratch buffers back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitr [Hg]
  · isplitl [HS0]; · iexists _; iexact HS0
    isplitl [HS1]; · iexists _; iexact HS1
    iexact HS2
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, and every final state has each array of the pipeline at what
    the library computes from the proof data, every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any instance: the five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Frm

end
-- ==== Proof.KI.Blocks.lean ====
/-
  Each window's block at a grid point, read off its array. Position t of the grid is row block t / 8 and
  column block t % 8: the activations' window is rows 512·(t/8) … of the flattened activations, all 4096
  columns; the packed weights' window all 512 word rows, columns 512·(t%8) …; the third window all three rows
  of the side-by-side (scale, zero point, bias) array, the same columns; the output window rows 512·(t/8) …,
  columns 512·(t%8) ….
-/
import proofs.«400840_j54331336294693_3_alg».proof.Proof.KI.Frame
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Frm

variable (m : (ℓ : Loc nD τ sig) → Buf (Elt Ideal) ℓ)

/-- The blocks and the arrays at their literal types. -/
abbrev xblk (c : Dev nD) (t : Fin cfg0.N) : Vec Ideal S512x4096 .f32 := iblk m c 0 t
abbrev qblk (c : Dev nD) (t : Fin cfg0.N) : Vec Ideal S512x512 .i32 := iblk m c 1 t
abbrev sblk (c : Dev nD) (t : Fin cfg0.N) : Vec Ideal S3x512 .f32 := iblk m c 2 t
abbrev xarr (c : Dev nD) : Vec Ideal S8192x4096 .f32 := V m c main_v0
abbrev qarr (c : Dev nD) : Vec Ideal S512x4096 .i32 := V m c main_arg1
abbrev sarr (c : Dev nD) : Vec Ideal S3x4096 .f32 := V m c main_v4

/-- The printed index maps over the grid: row block t / 8, column block t % 8. -/
theorem idx_facts : ∀ t : Fin cfg0.N,
    win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = 0 ∧ win0_2.index t (1 : Fin 2) = t.val % 8
    ∧ win0_3.index t (0 : Fin 2) = t.val / 8 ∧ win0_3.index t (1 : Fin 2) = t.val % 8 :=
  (by decide +kernel : ∀ t : Fin grid0.N, _)

theorem tN (t : Fin cfg0.N) : t.val < 128 := lt_of_lt_of_eq t.isLt (show cfg0.N = 128 from N_0)

theorem xblk_apply (c : Dev nD) (t : Fin cfg0.N) (r : Fin 512) (k : Fin 4096) :
    xblk m c t (ix2 r k) = xarr m c (ix2 (⟨512 * (t.val / 8) + r.val, by have := tN t; omega⟩ : Fin 8192) k) := by
  obtain ⟨e0, e1, -⟩ := idx_facts t
  show V m c main_v0 (((cfg0.win 0).blk t).view.emb (ix2 r k)) = V m c main_v0 _
  refine congrArg _ ?_
  funext a; apply Fin.ext
  match a with
  | ⟨0, _⟩ => show win0_0.index t (0 : Fin 2) * 512 + 1 * r.val = 512 * (t.val / 8) + r.val; omega
  | ⟨1, _⟩ => show win0_0.index t (1 : Fin 2) * 4096 + 1 * k.val = k.val; omega

theorem qblk_apply (c : Dev nD) (t : Fin cfg0.N) (g : Fin 512) (n : Fin 512) :
    qblk m c t (ix2 g n) = qarr m c (ix2 g (⟨512 * (t.val % 8) + n.val, by omega⟩ : Fin 4096)) := by
  obtain ⟨-, -, e0, e1, -⟩ := idx_facts t
  show V m c main_arg1 (((cfg0.win 1).blk t).view.emb (ix2 g n)) = V m c main_arg1 _
  refine congrArg _ ?_
  funext a; apply Fin.ext
  match a with
  | ⟨0, _⟩ => show win0_1.index t (0 : Fin 2) * 512 + 1 * g.val = g.val; omega
  | ⟨1, _⟩ => show win0_1.index t (1 : Fin 2) * 512 + 1 * n.val = 512 * (t.val % 8) + n.val; omega

theorem sblk_apply (c : Dev nD) (t : Fin cfg0.N) (j : Fin 3) (n : Fin 512) :
    sblk m c t (ix2 j n) = sarr m c (ix2 j (⟨512 * (t.val % 8) + n.val, by omega⟩ : Fin 4096)) := by
  obtain ⟨-, -, -, -, e0, e1, -⟩ := idx_facts t
  show V m c main_v4 (((cfg0.win 2).blk t).view.emb (ix2 j n)) = V m c main_v4 _
  refine congrArg _ ?_
  funext a; apply Fin.ext
  match a with
  | ⟨0, _⟩ => show win0_2.index t (0 : Fin 2) * 3 + 1 * j.val = j.val; omega
  | ⟨1, _⟩ => show win0_2.index t (1 : Fin 2) * 512 + 1 * n.val = 512 * (t.val % 8) + n.val; omega

end Cert.KernelIdeal.Val

end
-- ==== Proof.Spec.lean ====
/-
  The two sides of the claim as functions of the five argument arrays, index by index, on the extended
  reals, and the law that joins them.

  The packed weights hold eight 4-bit fields per 32-bit word, lowest first: input feature k of output
  feature n is field k mod 8 of word (k / 8, n), read as an integer 0..15. Writing x for a row of the
  activations (4096 entries), q for that column of fields, s, z, b for the column's scale, zero point
  and bias:

    the kernel computes   s · (Σ over 8 chunks of Σ_{k in chunk} x_k q_k) − z · (Σ over 8 chunks of Σ_{k in chunk} x_k) + b,
    the reference         (Σ_k x_k · (s · q_k − z)) + b.

  They agree when x, s, z, b are real numbers (distributivity fails at the infinities, so finiteness is used).
-/
import Idealize.ShloMosaic.PureOps.Ideal
import Idealize.ShloMosaic.Lib.ValueIdx
import Mathlib.Algebra.BigOperators.Fin
import Mathlib.Data.EReal.Basic

noncomputable section

namespace Cert.Spec

open Idealize.ShloMosaic Idealize.ShloMosaic.ValueIdx

/-- The shapes of the five arguments (the programs spell them by their own abbreviations of the same terms). -/
abbrev SX : Shape := ⟨3, ![4, 2048, 4096]⟩
abbrev SQ : Shape := ⟨2, ![512, 4096]⟩
abbrev SC : Shape := ⟨2, ![4096, 1]⟩
abbrev SB : Shape := ⟨1, ![4096]⟩

/-- Field r (of eight, lowest first) of a packed word: shift right arithmetically by 4r, keep the low four bits,
    read as a signed integer, as a real. -/
def nib (w : BitVec 32) (r : Fin 8) : EReal :=
  ((((w.sshiftRight' (BitVec.ofNat 32 r.val * 4#32)) &&& 15#32).toInt : ℝ) : EReal)

/-- The word row of input feature k, and its field. -/
def wordRow (k : Fin 4096) : Fin 512 := ⟨k.val / 8, by omega⟩
def field (k : Fin 4096) : Fin 8 := ⟨k.val % 8, by omega⟩

/-- The dequantised integer weight of input feature k and output feature n. -/
def qv (Q : SQ.Idx → BitVec 32) (k : Fin 4096) (n : Fin 4096) : EReal :=
  nib (Q (ix2 (wordRow k) n)) (field k)

/-- Input feature k (of 512) of chunk c (of 8). -/
def kIdx (c : Fin 8) (k : Fin 512) : Fin 4096 := ⟨c.val * 512 + k.val, by omega⟩

/-- One chunk's share of a row's product with a weight column, and of the row's sum. -/
def chunkDot (X : SX.Idx → EReal) (Q : SQ.Idx → BitVec 32) (b : Fin 4) (s : Fin 2048) (n : Fin 4096) (c : Fin 8) : EReal :=
  ∑ k : Fin 512, X (ix3 b s (kIdx c k)) * qv Q (kIdx c k) n
def chunkSum (X : SX.Idx → EReal) (b : Fin 4) (s : Fin 2048) (c : Fin 8) : EReal :=
  ∑ k : Fin 512, X (ix3 b s (kIdx c k))

/-- Eight terms added to zero one after the other, in order. -/
def fold8 (A : Fin 8 → EReal) : EReal := 0 + A 0 + A 1 + A 2 + A 3 + A 4 + A 5 + A 6 + A 7

/-- The kernel's result at batch b, position s, output feature n. -/
def GkAt (X : SX.Idx → EReal) (Q : SQ.Idx → BitVec 32) (Sc Z : SC.Idx → EReal) (B : SB.Idx → EReal)
    (b : Fin 4) (s : Fin 2048) (n : Fin 4096) : EReal :=
  Sc (ix2 n 0) * fold8 (chunkDot X Q b s n) - Z (ix2 n 0) * fold8 (chunkSum X b s) + B (ix1 n)

/-- The reference's result there. -/
def GrAt (X : SX.Idx → EReal) (Q : SQ.Idx → BitVec 32) (Sc Z : SC.Idx → EReal) (B : SB.Idx → EReal)
    (b : Fin 4) (s : Fin 2048) (n : Fin 4096) : EReal :=
  (∑ k : Fin 4096, X (ix3 b s k) * (Sc (ix2 n 0) * qv Q k n - Z (ix2 n 0))) + B (ix1 n)

/-- Both as arrays. -/
def Gk (X : SX.Idx → EReal) (Q : SQ.Idx → BitVec 32) (Sc Z : SC.Idx → EReal) (B : SB.Idx → EReal) : SX.Idx → EReal :=
  fun i => GkAt X Q Sc Z B (i 0) (i 1) (i 2)
def Gr (X : SX.Idx → EReal) (Q : SQ.Idx → BitVec 32) (Sc Z : SC.Idx → EReal) (B : SB.Idx → EReal) : SX.Idx → EReal :=
  fun i => GrAt X Q Sc Z B (i 0) (i 1) (i 2)

end Cert.Spec

end
-- ==== Proof.KI.Pay.lean ====
/-
  The body's arithmetic read at an index, on the extended reals. Every chunk of the loop does the same three
  things: cast a 512×512 slab of the row block (the identity on the extended reals), add the slab's row sums
  to the running row sums, and add to the accumulator the product of the slab with the chunk's 512×512
  matrix of 4-bit fields (unpacked from 64 rows of packed words: field k mod 8 of word row k / 8).
  The last lines combine: scale · accumulator − zero · row sum + bias.
-/
import proofs.«400840_j54331336294693_3_alg».proof.Proof.Gen.KernelIdeal.Skeleton
import proofs.«400840_j54331336294693_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx
open Cert.KernelIdeal Cert.KernelIdeal.Gen

/-- Field k mod 8 of word row k / 8, column n, of a 64-row block of packed words: the chunk's integer weight of
    its input feature k and output feature n. -/
def blkNib (Qc : Vec Ideal S64x512 .i32) (k : Fin 512) (n : Fin 512) : EReal :=
  Cert.Spec.nib (Qc (ix2 (⟨k.val / 8, by omega⟩ : Fin 64) n)) (⟨k.val % 8, by omega⟩ : Fin 8)

/-! ## The pieces -/

/-- Four times a field's number is a shift amount below the word's width. -/
theorem field_shift_lt (j : Fin 8) : (BitVec.ofNat 32 j.val * 4#32).toNat < 32 := by
  revert j; decide

/-- The shift amounts: 4 j at (0, j, 0). -/
theorem k0_pay4_apply (j : Fin 8) :
    k0_pay4 (ix3 (0 : Fin 1) j (0 : Fin 1)) = BitVec.ofNat 32 j.val * 4#32 := by
  unfold k0_pay4
  show IntOp.muli (iota .tc S1x8x1 32 [1] iota_S1x8x1_d1_w32 (ix3 (0 : Fin 1) j (0 : Fin 1))) 4#32 = _
  rw [iota_single_apply]
  rfl

/-- One column broadcast over many: an [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The product of two 512×512 matrices into the zero accumulator, as a plain sum -/

theorem lhs_dot_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_dot_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_dot_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_dot_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- Row r of the left matrix against column n of the right one. -/
theorem matmul_zero_apply (A B : FVec Ideal S512x512 .bf16) (r n : Fin 512) :
    matmul (F := Ideal) dot_S512x512_S512x512_S512x512_1_0_0_1_n_n none A B (constant (F := Ideal) S512x512 .f32 0x00000000#32) (ix2 r n)
      = ∑ k : Fin 512, A (ix2 r k) * B (ix2 k n) := by
  simp only [matmul]
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 r n) ((ValueIdx.contrEquiv1 dot_S512x512_S512x512_S512x512_1_0_0_1_n_n 512 rfl rfl).symm k) = ix2 r k := funext fun a => Fin.ext (by
    match a with
    | ⟨0, _⟩ => exact lhs_dot_0 _ _
    | ⟨1, _⟩ => exact (lhs_dot_1 _ _).trans hk)
  have er : dot_S512x512_S512x512_S512x512_1_0_0_1_n_n.rhsIdx (ix2 r n) ((ValueIdx.contrEquiv1 dot_S512x512_S512x512_S512x512_1_0_0_1_n_n 512 rfl rfl).symm k) = ix2 k n := funext fun a => Fin.ext (by
    match a with
    | ⟨0, _⟩ => exact (rhs_dot_0 _ _).trans hk
    | ⟨1, _⟩ => exact rhs_dot_1 _ _)
  rw [el, er]

/-! ### The unpacked weights -/

/-- A [64, 512] array viewed [64, 1, 512] reads, at (a, 0, n), the operand at (a, n). -/
theorem cast_rows_apply {α : Type} (v : S64x512.Idx → α) (a : Fin 64) (n : Fin 512) :
    shapeCast S64x1x512 v shapeCasts_S64x512_S64x1x512 (ix3 a (0 : Fin 1) n) = v (ix2 a n) := by
  refine shapeCast_apply v _ (ix3 a (0 : Fin 1) n) (ix2 a n) ?_
  rewrite [Shape.rowMajor_val_two, Shape.rowMajor_val_three]
  show a.val * 512 + n.val = (a.val * 1 + 0) * 512 + n.val
  omega

/-- A [64, 1, 512] array broadcast to [64, 8, 512] reads, at (a, j, n), the operand at (a, 0, n). -/
theorem bcast_rows_apply {α : Type} (v : S64x1x512.Idx → α) (a : Fin 64) (j : Fin 8) (n : Fin 512) :
    broadcastTo S64x8x512 v broadcasts_S64x1x512_S64x8x512 (ix3 a j n) = v (ix3 a (0 : Fin 1) n) := by
  refine broadcastTo_apply v _ (ix3 a j n) (ix3 a (0 : Fin 1) n) fun ax => ?_
  match ax with
  | ⟨0, _⟩ => show a.val = if (64 : Nat) = 1 then 0 else a.val; rw [if_neg (by decide)]
  | ⟨1, _⟩ => show 0 = if (1 : Nat) = 1 then 0 else j.val; rw [if_pos rfl]
  | ⟨2, _⟩ => show n.val = if (512 : Nat) = 1 then 0 else n.val; rw [if_neg (by decide)]

/-- A [1, 8, 1] array broadcast to [64, 8, 512] reads, at (a, j, n), the operand at (0, j, 0). -/
theorem bcast_shift_apply {α : Type} (v : S1x8x1.Idx → α) (a : Fin 64) (j : Fin 8) (n : Fin 512) :
    broadcastTo S64x8x512 v broadcasts_S1x8x1_S64x8x512 (ix3 a j n) = v (ix3 (0 : Fin 1) j (0 : Fin 1)) := by
  refine broadcastTo_apply v _ (ix3 a j n) (ix3 (0 : Fin 1) j (0 : Fin 1)) fun ax => ?_
  match ax with
  | ⟨0, _⟩ => show 0 = if (1 : Nat) = 1 then 0 else a.val; rw [if_pos rfl]
  | ⟨1, _⟩ => show j.val = if (8 : Nat) = 1 then 0 else j.val; rw [if_neg (by decide)]
  | ⟨2, _⟩ => show 0 = if (1 : Nat) = 1 then 0 else n.val; rw [if_pos rfl]

/-- The chunk's weights as the body unpacks them — each word row repeated eight times, shifted right by 4 j on copy j,
    masked to four bits, the (64, 8) rows flattened to 512, read as floats — are, at (k, n), field k mod 8 of word
    row k / 8: for any vector of shift amounts that reads 4 j at (0, j, 0). -/
theorem unpack_apply (sh : IVec S1x8x1 32)
    (hsh : ∀ j : Fin 8, sh (ix3 (0 : Fin 1) j (0 : Fin 1)) = BitVec.ofNat 32 j.val * 4#32)
    (Qc : Vec Ideal S64x512 .i32) (k n : Fin 512) :
    (sitofp (F := Ideal) .bf16 (shapeCast S512x512 (andi (shrsi (broadcastTo S64x8x512 (shapeCast S64x1x512 Qc shapeCasts_S64x512_S64x1x512) broadcasts_S64x1x512_S64x8x512) (broadcastTo S64x8x512 sh broadcasts_S1x8x1_S64x8x512)) (broadcast S64x8x512 15#32)) shapeCasts_S64x8x512_S512x512)) (ix2 k n) = blkNib Qc k n := by
  rw [sitofp_apply]
  rw [shapeCast_apply _ shapeCasts_S64x8x512_S512x512 (ix2 k n)
    (ix3 (⟨k.val / 8, by omega⟩ : Fin 64) (⟨k.val % 8, by omega⟩ : Fin 8) n)
    (by rewrite [Shape.rowMajor_val_three, Shape.rowMajor_val_two]
        show (k.val / 8 * 8 + k.val % 8) * 512 + n.val = k.val * 512 + n.val
        omega)]
  show FloatOps.sitofp .bf16 (IntOp.andi (IntOp.shrsi .vector
      (broadcastTo S64x8x512 (shapeCast S64x1x512 Qc shapeCasts_S64x512_S64x1x512) broadcasts_S64x1x512_S64x8x512
        (ix3 (⟨k.val / 8, by omega⟩ : Fin 64) (⟨k.val % 8, by omega⟩ : Fin 8) n))
      (broadcastTo S64x8x512 sh broadcasts_S1x8x1_S64x8x512
        (ix3 (⟨k.val / 8, by omega⟩ : Fin 64) (⟨k.val % 8, by omega⟩ : Fin 8) n))) 15#32) = _
  rw [bcast_rows_apply, cast_rows_apply, bcast_shift_apply, hsh]
  unfold blkNib Cert.Spec.nib IntOp.shrsi
  rw [if_pos (field_shift_lt _)]
  rfl

/-! ### The three steps of a chunk, each once -/

/-- The accumulator's step: add the slab's product with the unpacked weights. -/
theorem acc_step (sh : IVec S1x8x1 32)
    (hsh : ∀ j : Fin 8, sh (ix3 (0 : Fin 1) j (0 : Fin 1)) = BitVec.ofNat 32 j.val * 4#32)
    (Qc : Vec Ideal S64x512 .i32) (Xc : Vec Ideal S512x512 .bf16) (acc : Vec Ideal S512x512 .f32) (r n : Fin 512) :
    shapeCast S512x512 (addf (F := Ideal) acc (matmul (F := Ideal) (φ₁ := .bf16) (φ₂ := .bf16) dot_S512x512_S512x512_S512x512_1_0_0_1_n_n none Xc
        (sitofp (F := Ideal) .bf16 (shapeCast S512x512 (andi (shrsi (broadcastTo S64x8x512 (shapeCast S64x1x512 Qc shapeCasts_S64x512_S64x1x512) broadcasts_S64x1x512_S64x8x512) (broadcastTo S64x8x512 sh broadcasts_S1x8x1_S64x8x512)) (broadcast S64x8x512 15#32)) shapeCasts_S64x8x512_S512x512))
        (constant (F := Ideal) S512x512 .f32 0x00000000#32))) shapeCasts_S512x512_S512x512 (ix2 r n)
      = acc (ix2 r n) + ∑ k : Fin 512, Xc (ix2 r k) * blkNib Qc k n := by
  rw [shapeCast_self, addf_apply, matmul_zero_apply]
  refine congrArg _ (Finset.sum_congr rfl fun k _ => ?_)
  rw [unpack_apply sh hsh]

/-- The row sums' step: add each row's sum over the slab's 512 lanes. -/
theorem rowsum_step (X : Vec Ideal S512x512 .f32) (acc : Vec Ideal S512x1 .f32) (r : Fin 512) :
    shapeCast S512x1 (addf (F := Ideal) acc (shapeCast S512x1 (multiReduction (F := Ideal) .add [1] S512
        (shapeCast S512x512 X shapeCasts_S512x512_S512x512) 0x00000000#32 reduces_S512x512_S512 (.inl rfl) rfl)
        shapeCasts_S512_S512x1)) shapeCasts_S512x1_S512x1 (ix2 r (0 : Fin 1))
      = acc (ix2 r (0 : Fin 1)) + ∑ k : Fin 512, X (ix2 r k) := by
  rw [shapeCast_self, addf_apply, shapeCast_self X]
  refine congrArg _ ?_
  rw [shapeCast_apply _ shapeCasts_S512_S512x1 (ix2 r (0 : Fin 1)) (ix1 r)
    (by rewrite [Shape.rowMajor_val_one, Shape.rowMajor_val_two]
        show r.val = r.val * 1 + 0
        omega)]
  refine (Ideal.multiReduction_add_single (φ := .f32) X 0x00000000#32 reduces_S512x512_S512 (.inl rfl) rfl (ix1 r)).trans ?_
  refine Finset.sum_congr rfl fun k _ => congrArg X (funext fun a => Fin.ext ?_)
  match a with
  | ⟨0, _⟩ => rfl
  | ⟨1, _⟩ => rfl

/-- The cast of a slab: the identity on the extended reals. -/
theorem cast_step (X : Vec Ideal S512x512 .f32) (r k : Fin 512) :
    shapeCast S512x512 (truncf (F := Ideal) .bf16 (shapeCast S512x512 X shapeCasts_S512x512_S512x512) bitsLt_bf16_f32)
        shapeCasts_S512x512_S512x512 (ix2 r k) = X (ix2 r k) := by
  rw [shapeCast_self, truncf_apply, shapeCast_self]

/-! ## The accumulator's step, one lemma per chunk (the eight chunks print as eight payloads of one form) -/

theorem k0_pay8_apply (Qc : Vec Ideal S64x512 .i32) (Xc : Vec Ideal S512x512 .bf16) (acc : Vec Ideal S512x512 .f32) (r n : Fin 512) :
    k0_pay8 (F := Ideal) Qc Xc acc (ix2 r n) = acc (ix2 r n) + ∑ k : Fin 512, Xc (ix2 r k) * blkNib Qc k n := by
  unfold k0_pay8
  exact acc_step k0_pay4 k0_pay4_apply Qc Xc acc r n

theorem k0_pay12_apply (Qc : Vec Ideal S64x512 .i32) (Xc : Vec Ideal S512x512 .bf16) (acc : Vec Ideal S512x512 .f32) (r n : Fin 512) :
    k0_pay12 (F := Ideal) k0_pay4 Qc Xc acc (ix2 r n) = acc (ix2 r n) + ∑ k : Fin 512, Xc (ix2 r k) * blkNib Qc k n := by
  unfold k0_pay12
  exact acc_step k0_pay4 k0_pay4_apply Qc Xc acc r n

theorem k0_pay17_apply (Qc : Vec Ideal S64x512 .i32) (Xc : Vec Ideal S512x512 .bf16) (acc : Vec Ideal S512x512 .f32) (r n : Fin 512) :
    k0_pay17 (F := Ideal) (k0_pay16 (F := Ideal) k0_pay4 Qc) Xc acc (ix2 r n) = acc (ix2 r n) + ∑ k : Fin 512, Xc (ix2 r k) * blkNib Qc k n := by
  unfold k0_pay17 k0_pay16
  exact acc_step k0_pay4 k0_pay4_apply Qc Xc acc r n

theorem k0_pay21_apply (Qc : Vec Ideal S64x512 .i32) (Xc : Vec Ideal S512x512 .bf16) (acc : Vec Ideal S512x512 .f32) (r n : Fin 512) :
    k0_pay21 (F := Ideal) k0_pay4 Qc Xc acc (ix2 r n) = acc (ix2 r n) + ∑ k : Fin 512, Xc (ix2 r k) * blkNib Qc k n := by
  unfold k0_pay21
  exact acc_step k0_pay4 k0_pay4_apply Qc Xc acc r n

theorem k0_pay25_apply (Qc : Vec Ideal S64x512 .i32) (Xc : Vec Ideal S512x512 .bf16) (acc : Vec Ideal S512x512 .f32) (r n : Fin 512) :
    k0_pay25 (F := Ideal) k0_pay4 Qc Xc acc (ix2 r n) = acc (ix2 r n) + ∑ k : Fin 512, Xc (ix2 r k) * blkNib Qc k n := by
  unfold k0_pay25
  exact acc_step k0_pay4 k0_pay4_apply Qc Xc acc r n

theorem k0_pay30_apply (Qc : Vec Ideal S64x512 .i32) (Xc : Vec Ideal S512x512 .bf16) (acc : Vec Ideal S512x512 .f32) (r n : Fin 512) :
    k0_pay30 (F := Ideal) (k0_pay29 (F := Ideal) k0_pay4 Qc) Xc acc (ix2 r n) = acc (ix2 r n) + ∑ k : Fin 512, Xc (ix2 r k) * blkNib Qc k n := by
  unfold k0_pay30 k0_pay29
  exact acc_step k0_pay4 k0_pay4_apply Qc Xc acc r n

theorem k0_pay34_apply (Qc : Vec Ideal S64x512 .i32) (Xc : Vec Ideal S512x512 .bf16) (acc : Vec Ideal S512x512 .f32) (r n : Fin 512) :
    k0_pay34 (F := Ideal) k0_pay4 Qc Xc acc (ix2 r n) = acc (ix2 r n) + ∑ k : Fin 512, Xc (ix2 r k) * blkNib Qc k n := by
  unfold k0_pay34
  exact acc_step k0_pay4 k0_pay4_apply Qc Xc acc r n

theorem k0_pay38_apply (Qc : Vec Ideal S64x512 .i32) (Xc : Vec Ideal S512x512 .bf16) (acc : Vec Ideal S512x512 .f32) (r n : Fin 512) :
    k0_pay38 (F := Ideal) k0_pay4 Qc Xc acc (ix2 r n) = acc (ix2 r n) + ∑ k : Fin 512, Xc (ix2 r k) * blkNib Qc k n := by
  unfold k0_pay38
  exact acc_step k0_pay4 k0_pay4_apply Qc Xc acc r n

/-! ## The row sums' step -/

theorem k0_pay7_apply (X : Vec Ideal S512x512 .f32) (acc : Vec Ideal S512x1 .f32) (r : Fin 512) :
    k0_pay7 (F := Ideal) X acc (ix2 r (0 : Fin 1)) = acc (ix2 r (0 : Fin 1)) + ∑ k : Fin 512, X (ix2 r k) := by
  unfold k0_pay7 k0_pay5
  exact rowsum_step X acc r

theorem k0_pay11_apply (X : Vec Ideal S512x512 .f32) (acc : Vec Ideal S512x1 .f32) (r : Fin 512) :
    k0_pay11 (F := Ideal) X acc (ix2 r (0 : Fin 1)) = acc (ix2 r (0 : Fin 1)) + ∑ k : Fin 512, X (ix2 r k) := by
  unfold k0_pay11 k0_pay9
  exact rowsum_step X acc r

theorem k0_pay15_apply (X : Vec Ideal S512x512 .f32) (acc : Vec Ideal S512x1 .f32) (r : Fin 512) :
    k0_pay15 (F := Ideal) X acc (ix2 r (0 : Fin 1)) = acc (ix2 r (0 : Fin 1)) + ∑ k : Fin 512, X (ix2 r k) := by
  unfold k0_pay15 k0_pay13
  exact rowsum_step X acc r

theorem k0_pay20_apply (X : Vec Ideal S512x512 .f32) (acc : Vec Ideal S512x1 .f32) (r : Fin 512) :
    k0_pay20 (F := Ideal) X acc (ix2 r (0 : Fin 1)) = acc (ix2 r (0 : Fin 1)) + ∑ k : Fin 512, X (ix2 r k) := by
  unfold k0_pay20 k0_pay18
  exact rowsum_step X acc r

theorem k0_pay24_apply (X : Vec Ideal S512x512 .f32) (acc : Vec Ideal S512x1 .f32) (r : Fin 512) :
    k0_pay24 (F := Ideal) X acc (ix2 r (0 : Fin 1)) = acc (ix2 r (0 : Fin 1)) + ∑ k : Fin 512, X (ix2 r k) := by
  unfold k0_pay24 k0_pay22
  exact rowsum_step X acc r

theorem k0_pay28_apply (X : Vec Ideal S512x512 .f32) (acc : Vec Ideal S512x1 .f32) (r : Fin 512) :
    k0_pay28 (F := Ideal) X acc (ix2 r (0 : Fin 1)) = acc (ix2 r (0 : Fin 1)) + ∑ k : Fin 512, X (ix2 r k) := by
  unfold k0_pay28 k0_pay26
  exact rowsum_step X acc r

theorem k0_pay33_apply (X : Vec Ideal S512x512 .f32) (acc : Vec Ideal S512x1 .f32) (r : Fin 512) :
    k0_pay33 (F := Ideal) X acc (ix2 r (0 : Fin 1)) = acc (ix2 r (0 : Fin 1)) + ∑ k : Fin 512, X (ix2 r k) := by
  unfold k0_pay33 k0_pay31
  exact rowsum_step X acc r

theorem k0_pay37_apply (X : Vec Ideal S512x512 .f32) (acc : Vec Ideal S512x1 .f32) (r : Fin 512) :
    k0_pay37 (F := Ideal) X acc (ix2 r (0 : Fin 1)) = acc (ix2 r (0 : Fin 1)) + ∑ k : Fin 512, X (ix2 r k) := by
  unfold k0_pay37 k0_pay35
  exact rowsum_step X acc r

/-! ## The cast of a slab -/

theorem k0_pay6_apply (X : Vec Ideal S512x512 .f32) (r k : Fin 512) :
    k0_pay6 (F := Ideal) X (ix2 r k) = X (ix2 r k) := by
  unfold k0_pay6 k0_pay5
  exact cast_step X r k

theorem k0_pay10_apply (X : Vec Ideal S512x512 .f32) (r k : Fin 512) :
    k0_pay10 (F := Ideal) X (ix2 r k) = X (ix2 r k) := by
  unfold k0_pay10 k0_pay9
  exact cast_step X r k

theorem k0_pay14_apply (X : Vec Ideal S512x512 .f32) (r k : Fin 512) :
    k0_pay14 (F := Ideal) X (ix2 r k) = X (ix2 r k) := by
  unfold k0_pay14 k0_pay13
  exact cast_step X r k

theorem k0_pay19_apply (X : Vec Ideal S512x512 .f32) (r k : Fin 512) :
    k0_pay19 (F := Ideal) X (ix2 r k) = X (ix2 r k) := by
  unfold k0_pay19 k0_pay18
  exact cast_step X r k

theorem k0_pay23_apply (X : Vec Ideal S512x512 .f32) (r k : Fin 512) :
    k0_pay23 (F := Ideal) X (ix2 r k) = X (ix2 r k) := by
  unfold k0_pay23 k0_pay22
  exact cast_step X r k

theorem k0_pay27_apply (X : Vec Ideal S512x512 .f32) (r k : Fin 512) :
    k0_pay27 (F := Ideal) X (ix2 r k) = X (ix2 r k) := by
  unfold k0_pay27 k0_pay26
  exact cast_step X r k

theorem k0_pay32_apply (X : Vec Ideal S512x512 .f32) (r k : Fin 512) :
    k0_pay32 (F := Ideal) X (ix2 r k) = X (ix2 r k) := by
  unfold k0_pay32 k0_pay31
  exact cast_step X r k

theorem k0_pay36_apply (X : Vec Ideal S512x512 .f32) (r k : Fin 512) :
    k0_pay36 (F := Ideal) X (ix2 r k) = X (ix2 r k) := by
  unfold k0_pay36 k0_pay35
  exact cast_step X r k

/-! ## The zeros the row sums and the accumulator start from -/

theorem k0_pay2_apply (r : Fin 512) : k0_pay2 (F := Ideal) (ix2 r (0 : Fin 1)) = 0 := by
  unfold k0_pay2
  rw [shapeCast_self]
  exact Ideal.ofBits_zero_f32

theorem k0_pay3_apply (r n : Fin 512) : k0_pay3 (F := Ideal) (ix2 r n) = 0 := by
  unfold k0_pay3
  rw [shapeCast_self]
  exact Ideal.ofBits_zero_f32

/-! ## The last lines -/

theorem k0_pay39_apply (v : Vec Ideal S1x512 .f32) (n : Fin 512) : k0_pay39 (F := Ideal) v (ix2 (0 : Fin 1) n) = v (ix2 (0 : Fin 1) n) := by
  unfold k0_pay39
  rw [shapeCast_self]

theorem k0_pay40_apply (v : Vec Ideal S1x512 .f32) (n : Fin 512) : k0_pay40 (F := Ideal) v (ix2 (0 : Fin 1) n) = v (ix2 (0 : Fin 1) n) := by
  unfold k0_pay40
  rw [shapeCast_self]

theorem k0_pay41_apply (sc : Vec Ideal S1x512 .f32) (acc : Vec Ideal S512x512 .f32) (r n : Fin 512) :
    k0_pay41 (F := Ideal) sc acc (ix2 r n) = sc (ix2 (0 : Fin 1) n) * acc (ix2 r n) := by
  unfold k0_pay41
  rw [mulf_apply, shapeCast_self, broadcastTo_1b_ab_apply]

theorem k0_pay1_apply (z b : FVec Ideal S1x512 .f32) (sa : FVec Ideal S512x512 .f32) (rs : Vec Ideal S512x1 .f32) (r n : Fin 512) :
    k0_pay1 (F := Ideal) z b sa rs (ix2 r n) = sa (ix2 r n) - z (ix2 (0 : Fin 1) n) * rs (ix2 r (0 : Fin 1)) + b (ix2 (0 : Fin 1) n) := by
  unfold k0_pay1
  rw [addf_apply, subf_apply, mulf_apply, broadcastTo_1b_ab_apply, broadcastTo_1b_ab_apply, broadcastTo_a1_ab_apply]

end Cert.KernelIdeal.Val

end
-- ==== Proof.KI.Chunk.lean ====
/-
  The chunk's integer weights read off the whole 512×512 block of packed words the body is handed: chunk c
  reads word rows 64c … 64c+63, so its input feature k (of 512) and output feature n have field k mod 8 of
  word row 64c + k / 8.
-/
import proofs.«400840_j54331336294693_3_alg».proof.Proof.Gen.KernelIdeal.Skeleton
import proofs.«400840_j54331336294693_3_alg».proof.Proof.Spec
import Idealize.ShloMosaic.Lib.ValueIdx

noncomputable section

namespace Cert.KernelIdeal.Val

open Idealize.ShloMosaic Idealize.ShloMosaic.ValueIdx
open Cert.KernelIdeal

def nibAt (x1 : Vec Ideal S512x512 .i32) (c : Fin 8) (k : Fin 512) (n : Fin 512) : EReal :=
  Cert.Spec.nib (x1 (ix2 (⟨64 * c.val + k.val / 8, by omega⟩ : Fin 512) n)) (⟨k.val % 8, by omega⟩ : Fin 8)

end Cert.KernelIdeal.Val

end
-- ==== Proof.KI.PiecesA.lean ====
/-
  What the first point of a row block leaves, on the extended reals: the cast row block is the row block
  itself; the row sums are the eight chunks' row sums added to zero in order; and the output window's entry
  (r, n) is  s_n · (Σ over the 8 chunks of Σ_k x_{r,k} q_{k,n}) − z_n · rowsum_r + b_n.
-/
import proofs.«400840_j54331336294693_3_alg».proof.Proof.KI.Frame
import proofs.«400840_j54331336294693_3_alg».proof.Proof.KI.Pay
import proofs.«400840_j54331336294693_3_alg».proof.Proof.KI.Chunk
import Idealize.ShloMosaic.Lib.WholeRead

set_option maxRecDepth 16384

noncomputable section

namespace Cert.KernelIdeal.Val

open Idealize.ShloMosaic Idealize.ShloMosaic.TcCoe Idealize.ShloMosaic.ValueIdx
open Cert.KernelIdeal Cert.KernelIdeal.Gen Cert.KernelIdeal.Frm
open Cert.Spec (fold8 kIdx)

namespace A

/-! ## The cast row block: eight column slabs, each the row block at its place -/

/-- A cast slab's stored payload is the row block at the slab's place: the cast is the identity on the extended
    reals and the load reads the row block through the slab's rectangle. -/
theorem cast_piece (arg2 : Memref sig .tc .vmem S512x4096 .f32) (harg2 : arg2.IsWhole) (x0 : Vec Ideal S512x4096 .f32)
    (off : Fin 2 → ℕ) (inb : ∀ a, off a + S512x512.size a ≤ S512x4096.size a)
    (pay : Vec Ideal S512x512 .f32 → Vec Ideal S512x512 .bf16) (hpay : ∀ X r k, pay X (ix2 r k) = X (ix2 r k))
    (x : (Rect.unit (s := S512x4096) off S512x512.size inb).shape.Idx) :
    pay (View.readAt (Elt Ideal) arg2.view (Rect.unit (s := S512x4096) off S512x512.size inb).toLoadRect (harg2.unread x0)) x
      = x0 ((Rect.unit (s := S512x4096) off S512x512.size inb).emb x) := by
  obtain ⟨a, b, rfl⟩ : ∃ (a b : Fin 512), x = ix2 a b := ⟨x 0, x 1, eq_ix2 (n0 := 512) (n1 := 512) x⟩
  exact (hpay _ a b).trans (harg2.readAt_unread x0 _ _)

theorem cast_pieces_1 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) :
    ∀ p ∈ kernelRun0_A.sl.HS0_1 (F := Ideal) c i arg2 harg2 hc1 x0, ∀ x : p.1.shape.Idx, p.2 x = x0 (p.1.emb x) := by
  unfold kernelRun0_A.sl.HS0_1
  exact List.forall_mem_singleton.mpr (fun x => cast_piece arg2 harg2 x0 _ _ _ k0_pay6_apply x)

theorem cast_pieces_2 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) :
    ∀ p ∈ kernelRun0_A.sl.HS0_2 (F := Ideal) c i arg2 harg2 hc1 hc2 x0, ∀ x : p.1.shape.Idx, p.2 x = x0 (p.1.emb x) := by
  unfold kernelRun0_A.sl.HS0_2
  exact List.forall_mem_cons.mpr ⟨fun x => cast_piece arg2 harg2 x0 _ _ _ k0_pay10_apply x, cast_pieces_1 c i arg2 harg2 arg3 harg3 arg4 harg4 arg5 harg5 arg6 harg6 arg7 harg7 arg8 harg8 hc0 hc1 hc2 hc3 hc4 hc5 hc6 hc7 hc8 x0 x1 x2⟩

theorem cast_pieces_3 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) :
    ∀ p ∈ kernelRun0_A.sl.HS0_3 (F := Ideal) c i arg2 harg2 hc1 hc2 hc3 x0, ∀ x : p.1.shape.Idx, p.2 x = x0 (p.1.emb x) := by
  unfold kernelRun0_A.sl.HS0_3
  exact List.forall_mem_cons.mpr ⟨fun x => cast_piece arg2 harg2 x0 _ _ _ k0_pay14_apply x, cast_pieces_2 c i arg2 harg2 arg3 harg3 arg4 harg4 arg5 harg5 arg6 harg6 arg7 harg7 arg8 harg8 hc0 hc1 hc2 hc3 hc4 hc5 hc6 hc7 hc8 x0 x1 x2⟩

theorem cast_pieces_4 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) :
    ∀ p ∈ kernelRun0_A.sl.HS0_4 (F := Ideal) c i arg2 harg2 hc1 hc2 hc3 hc4 x0, ∀ x : p.1.shape.Idx, p.2 x = x0 (p.1.emb x) := by
  unfold kernelRun0_A.sl.HS0_4
  exact List.forall_mem_cons.mpr ⟨fun x => cast_piece arg2 harg2 x0 _ _ _ k0_pay19_apply x, cast_pieces_3 c i arg2 harg2 arg3 harg3 arg4 harg4 arg5 harg5 arg6 harg6 arg7 harg7 arg8 harg8 hc0 hc1 hc2 hc3 hc4 hc5 hc6 hc7 hc8 x0 x1 x2⟩

theorem cast_pieces_5 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) :
    ∀ p ∈ kernelRun0_A.sl.HS0_5 (F := Ideal) c i arg2 harg2 hc1 hc2 hc3 hc4 hc5 x0, ∀ x : p.1.shape.Idx, p.2 x = x0 (p.1.emb x) := by
  unfold kernelRun0_A.sl.HS0_5
  exact List.forall_mem_cons.mpr ⟨fun x => cast_piece arg2 harg2 x0 _ _ _ k0_pay23_apply x, cast_pieces_4 c i arg2 harg2 arg3 harg3 arg4 harg4 arg5 harg5 arg6 harg6 arg7 harg7 arg8 harg8 hc0 hc1 hc2 hc3 hc4 hc5 hc6 hc7 hc8 x0 x1 x2⟩

theorem cast_pieces_6 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) :
    ∀ p ∈ kernelRun0_A.sl.HS0_6 (F := Ideal) c i arg2 harg2 hc1 hc2 hc3 hc4 hc5 hc6 x0, ∀ x : p.1.shape.Idx, p.2 x = x0 (p.1.emb x) := by
  unfold kernelRun0_A.sl.HS0_6
  exact List.forall_mem_cons.mpr ⟨fun x => cast_piece arg2 harg2 x0 _ _ _ k0_pay27_apply x, cast_pieces_5 c i arg2 harg2 arg3 harg3 arg4 harg4 arg5 harg5 arg6 harg6 arg7 harg7 arg8 harg8 hc0 hc1 hc2 hc3 hc4 hc5 hc6 hc7 hc8 x0 x1 x2⟩

theorem cast_pieces_7 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) :
    ∀ p ∈ kernelRun0_A.sl.HS0_7 (F := Ideal) c i arg2 harg2 hc1 hc2 hc3 hc4 hc5 hc6 hc7 x0, ∀ x : p.1.shape.Idx, p.2 x = x0 (p.1.emb x) := by
  unfold kernelRun0_A.sl.HS0_7
  exact List.forall_mem_cons.mpr ⟨fun x => cast_piece arg2 harg2 x0 _ _ _ k0_pay32_apply x, cast_pieces_6 c i arg2 harg2 arg3 harg3 arg4 harg4 arg5 harg5 arg6 harg6 arg7 harg7 arg8 harg8 hc0 hc1 hc2 hc3 hc4 hc5 hc6 hc7 hc8 x0 x1 x2⟩

theorem cast_pieces_8 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) :
    ∀ p ∈ kernelRun0_A.sl.HS0_8 (F := Ideal) c i arg2 harg2 hc1 hc2 hc3 hc4 hc5 hc6 hc7 hc8 x0, ∀ x : p.1.shape.Idx, p.2 x = x0 (p.1.emb x) := by
  unfold kernelRun0_A.sl.HS0_8
  exact List.forall_mem_cons.mpr ⟨fun x => cast_piece arg2 harg2 x0 _ _ _ k0_pay36_apply x, cast_pieces_7 c i arg2 harg2 arg3 harg3 arg4 harg4 arg5 harg5 arg6 harg6 arg7 harg7 arg8 harg8 hc0 hc1 hc2 hc3 hc4 hc5 hc6 hc7 hc8 x0 x1 x2⟩

/-! ## The slabs: where a slab's entry sits in the row block -/

/-- The zero offsets, however spelt. -/
theorem off00 : (![0, 0] : Fin 2 → ℕ) = fun _ => 0 := by funext a; fin_cases a <;> rfl

/-- A load read back at an index is the pieces' canonical contents at the box's index. -/
theorem readCov_apply {sig : RefSig} {κ : Kind} {sp : Space} {s : Shape} {e : EltTy} (v : View sig κ sp s e)
    (L : List (View.Piece (Elt Ideal) s e)) (B : LoadRect s) (j : B.shape.Idx) :
    v.readCov L B j = View.canon L (B.idx j) := congrFun (View.readCov_eq_canon' v L B) j

/-- Entry (r, k) of the slab at column offset 512·c is entry (r, 512·c + k) of the row block. -/
theorem slab_idx (off : Fin 2 → ℕ) (inb : ∀ a, off a + S512x512.size a ≤ S512x4096.size a) (cc : Fin 8)
    (h0 : off 0 = 0) (h1 : off 1 = 512 * cc.val) (r k : Fin 512) :
    (Rect.unit (s := S512x4096) off S512x512.size inb).toLoadRect.idx (ix2 r k) = ix2 r (kIdx cc k) :=
  funext fun a => Fin.ext (by
    match a with
    | ⟨0, _⟩ => show off 0 + 1 * r.val = r.val; omega
    | ⟨1, _⟩ => show off 1 + 1 * k.val = cc.val * 512 + k.val; omega)

/-- and that entry is in the slab. -/
theorem slab_mem (off : Fin 2 → ℕ) (inb : ∀ a, off a + S512x512.size a ≤ S512x4096.size a) (cc : Fin 8)
    (h0 : off 0 = 0) (h1 : off 1 = 512 * cc.val) (r k : Fin 512) :
    (ix2 r (kIdx cc k) : S512x4096.Idx) ∈ (Rect.unit (s := S512x4096) off S512x512.size inb).set := by
  rw [Rect.mem_set_unit]
  intro a
  have hr := r.isLt; have hk := k.isLt
  match a with
  | ⟨0, _⟩ => show off 0 ≤ r.val ∧ r.val < off 0 + 512; omega
  | ⟨1, _⟩ => show off 1 ≤ cc.val * 512 + k.val ∧ cc.val * 512 + k.val < off 1 + 512; omega

/-- A load of the row block through a slab reads the row block there. -/
theorem slab_load (arg2 : Memref sig .tc .vmem S512x4096 .f32) (harg2 : arg2.IsWhole) (x0 : Vec Ideal S512x4096 .f32)
    (off : Fin 2 → ℕ) (inb : ∀ a, off a + S512x512.size a ≤ S512x4096.size a) (cc : Fin 8)
    (h0 : off 0 = 0) (h1 : off 1 = 512 * cc.val) (r k : Fin 512) :
    View.readAt (Elt Ideal) arg2.view (Rect.unit (s := S512x4096) off S512x512.size inb).toLoadRect (harg2.unread x0) (ix2 r k)
      = x0 (ix2 r (kIdx cc k)) :=
  (harg2.readAt_unread x0 _ _).trans (congrArg x0 (slab_idx off inb cc h0 h1 r k))

/-- The eight stores' column offsets. -/
theorem k0_off1_0 : k0_off1 0 = 0 := by rw [k0_off1_eq]; rfl
theorem k0_off1_1 : k0_off1 1 = 512 * (0 : Fin 8).val := by rw [k0_off1_eq]; rfl
theorem k0_off4_0 : k0_off4 0 = 0 := by rw [k0_off4_eq]; rfl
theorem k0_off4_1 : k0_off4 1 = 512 * (1 : Fin 8).val := by rw [k0_off4_eq]; rfl
theorem k0_off5_0 : k0_off5 0 = 0 := by rw [k0_off5_eq]; rfl
theorem k0_off5_1 : k0_off5 1 = 512 * (2 : Fin 8).val := by rw [k0_off5_eq]; rfl
theorem k0_off6_0 : k0_off6 0 = 0 := by rw [k0_off6_eq]; rfl
theorem k0_off6_1 : k0_off6 1 = 512 * (3 : Fin 8).val := by rw [k0_off6_eq]; rfl
theorem k0_off7_0 : k0_off7 0 = 0 := by rw [k0_off7_eq]; rfl
theorem k0_off7_1 : k0_off7 1 = 512 * (4 : Fin 8).val := by rw [k0_off7_eq]; rfl
theorem k0_off8_0 : k0_off8 0 = 0 := by rw [k0_off8_eq]; rfl
theorem k0_off8_1 : k0_off8 1 = 512 * (5 : Fin 8).val := by rw [k0_off8_eq]; rfl
theorem k0_off9_0 : k0_off9 0 = 0 := by rw [k0_off9_eq]; rfl
theorem k0_off9_1 : k0_off9 1 = 512 * (6 : Fin 8).val := by rw [k0_off9_eq]; rfl
theorem k0_off10_0 : k0_off10 0 = 0 := by rw [k0_off10_eq]; rfl
theorem k0_off10_1 : k0_off10 1 = 512 * (7 : Fin 8).val := by rw [k0_off10_eq]; rfl

/-! ## The row sums: zero, then one chunk's row sums added per link -/

theorem rowsum_0 (c : Dev nD) (arg7 : Memref sig .tc .vmem S512x1 .f32) (r : Fin 512) :
    kernelRun0_A.sl.v235 (F := Ideal) c arg7 (ix2 r (0 : Fin 1)) = 0 := by
  unfold kernelRun0_A.sl.v235 kernelRun0_A.sl.HS1_1
  rw [View.readCov_cons_toLoadRect]
  exact k0_pay2_apply r

theorem rowsum_1 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r : Fin 512) :
    kernelRun0_A.sl.v235_1 (F := Ideal) c i arg2 harg2 arg7 hc1 x0 (ix2 r (0 : Fin 1))
      = kernelRun0_A.sl.v235 (F := Ideal) c arg7 (ix2 r (0 : Fin 1)) + ∑ k : Fin 512, x0 (ix2 r (kIdx (0 : Fin 8) k)) := by
  unfold kernelRun0_A.sl.v235_1 kernelRun0_A.sl.HS1_2
  rw [View.readCov_cons_toLoadRect, k0_pay7_apply]
  congr 1
  exact Finset.sum_congr rfl fun k _ => slab_load arg2 harg2 x0 k0_off1 _ (0 : Fin 8) k0_off1_0 k0_off1_1 r k

theorem rowsum_2 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r : Fin 512) :
    kernelRun0_A.sl.v235_2 (F := Ideal) c i arg2 harg2 arg7 hc1 hc2 x0 (ix2 r (0 : Fin 1))
      = kernelRun0_A.sl.v235_1 (F := Ideal) c i arg2 harg2 arg7 hc1 x0 (ix2 r (0 : Fin 1)) + ∑ k : Fin 512, x0 (ix2 r (kIdx (1 : Fin 8) k)) := by
  unfold kernelRun0_A.sl.v235_2 kernelRun0_A.sl.HS1_3
  rw [View.readCov_cons_toLoadRect, k0_pay11_apply]
  congr 1
  exact Finset.sum_congr rfl fun k _ => slab_load arg2 harg2 x0 k0_off4 _ (1 : Fin 8) k0_off4_0 k0_off4_1 r k

theorem rowsum_3 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r : Fin 512) :
    kernelRun0_A.sl.v235_3 (F := Ideal) c i arg2 harg2 arg7 hc1 hc2 hc3 x0 (ix2 r (0 : Fin 1))
      = kernelRun0_A.sl.v235_2 (F := Ideal) c i arg2 harg2 arg7 hc1 hc2 x0 (ix2 r (0 : Fin 1)) + ∑ k : Fin 512, x0 (ix2 r (kIdx (2 : Fin 8) k)) := by
  unfold kernelRun0_A.sl.v235_3 kernelRun0_A.sl.HS1_4
  rw [View.readCov_cons_toLoadRect, k0_pay15_apply]
  congr 1
  exact Finset.sum_congr rfl fun k _ => slab_load arg2 harg2 x0 k0_off5 _ (2 : Fin 8) k0_off5_0 k0_off5_1 r k

theorem rowsum_4 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r : Fin 512) :
    kernelRun0_A.sl.v235_4 (F := Ideal) c i arg2 harg2 arg7 hc1 hc2 hc3 hc4 x0 (ix2 r (0 : Fin 1))
      = kernelRun0_A.sl.v235_3 (F := Ideal) c i arg2 harg2 arg7 hc1 hc2 hc3 x0 (ix2 r (0 : Fin 1)) + ∑ k : Fin 512, x0 (ix2 r (kIdx (3 : Fin 8) k)) := by
  unfold kernelRun0_A.sl.v235_4 kernelRun0_A.sl.HS1_5
  rw [View.readCov_cons_toLoadRect, k0_pay20_apply]
  congr 1
  exact Finset.sum_congr rfl fun k _ => slab_load arg2 harg2 x0 k0_off6 _ (3 : Fin 8) k0_off6_0 k0_off6_1 r k

theorem rowsum_5 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r : Fin 512) :
    kernelRun0_A.sl.v235_5 (F := Ideal) c i arg2 harg2 arg7 hc1 hc2 hc3 hc4 hc5 x0 (ix2 r (0 : Fin 1))
      = kernelRun0_A.sl.v235_4 (F := Ideal) c i arg2 harg2 arg7 hc1 hc2 hc3 hc4 x0 (ix2 r (0 : Fin 1)) + ∑ k : Fin 512, x0 (ix2 r (kIdx (4 : Fin 8) k)) := by
  unfold kernelRun0_A.sl.v235_5 kernelRun0_A.sl.HS1_6
  rw [View.readCov_cons_toLoadRect, k0_pay24_apply]
  congr 1
  exact Finset.sum_congr rfl fun k _ => slab_load arg2 harg2 x0 k0_off7 _ (4 : Fin 8) k0_off7_0 k0_off7_1 r k

theorem rowsum_6 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r : Fin 512) :
    kernelRun0_A.sl.v235_6 (F := Ideal) c i arg2 harg2 arg7 hc1 hc2 hc3 hc4 hc5 hc6 x0 (ix2 r (0 : Fin 1))
      = kernelRun0_A.sl.v235_5 (F := Ideal) c i arg2 harg2 arg7 hc1 hc2 hc3 hc4 hc5 x0 (ix2 r (0 : Fin 1)) + ∑ k : Fin 512, x0 (ix2 r (kIdx (5 : Fin 8) k)) := by
  unfold kernelRun0_A.sl.v235_6 kernelRun0_A.sl.HS1_7
  rw [View.readCov_cons_toLoadRect, k0_pay28_apply]
  congr 1
  exact Finset.sum_congr rfl fun k _ => slab_load arg2 harg2 x0 k0_off8 _ (5 : Fin 8) k0_off8_0 k0_off8_1 r k

theorem rowsum_7 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r : Fin 512) :
    kernelRun0_A.sl.v235_7 (F := Ideal) c i arg2 harg2 arg7 hc1 hc2 hc3 hc4 hc5 hc6 hc7 x0 (ix2 r (0 : Fin 1))
      = kernelRun0_A.sl.v235_6 (F := Ideal) c i arg2 harg2 arg7 hc1 hc2 hc3 hc4 hc5 hc6 x0 (ix2 r (0 : Fin 1)) + ∑ k : Fin 512, x0 (ix2 r (kIdx (6 : Fin 8) k)) := by
  unfold kernelRun0_A.sl.v235_7 kernelRun0_A.sl.HS1_8
  rw [View.readCov_cons_toLoadRect, k0_pay33_apply]
  congr 1
  exact Finset.sum_congr rfl fun k _ => slab_load arg2 harg2 x0 k0_off9 _ (6 : Fin 8) k0_off9_0 k0_off9_1 r k

theorem rowsum_8 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r : Fin 512) :
    kernelRun0_A.sl.v219 (F := Ideal) c i arg2 harg2 arg7 hc1 hc2 hc3 hc4 hc5 hc6 hc7 hc8 x0 (ix2 r (0 : Fin 1))
      = kernelRun0_A.sl.v235_7 (F := Ideal) c i arg2 harg2 arg7 hc1 hc2 hc3 hc4 hc5 hc6 hc7 x0 (ix2 r (0 : Fin 1)) + ∑ k : Fin 512, x0 (ix2 r (kIdx (7 : Fin 8) k)) := by
  unfold kernelRun0_A.sl.v219 kernelRun0_A.sl.HS1_9
  rw [View.readCov_cons_toLoadRect, k0_pay37_apply]
  congr 1
  exact Finset.sum_congr rfl fun k _ => slab_load arg2 harg2 x0 k0_off10 _ (7 : Fin 8) k0_off10_0 k0_off10_1 r k

/-- The row sums the last load reads: the eight chunks' row sums added to zero in order. -/
theorem rowsum_v219 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r : Fin 512) :
    kernelRun0_A.sl.v219 (F := Ideal) c i arg2 harg2 arg7 hc1 hc2 hc3 hc4 hc5 hc6 hc7 hc8 x0 (ix2 r (0 : Fin 1))
      = fold8 (fun cc => ∑ k : Fin 512, x0 (ix2 r (kIdx cc k))) := by
  rw [rowsum_8 c i arg2 harg2 arg3 harg3 arg4 harg4 arg5 harg5 arg6 harg6 arg7 harg7 arg8 harg8 hc0 hc1 hc2 hc3 hc4 hc5 hc6 hc7 hc8 x0 x1 x2, rowsum_7 c i arg2 harg2 arg3 harg3 arg4 harg4 arg5 harg5 arg6 harg6 arg7 harg7 arg8 harg8 hc0 hc1 hc2 hc3 hc4 hc5 hc6 hc7 hc8 x0 x1 x2, rowsum_6 c i arg2 harg2 arg3 harg3 arg4 harg4 arg5 harg5 arg6 harg6 arg7 harg7 arg8 harg8 hc0 hc1 hc2 hc3 hc4 hc5 hc6 hc7 hc8 x0 x1 x2, rowsum_5 c i arg2 harg2 arg3 harg3 arg4 harg4 arg5 harg5 arg6 harg6 arg7 harg7 arg8 harg8 hc0 hc1 hc2 hc3 hc4 hc5 hc6 hc7 hc8 x0 x1 x2, rowsum_4 c i arg2 harg2 arg3 harg3 arg4 harg4 arg5 harg5 arg6 harg6 arg7 harg7 arg8 harg8 hc0 hc1 hc2 hc3 hc4 hc5 hc6 hc7 hc8 x0 x1 x2,
    rowsum_3 c i arg2 harg2 arg3 harg3 arg4 harg4 arg5 harg5 arg6 harg6 arg7 harg7 arg8 harg8 hc0 hc1 hc2 hc3 hc4 hc5 hc6 hc7 hc8 x0 x1 x2, rowsum_2 c i arg2 harg2 arg3 harg3 arg4 harg4 arg5 harg5 arg6 harg6 arg7 harg7 arg8 harg8 hc0 hc1 hc2 hc3 hc4 hc5 hc6 hc7 hc8 x0 x1 x2, rowsum_1 c i arg2 harg2 arg3 harg3 arg4 harg4 arg5 harg5 arg6 harg6 arg7 harg7 arg8 harg8 hc0 hc1 hc2 hc3 hc4 hc5 hc6 hc7 hc8 x0 x1 x2, rowsum_0]
  rfl

/-! ## The cast slab read back right after its store -/

theorem cast_cover_1 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r kq : Fin 512) :
    ∃ p ∈ kernelRun0_A.sl.HS0_1 (F := Ideal) c i arg2 harg2 hc1 x0, (ix2 r (kIdx (0 : Fin 8) kq) : S512x4096.Idx) ∈ p.1.set := by
  unfold kernelRun0_A.sl.HS0_1
  refine ⟨_, List.Mem.head _, ?_⟩
  dsimp only
  exact slab_mem k0_off1 _ (0 : Fin 8) k0_off1_0 k0_off1_1 r kq

theorem cast_load_0 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r kq : Fin 512) :
    kernelRun0_A.sl.v28 (F := Ideal) c i arg2 harg2 arg6 hc1 x0 (ix2 r kq) = x0 (ix2 r (kIdx (0 : Fin 8) kq)) := by
  unfold kernelRun0_A.sl.v28
  rw [readCov_apply]
  refine (congrArg (View.canon _) (slab_idx ![0, 0] _ (0 : Fin 8) rfl rfl r kq)).trans ?_
  exact View.canon_apply_of_pieces (fun y => x0 y) _ (cast_pieces_1 c i arg2 harg2 arg3 harg3 arg4 harg4 arg5 harg5 arg6 harg6 arg7 harg7 arg8 harg8 hc0 hc1 hc2 hc3 hc4 hc5 hc6 hc7 hc8 x0 x1 x2) _ (cast_cover_1 c i arg2 harg2 arg3 harg3 arg4 harg4 arg5 harg5 arg6 harg6 arg7 harg7 arg8 harg8 hc0 hc1 hc2 hc3 hc4 hc5 hc6 hc7 hc8 x0 x1 x2 r kq)

theorem cast_cover_2 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r kq : Fin 512) :
    ∃ p ∈ kernelRun0_A.sl.HS0_2 (F := Ideal) c i arg2 harg2 hc1 hc2 x0, (ix2 r (kIdx (1 : Fin 8) kq) : S512x4096.Idx) ∈ p.1.set := by
  unfold kernelRun0_A.sl.HS0_2
  refine ⟨_, List.Mem.head _, ?_⟩
  dsimp only
  exact slab_mem k0_off4 _ (1 : Fin 8) k0_off4_0 k0_off4_1 r kq

theorem cast_load_1 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r kq : Fin 512) :
    kernelRun0_A.sl.v53 (F := Ideal) c i arg2 harg2 arg6 hc1 hc2 x0 (ix2 r kq) = x0 (ix2 r (kIdx (1 : Fin 8) kq)) := by
  unfold kernelRun0_A.sl.v53
  rw [readCov_apply]
  refine (congrArg (View.canon _) (slab_idx ![0, 512] _ (1 : Fin 8) rfl rfl r kq)).trans ?_
  exact View.canon_apply_of_pieces (fun y => x0 y) _ (cast_pieces_2 c i arg2 harg2 arg3 harg3 arg4 harg4 arg5 harg5 arg6 harg6 arg7 harg7 arg8 harg8 hc0 hc1 hc2 hc3 hc4 hc5 hc6 hc7 hc8 x0 x1 x2) _ (cast_cover_2 c i arg2 harg2 arg3 harg3 arg4 harg4 arg5 harg5 arg6 harg6 arg7 harg7 arg8 harg8 hc0 hc1 hc2 hc3 hc4 hc5 hc6 hc7 hc8 x0 x1 x2 r kq)

theorem cast_cover_3 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r kq : Fin 512) :
    ∃ p ∈ kernelRun0_A.sl.HS0_3 (F := Ideal) c i arg2 harg2 hc1 hc2 hc3 x0, (ix2 r (kIdx (2 : Fin 8) kq) : S512x4096.Idx) ∈ p.1.set := by
  unfold kernelRun0_A.sl.HS0_3
  refine ⟨_, List.Mem.head _, ?_⟩
  dsimp only
  exact slab_mem k0_off5 _ (2 : Fin 8) k0_off5_0 k0_off5_1 r kq

theorem cast_load_2 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r kq : Fin 512) :
    kernelRun0_A.sl.v78 (F := Ideal) c i arg2 harg2 arg6 hc1 hc2 hc3 x0 (ix2 r kq) = x0 (ix2 r (kIdx (2 : Fin 8) kq)) := by
  unfold kernelRun0_A.sl.v78
  rw [readCov_apply]
  refine (congrArg (View.canon _) (slab_idx ![0, 1024] _ (2 : Fin 8) rfl rfl r kq)).trans ?_
  exact View.canon_apply_of_pieces (fun y => x0 y) _ (cast_pieces_3 c i arg2 harg2 arg3 harg3 arg4 harg4 arg5 harg5 arg6 harg6 arg7 harg7 arg8 harg8 hc0 hc1 hc2 hc3 hc4 hc5 hc6 hc7 hc8 x0 x1 x2) _ (cast_cover_3 c i arg2 harg2 arg3 harg3 arg4 harg4 arg5 harg5 arg6 harg6 arg7 harg7 arg8 harg8 hc0 hc1 hc2 hc3 hc4 hc5 hc6 hc7 hc8 x0 x1 x2 r kq)

theorem cast_cover_4 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r kq : Fin 512) :
    ∃ p ∈ kernelRun0_A.sl.HS0_4 (F := Ideal) c i arg2 harg2 hc1 hc2 hc3 hc4 x0, (ix2 r (kIdx (3 : Fin 8) kq) : S512x4096.Idx) ∈ p.1.set := by
  unfold kernelRun0_A.sl.HS0_4
  refine ⟨_, List.Mem.head _, ?_⟩
  dsimp only
  exact slab_mem k0_off6 _ (3 : Fin 8) k0_off6_0 k0_off6_1 r kq

theorem cast_load_3 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r kq : Fin 512) :
    kernelRun0_A.sl.v103 (F := Ideal) c i arg2 harg2 arg6 hc1 hc2 hc3 hc4 x0 (ix2 r kq) = x0 (ix2 r (kIdx (3 : Fin 8) kq)) := by
  unfold kernelRun0_A.sl.v103
  rw [readCov_apply]
  refine (congrArg (View.canon _) (slab_idx ![0, 1536] _ (3 : Fin 8) rfl rfl r kq)).trans ?_
  exact View.canon_apply_of_pieces (fun y => x0 y) _ (cast_pieces_4 c i arg2 harg2 arg3 harg3 arg4 harg4 arg5 harg5 arg6 harg6 arg7 harg7 arg8 harg8 hc0 hc1 hc2 hc3 hc4 hc5 hc6 hc7 hc8 x0 x1 x2) _ (cast_cover_4 c i arg2 harg2 arg3 harg3 arg4 harg4 arg5 harg5 arg6 harg6 arg7 harg7 arg8 harg8 hc0 hc1 hc2 hc3 hc4 hc5 hc6 hc7 hc8 x0 x1 x2 r kq)

theorem cast_cover_5 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r kq : Fin 512) :
    ∃ p ∈ kernelRun0_A.sl.HS0_5 (F := Ideal) c i arg2 harg2 hc1 hc2 hc3 hc4 hc5 x0, (ix2 r (kIdx (4 : Fin 8) kq) : S512x4096.Idx) ∈ p.1.set := by
  unfold kernelRun0_A.sl.HS0_5
  refine ⟨_, List.Mem.head _, ?_⟩
  dsimp only
  exact slab_mem k0_off7 _ (4 : Fin 8) k0_off7_0 k0_off7_1 r kq

theorem cast_load_4 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r kq : Fin 512) :
    kernelRun0_A.sl.v128 (F := Ideal) c i arg2 harg2 arg6 hc1 hc2 hc3 hc4 hc5 x0 (ix2 r kq) = x0 (ix2 r (kIdx (4 : Fin 8) kq)) := by
  unfold kernelRun0_A.sl.v128
  rw [readCov_apply]
  refine (congrArg (View.canon _) (slab_idx ![0, 2048] _ (4 : Fin 8) rfl rfl r kq)).trans ?_
  exact View.canon_apply_of_pieces (fun y => x0 y) _ (cast_pieces_5 c i arg2 harg2 arg3 harg3 arg4 harg4 arg5 harg5 arg6 harg6 arg7 harg7 arg8 harg8 hc0 hc1 hc2 hc3 hc4 hc5 hc6 hc7 hc8 x0 x1 x2) _ (cast_cover_5 c i arg2 harg2 arg3 harg3 arg4 harg4 arg5 harg5 arg6 harg6 arg7 harg7 arg8 harg8 hc0 hc1 hc2 hc3 hc4 hc5 hc6 hc7 hc8 x0 x1 x2 r kq)

theorem cast_cover_6 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r kq : Fin 512) :
    ∃ p ∈ kernelRun0_A.sl.HS0_6 (F := Ideal) c i arg2 harg2 hc1 hc2 hc3 hc4 hc5 hc6 x0, (ix2 r (kIdx (5 : Fin 8) kq) : S512x4096.Idx) ∈ p.1.set := by
  unfold kernelRun0_A.sl.HS0_6
  refine ⟨_, List.Mem.head _, ?_⟩
  dsimp only
  exact slab_mem k0_off8 _ (5 : Fin 8) k0_off8_0 k0_off8_1 r kq

theorem cast_load_5 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r kq : Fin 512) :
    kernelRun0_A.sl.v153 (F := Ideal) c i arg2 harg2 arg6 hc1 hc2 hc3 hc4 hc5 hc6 x0 (ix2 r kq) = x0 (ix2 r (kIdx (5 : Fin 8) kq)) := by
  unfold kernelRun0_A.sl.v153
  rw [readCov_apply]
  refine (congrArg (View.canon _) (slab_idx ![0, 2560] _ (5 : Fin 8) rfl rfl r kq)).trans ?_
  exact View.canon_apply_of_pieces (fun y => x0 y) _ (cast_pieces_6 c i arg2 harg2 arg3 harg3 arg4 harg4 arg5 harg5 arg6 harg6 arg7 harg7 arg8 harg8 hc0 hc1 hc2 hc3 hc4 hc5 hc6 hc7 hc8 x0 x1 x2) _ (cast_cover_6 c i arg2 harg2 arg3 harg3 arg4 harg4 arg5 harg5 arg6 harg6 arg7 harg7 arg8 harg8 hc0 hc1 hc2 hc3 hc4 hc5 hc6 hc7 hc8 x0 x1 x2 r kq)

theorem cast_cover_7 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r kq : Fin 512) :
    ∃ p ∈ kernelRun0_A.sl.HS0_7 (F := Ideal) c i arg2 harg2 hc1 hc2 hc3 hc4 hc5 hc6 hc7 x0, (ix2 r (kIdx (6 : Fin 8) kq) : S512x4096.Idx) ∈ p.1.set := by
  unfold kernelRun0_A.sl.HS0_7
  refine ⟨_, List.Mem.head _, ?_⟩
  dsimp only
  exact slab_mem k0_off9 _ (6 : Fin 8) k0_off9_0 k0_off9_1 r kq

theorem cast_load_6 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r kq : Fin 512) :
    kernelRun0_A.sl.v178 (F := Ideal) c i arg2 harg2 arg6 hc1 hc2 hc3 hc4 hc5 hc6 hc7 x0 (ix2 r kq) = x0 (ix2 r (kIdx (6 : Fin 8) kq)) := by
  unfold kernelRun0_A.sl.v178
  rw [readCov_apply]
  refine (congrArg (View.canon _) (slab_idx ![0, 3072] _ (6 : Fin 8) rfl rfl r kq)).trans ?_
  exact View.canon_apply_of_pieces (fun y => x0 y) _ (cast_pieces_7 c i arg2 harg2 arg3 harg3 arg4 harg4 arg5 harg5 arg6 harg6 arg7 harg7 arg8 harg8 hc0 hc1 hc2 hc3 hc4 hc5 hc6 hc7 hc8 x0 x1 x2) _ (cast_cover_7 c i arg2 harg2 arg3 harg3 arg4 harg4 arg5 harg5 arg6 harg6 arg7 harg7 arg8 harg8 hc0 hc1 hc2 hc3 hc4 hc5 hc6 hc7 hc8 x0 x1 x2 r kq)

theorem cast_cover_8 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r kq : Fin 512) :
    ∃ p ∈ kernelRun0_A.sl.HS0_8 (F := Ideal) c i arg2 harg2 hc1 hc2 hc3 hc4 hc5 hc6 hc7 hc8 x0, (ix2 r (kIdx (7 : Fin 8) kq) : S512x4096.Idx) ∈ p.1.set := by
  unfold kernelRun0_A.sl.HS0_8
  refine ⟨_, List.Mem.head _, ?_⟩
  dsimp only
  exact slab_mem k0_off10 _ (7 : Fin 8) k0_off10_0 k0_off10_1 r kq

theorem cast_load_7 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r kq : Fin 512) :
    kernelRun0_A.sl.v203 (F := Ideal) c i arg2 harg2 arg6 hc1 hc2 hc3 hc4 hc5 hc6 hc7 hc8 x0 (ix2 r kq) = x0 (ix2 r (kIdx (7 : Fin 8) kq)) := by
  unfold kernelRun0_A.sl.v203
  rw [readCov_apply]
  refine (congrArg (View.canon _) (slab_idx ![0, 3584] _ (7 : Fin 8) rfl rfl r kq)).trans ?_
  exact View.canon_apply_of_pieces (fun y => x0 y) _ (cast_pieces_8 c i arg2 harg2 arg3 harg3 arg4 harg4 arg5 harg5 arg6 harg6 arg7 harg7 arg8 harg8 hc0 hc1 hc2 hc3 hc4 hc5 hc6 hc7 hc8 x0 x1 x2) _ (cast_cover_8 c i arg2 harg2 arg3 harg3 arg4 harg4 arg5 harg5 arg6 harg6 arg7 harg7 arg8 harg8 hc0 hc1 hc2 hc3 hc4 hc5 hc6 hc7 hc8 x0 x1 x2 r kq)

/-! ## The chunk's integer weights off the whole block of packed words -/

/-- Chunk c's 64 word rows are rows 64c … 64c + 63 of the block. -/
theorem blk_nib (arg3 : Memref sig .tc .vmem S512x512 .i32) (harg3 : arg3.IsWhole) (x1 : Vec Ideal S512x512 .i32)
    (off : Fin 2 → ℕ) (inb : ∀ a, off a + S64x512.size a ≤ S512x512.size a) (cc : Fin 8)
    (h0 : off 0 = 64 * cc.val) (h1 : off 1 = 0) (k n : Fin 512) :
    blkNib (View.readAt (Elt Ideal) arg3.view (Rect.unit (s := S512x512) off S64x512.size inb).toLoadRect (harg3.unread x1)) k n
      = nibAt x1 cc k n := by
  have e : View.readAt (Elt Ideal) arg3.view (Rect.unit (s := S512x512) off S64x512.size inb).toLoadRect (harg3.unread x1)
        (ix2 (⟨k.val / 8, by omega⟩ : Fin 64) n)
      = x1 (ix2 (⟨64 * cc.val + k.val / 8, by omega⟩ : Fin 512) n) :=
    (harg3.readAt_unread x1 _ _).trans (congrArg x1 (funext fun a => Fin.ext (by
      match a with
      | ⟨0, _⟩ => show off 0 + 1 * (k.val / 8) = 64 * cc.val + k.val / 8; omega
      | ⟨1, _⟩ => show off 1 + 1 * n.val = n.val; omega)))
  unfold blkNib nibAt
  rw [e]

/-! ## The accumulator: zero, then one chunk's product added per link -/

theorem acc_0 (c : Dev nD) (arg8 : Memref sig .tc .vmem S512x512 .f32) (r n : Fin 512) :
    kernelRun0_A.sl.v29 (F := Ideal) c arg8 (ix2 r n) = 0 := by
  unfold kernelRun0_A.sl.v29 kernelRun0_A.sl.HS2_1
  rw [View.readCov_cons_toLoadRect]
  exact k0_pay3_apply r n

theorem acc_1 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r n : Fin 512) :
    kernelRun0_A.sl.v54 (F := Ideal) c i arg2 harg2 arg3 harg3 arg6 arg8 hc1 x0 x1 (ix2 r n)
      = kernelRun0_A.sl.v29 (F := Ideal) c arg8 (ix2 r n)
        + ∑ k : Fin 512, x0 (ix2 r (kIdx (0 : Fin 8) k)) * nibAt x1 (0 : Fin 8) k n := by
  unfold kernelRun0_A.sl.v54 kernelRun0_A.sl.HS2_2
  rw [View.readCov_cons_toLoadRect, k0_pay8_apply]
  congr 1
  refine Finset.sum_congr rfl fun k _ => ?_
  rw [cast_load_0 c i arg2 harg2 arg3 harg3 arg4 harg4 arg5 harg5 arg6 harg6 arg7 harg7 arg8 harg8 hc0 hc1 hc2 hc3 hc4 hc5 hc6 hc7 hc8 x0 x1 x2 r k]
  congr 1
  exact blk_nib arg3 harg3 x1 ![0, 0] _ (0 : Fin 8) rfl rfl k n

theorem acc_2 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r n : Fin 512) :
    kernelRun0_A.sl.v79 (F := Ideal) c i arg2 harg2 arg3 harg3 arg6 arg8 hc1 hc2 x0 x1 (ix2 r n)
      = kernelRun0_A.sl.v54 (F := Ideal) c i arg2 harg2 arg3 harg3 arg6 arg8 hc1 x0 x1 (ix2 r n)
        + ∑ k : Fin 512, x0 (ix2 r (kIdx (1 : Fin 8) k)) * nibAt x1 (1 : Fin 8) k n := by
  unfold kernelRun0_A.sl.v79 kernelRun0_A.sl.HS2_3
  rw [View.readCov_cons_toLoadRect, k0_pay12_apply]
  congr 1
  refine Finset.sum_congr rfl fun k _ => ?_
  rw [cast_load_1 c i arg2 harg2 arg3 harg3 arg4 harg4 arg5 harg5 arg6 harg6 arg7 harg7 arg8 harg8 hc0 hc1 hc2 hc3 hc4 hc5 hc6 hc7 hc8 x0 x1 x2 r k]
  congr 1
  exact blk_nib arg3 harg3 x1 ![64, 0] _ (1 : Fin 8) rfl rfl k n

theorem acc_3 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r n : Fin 512) :
    kernelRun0_A.sl.v104 (F := Ideal) c i arg2 harg2 arg3 harg3 arg6 arg8 hc1 hc2 hc3 x0 x1 (ix2 r n)
      = kernelRun0_A.sl.v79 (F := Ideal) c i arg2 harg2 arg3 harg3 arg6 arg8 hc1 hc2 x0 x1 (ix2 r n)
        + ∑ k : Fin 512, x0 (ix2 r (kIdx (2 : Fin 8) k)) * nibAt x1 (2 : Fin 8) k n := by
  unfold kernelRun0_A.sl.v104 kernelRun0_A.sl.HS2_4 kernelRun0_A.sl.r
  rw [View.readCov_cons_toLoadRect, k0_pay17_apply]
  congr 1
  refine Finset.sum_congr rfl fun k _ => ?_
  rw [cast_load_2 c i arg2 harg2 arg3 harg3 arg4 harg4 arg5 harg5 arg6 harg6 arg7 harg7 arg8 harg8 hc0 hc1 hc2 hc3 hc4 hc5 hc6 hc7 hc8 x0 x1 x2 r k]
  congr 1
  exact blk_nib arg3 harg3 x1 ![128, 0] _ (2 : Fin 8) rfl rfl k n

theorem acc_4 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r n : Fin 512) :
    kernelRun0_A.sl.v129 (F := Ideal) c i arg2 harg2 arg3 harg3 arg6 arg8 hc1 hc2 hc3 hc4 x0 x1 (ix2 r n)
      = kernelRun0_A.sl.v104 (F := Ideal) c i arg2 harg2 arg3 harg3 arg6 arg8 hc1 hc2 hc3 x0 x1 (ix2 r n)
        + ∑ k : Fin 512, x0 (ix2 r (kIdx (3 : Fin 8) k)) * nibAt x1 (3 : Fin 8) k n := by
  unfold kernelRun0_A.sl.v129 kernelRun0_A.sl.HS2_5
  rw [View.readCov_cons_toLoadRect, k0_pay21_apply]
  congr 1
  refine Finset.sum_congr rfl fun k _ => ?_
  rw [cast_load_3 c i arg2 harg2 arg3 harg3 arg4 harg4 arg5 harg5 arg6 harg6 arg7 harg7 arg8 harg8 hc0 hc1 hc2 hc3 hc4 hc5 hc6 hc7 hc8 x0 x1 x2 r k]
  congr 1
  exact blk_nib arg3 harg3 x1 ![192, 0] _ (3 : Fin 8) rfl rfl k n

theorem acc_5 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r n : Fin 512) :
    kernelRun0_A.sl.v154 (F := Ideal) c i arg2 harg2 arg3 harg3 arg6 arg8 hc1 hc2 hc3 hc4 hc5 x0 x1 (ix2 r n)
      = kernelRun0_A.sl.v129 (F := Ideal) c i arg2 harg2 arg3 harg3 arg6 arg8 hc1 hc2 hc3 hc4 x0 x1 (ix2 r n)
        + ∑ k : Fin 512, x0 (ix2 r (kIdx (4 : Fin 8) k)) * nibAt x1 (4 : Fin 8) k n := by
  unfold kernelRun0_A.sl.v154 kernelRun0_A.sl.HS2_6
  rw [View.readCov_cons_toLoadRect, k0_pay25_apply]
  congr 1
  refine Finset.sum_congr rfl fun k _ => ?_
  rw [cast_load_4 c i arg2 harg2 arg3 harg3 arg4 harg4 arg5 harg5 arg6 harg6 arg7 harg7 arg8 harg8 hc0 hc1 hc2 hc3 hc4 hc5 hc6 hc7 hc8 x0 x1 x2 r k]
  congr 1
  exact blk_nib arg3 harg3 x1 ![256, 0] _ (4 : Fin 8) rfl rfl k n

theorem acc_6 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r n : Fin 512) :
    kernelRun0_A.sl.v179 (F := Ideal) c i arg2 harg2 arg3 harg3 arg6 arg8 hc1 hc2 hc3 hc4 hc5 hc6 x0 x1 (ix2 r n)
      = kernelRun0_A.sl.v154 (F := Ideal) c i arg2 harg2 arg3 harg3 arg6 arg8 hc1 hc2 hc3 hc4 hc5 x0 x1 (ix2 r n)
        + ∑ k : Fin 512, x0 (ix2 r (kIdx (5 : Fin 8) k)) * nibAt x1 (5 : Fin 8) k n := by
  unfold kernelRun0_A.sl.v179 kernelRun0_A.sl.HS2_7 kernelRun0_A.sl.r_1
  rw [View.readCov_cons_toLoadRect, k0_pay30_apply]
  congr 1
  refine Finset.sum_congr rfl fun k _ => ?_
  rw [cast_load_5 c i arg2 harg2 arg3 harg3 arg4 harg4 arg5 harg5 arg6 harg6 arg7 harg7 arg8 harg8 hc0 hc1 hc2 hc3 hc4 hc5 hc6 hc7 hc8 x0 x1 x2 r k]
  congr 1
  exact blk_nib arg3 harg3 x1 ![320, 0] _ (5 : Fin 8) rfl rfl k n

theorem acc_7 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r n : Fin 512) :
    kernelRun0_A.sl.v204 (F := Ideal) c i arg2 harg2 arg3 harg3 arg6 arg8 hc1 hc2 hc3 hc4 hc5 hc6 hc7 x0 x1 (ix2 r n)
      = kernelRun0_A.sl.v179 (F := Ideal) c i arg2 harg2 arg3 harg3 arg6 arg8 hc1 hc2 hc3 hc4 hc5 hc6 x0 x1 (ix2 r n)
        + ∑ k : Fin 512, x0 (ix2 r (kIdx (6 : Fin 8) k)) * nibAt x1 (6 : Fin 8) k n := by
  unfold kernelRun0_A.sl.v204 kernelRun0_A.sl.HS2_8
  rw [View.readCov_cons_toLoadRect, k0_pay34_apply]
  congr 1
  refine Finset.sum_congr rfl fun k _ => ?_
  rw [cast_load_6 c i arg2 harg2 arg3 harg3 arg4 harg4 arg5 harg5 arg6 harg6 arg7 harg7 arg8 harg8 hc0 hc1 hc2 hc3 hc4 hc5 hc6 hc7 hc8 x0 x1 x2 r k]
  congr 1
  exact blk_nib arg3 harg3 x1 ![384, 0] _ (6 : Fin 8) rfl rfl k n

theorem acc_8 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r n : Fin 512) :
    kernelRun0_A.sl.v216 (F := Ideal) c i arg2 harg2 arg3 harg3 arg6 arg8 hc1 hc2 hc3 hc4 hc5 hc6 hc7 hc8 x0 x1 (ix2 r n)
      = kernelRun0_A.sl.v204 (F := Ideal) c i arg2 harg2 arg3 harg3 arg6 arg8 hc1 hc2 hc3 hc4 hc5 hc6 hc7 x0 x1 (ix2 r n)
        + ∑ k : Fin 512, x0 (ix2 r (kIdx (7 : Fin 8) k)) * nibAt x1 (7 : Fin 8) k n := by
  unfold kernelRun0_A.sl.v216 kernelRun0_A.sl.HS2_9
  rw [View.readCov_cons_toLoadRect, k0_pay38_apply]
  congr 1
  refine Finset.sum_congr rfl fun k _ => ?_
  rw [cast_load_7 c i arg2 harg2 arg3 harg3 arg4 harg4 arg5 harg5 arg6 harg6 arg7 harg7 arg8 harg8 hc0 hc1 hc2 hc3 hc4 hc5 hc6 hc7 hc8 x0 x1 x2 r k]
  congr 1
  exact blk_nib arg3 harg3 x1 ![448, 0] _ (7 : Fin 8) rfl rfl k n

/-- The accumulator the last load reads: the eight chunks' products added to zero in order. -/
theorem acc_v216 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r n : Fin 512) :
    kernelRun0_A.sl.v216 (F := Ideal) c i arg2 harg2 arg3 harg3 arg6 arg8 hc1 hc2 hc3 hc4 hc5 hc6 hc7 hc8 x0 x1 (ix2 r n)
      = fold8 (fun cc => ∑ k : Fin 512, x0 (ix2 r (kIdx cc k)) * nibAt x1 cc k n) := by
  rw [acc_8 c i arg2 harg2 arg3 harg3 arg4 harg4 arg5 harg5 arg6 harg6 arg7 harg7 arg8 harg8 hc0 hc1 hc2 hc3 hc4 hc5 hc6 hc7 hc8 x0 x1 x2, acc_7 c i arg2 harg2 arg3 harg3 arg4 harg4 arg5 harg5 arg6 harg6 arg7 harg7 arg8 harg8 hc0 hc1 hc2 hc3 hc4 hc5 hc6 hc7 hc8 x0 x1 x2, acc_6 c i arg2 harg2 arg3 harg3 arg4 harg4 arg5 harg5 arg6 harg6 arg7 harg7 arg8 harg8 hc0 hc1 hc2 hc3 hc4 hc5 hc6 hc7 hc8 x0 x1 x2, acc_5 c i arg2 harg2 arg3 harg3 arg4 harg4 arg5 harg5 arg6 harg6 arg7 harg7 arg8 harg8 hc0 hc1 hc2 hc3 hc4 hc5 hc6 hc7 hc8 x0 x1 x2, acc_4 c i arg2 harg2 arg3 harg3 arg4 harg4 arg5 harg5 arg6 harg6 arg7 harg7 arg8 harg8 hc0 hc1 hc2 hc3 hc4 hc5 hc6 hc7 hc8 x0 x1 x2,
    acc_3 c i arg2 harg2 arg3 harg3 arg4 harg4 arg5 harg5 arg6 harg6 arg7 harg7 arg8 harg8 hc0 hc1 hc2 hc3 hc4 hc5 hc6 hc7 hc8 x0 x1 x2, acc_2 c i arg2 harg2 arg3 harg3 arg4 harg4 arg5 harg5 arg6 harg6 arg7 harg7 arg8 harg8 hc0 hc1 hc2 hc3 hc4 hc5 hc6 hc7 hc8 x0 x1 x2, acc_1 c i arg2 harg2 arg3 harg3 arg4 harg4 arg5 harg5 arg6 harg6 arg7 harg7 arg8 harg8 hc0 hc1 hc2 hc3 hc4 hc5 hc6 hc7 hc8 x0 x1 x2, acc_0]
  rfl

/-! ## The last lines -/

/-- A load of row j of the third window reads that row. -/
theorem row_load (arg4 : Memref sig .tc .vmem S3x512 .f32) (harg4 : arg4.IsWhole) (x2 : Vec Ideal S3x512 .f32)
    (off : Fin 2 → ℕ) (inb : ∀ a, off a + S1x512.size a ≤ S3x512.size a) (j : Fin 3)
    (h0 : off 0 = j.val) (h1 : off 1 = 0) (n : Fin 512) :
    View.readAt (Elt Ideal) arg4.view (Rect.unit (s := S3x512) off S1x512.size inb).toLoadRect (harg4.unread x2) (ix2 (0 : Fin 1) n)
      = x2 (ix2 j n) :=
  (harg4.readAt_unread x2 _ _).trans (congrArg x2 (funext fun a => Fin.ext (by
    match a with
    | ⟨0, _⟩ => show off 0 + 1 * 0 = j.val; omega
    | ⟨1, _⟩ => show off 1 + 1 * n.val = n.val; omega)))

end A

theorem sout0_A_0_apply (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r : Fin 512) (kk : Fin 4096) :
    sout0_A_0 (F := Ideal) c i arg2 harg2 arg3 harg3 arg4 harg4 arg5 harg5 arg6 harg6 arg7 harg7 arg8 harg8 hc0 hc1 hc2 hc3 hc4 hc5 hc6 hc7 hc8 x0 x1 x2 (ix2 r kk) = x0 (ix2 r kk) := by
  unfold sout0_A_0
  rw [View.read_writes_eq_canon _ _ _ (scover0_A_0 c i arg2 harg2 arg3 harg3 arg4 harg4 arg5 harg5 arg6 harg6 arg7 harg7 arg8 harg8 hc0 hc1 hc2 hc3 hc4 hc5 hc6 hc7 hc8 x0 x1 x2)]
  exact View.canon_apply_of_pieces (fun y => x0 y) _ (A.cast_pieces_8 c i arg2 harg2 arg3 harg3 arg4 harg4 arg5 harg5 arg6 harg6 arg7 harg7 arg8 harg8 hc0 hc1 hc2 hc3 hc4 hc5 hc6 hc7 hc8 x0 x1 x2) (ix2 r kk) (scover0_A_0 c i arg2 harg2 arg3 harg3 arg4 harg4 arg5 harg5 arg6 harg6 arg7 harg7 arg8 harg8 hc0 hc1 hc2 hc3 hc4 hc5 hc6 hc7 hc8 x0 x1 x2 (ix2 r kk))

theorem sout0_A_1_apply (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r : Fin 512) :
    sout0_A_1 (F := Ideal) c i arg2 harg2 arg3 harg3 arg4 harg4 arg5 harg5 arg6 harg6 arg7 harg7 arg8 harg8 hc0 hc1 hc2 hc3 hc4 hc5 hc6 hc7 hc8 x0 x1 x2 (ix2 r (0 : Fin 1))
      = fold8 (fun cc => ∑ k : Fin 512, x0 (ix2 r (kIdx cc k))) := by
  unfold sout0_A_1
  rw [View.read_writes_eq_canon _ _ _ (scover0_A_1 c i arg2 harg2 arg3 harg3 arg4 harg4 arg5 harg5 arg6 harg6 arg7 harg7 arg8 harg8 hc0 hc1 hc2 hc3 hc4 hc5 hc6 hc7 hc8 x0 x1 x2)]
  unfold kernelRun0_A
  dsimp only
  unfold kernelRun0_A.sl.HS1_9
  rw [View.canon_cons_unit_zero A.off00]
  have h := A.rowsum_v219 c i arg2 harg2 arg3 harg3 arg4 harg4 arg5 harg5 arg6 harg6 arg7 harg7 arg8 harg8 hc0 hc1 hc2 hc3 hc4 hc5 hc6 hc7 hc8 x0 x1 x2 r
  unfold kernelRun0_A.sl.v219 kernelRun0_A.sl.HS1_9 at h
  rw [View.readCov_cons_toLoadRect] at h
  exact h

theorem out0_A_3_apply (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec Ideal S512x4096 .f32) (x1 : Vec Ideal S512x512 .i32) (x2 : Vec Ideal S3x512 .f32) (r n : Fin 512) :
    out0_A_3 (F := Ideal) c i arg2 harg2 arg3 harg3 arg4 harg4 arg5 harg5 arg6 harg6 arg7 harg7 arg8 harg8 hc0 hc1 hc2 hc3 hc4 hc5 hc6 hc7 hc8 x0 x1 x2 (ix2 r n)
      = x2 (ix2 (0 : Fin 3) n) * fold8 (fun cc => ∑ k : Fin 512, x0 (ix2 r (kIdx cc k)) * nibAt x1 cc k n)
        - x2 (ix2 (1 : Fin 3) n) * fold8 (fun cc => ∑ k : Fin 512, x0 (ix2 r (kIdx cc k))) + x2 (ix2 (2 : Fin 3) n) := by
  unfold out0_A_3
  rw [View.read_writes_eq_canon _ _ _ (cover0_A_3 c i arg2 harg2 arg3 harg3 arg4 harg4 arg5 harg5 arg6 harg6 arg7 harg7 arg8 harg8 hc0 hc1 hc2 hc3 hc4 hc5 hc6 hc7 hc8 x0 x1 x2)]
  unfold kernelRun0_A
  dsimp only
  rw [View.canon_unit_zero (S := S512x512) A.off00, k0_pay1_apply]
  unfold kernelRun0_A.sl.r_2 kernelRun0_A.sl.r_3 kernelRun0_A.sl.r_4
  rw [k0_pay39_apply, k0_pay40_apply, k0_pay41_apply,
    A.row_load arg4 harg4 x2 ![1, 0] _ (1 : Fin 3) rfl rfl n, A.row_load arg4 harg4 x2 ![2, 0] _ (2 : Fin 3) rfl rfl n,
    A.row_load arg4 harg4 x2 ![0, 0] _ (0 : Fin 3) rfl rfl n,
    A.acc_v216 c i arg2 harg2 arg3 harg3 arg4 harg4 arg5 harg5 arg6 harg6 arg7 harg7 arg8 harg8 hc0 hc1 hc2 hc3 hc4 hc5 hc6 hc7 hc8 x0 x1 x2 r n, A.rowsum_v219 c i arg2 harg2 arg3 harg3 arg4 harg4 arg5 harg5 arg6 harg6 arg7 harg7 arg8 harg8 hc0 hc1 hc2 hc3 hc4 hc5 hc6 hc7 hc8 x0 x1 x2 r]

end Cert.KernelIdeal.Val

end
-- ==== Proof.KI.PiecesB.lean ====
/-
  What a later point of a row block leaves in the output window, on the extended reals: with x the carried
  row block, rs its carried row sums, and (s, z, b) the three rows of the third input window,
  entry (r, n) is  s_n · (Σ over the 8 chunks of Σ_k x_{r,k} q_{k,n}) − z_n · rs_r + b_n.
-/
import proofs.«400840_j54331336294693_3_alg».proof.Proof.KI.Frame
import proofs.«400840_j54331336294693_3_alg».proof.Proof.KI.Pay
import proofs.«400840_j54331336294693_3_alg».proof.Proof.KI.Chunk

set_option maxRecDepth 16384

noncomputable section

namespace Cert.KernelIdeal.Val

open Idealize.ShloMosaic Idealize.ShloMosaic.TcCoe Idealize.ShloMosaic.ValueIdx
open Cert.KernelIdeal Cert.KernelIdeal.Gen Cert.KernelIdeal.Frm
open Cert.Spec (fold8 kIdx)

/-! Helper lemmas for the later points' output window, in their own namespace. -/
namespace B

theorem hz2 : (![0, 0] : Fin 2 → ℕ) = fun _ => 0 := by funext a; fin_cases a <;> rfl

/-- A load of row j of the three-row window reads that row. -/
theorem ld_row (x2 : Vec Ideal S3x512 .f32) (j : Fin 3) (off : Fin 2 → ℕ) (hoff : off = ![j.val, 0])
    (inb : ∀ a, off a + S1x512.size a ≤ S3x512.size a) (n : Fin 512) :
    View.ld x2 (Rect.unit off S1x512.size inb) (ix2 (0 : Fin 1) n) = x2 (ix2 j n) := by
  subst hoff
  show x2 _ = x2 _
  congr 1
  funext a
  apply Fin.ext
  match a with
  | ⟨0, _⟩ => show j.val + 1 * 0 = j.val; omega
  | ⟨1, _⟩ => show 0 + 1 * n.val = n.val; omega

/-- A load of the 64 word rows of chunk cc: its fields are the chunk's integer weights. -/
theorem blkNib_ld (x1 : Vec Ideal S512x512 .i32) (cc : Fin 8) (off : Fin 2 → ℕ) (hoff : off = ![64 * cc.val, 0])
    (inb : ∀ a, off a + S64x512.size a ≤ S512x512.size a) (k n : Fin 512) :
    blkNib (View.ld x1 (Rect.unit off S64x512.size inb)) k n = nibAt x1 cc k n := by
  subst hoff
  unfold blkNib nibAt
  show Cert.Spec.nib (x1 _) _ = Cert.Spec.nib (x1 _) _
  congr 2
  funext a
  apply Fin.ext
  match a with
  | ⟨0, _⟩ => show 64 * cc.val + 1 * (k.val / 8) = 64 * cc.val + k.val / 8; omega
  | ⟨1, _⟩ => show 0 + 1 * n.val = n.val; omega

/-- A load of the 512 columns of chunk cc of the cast row block. -/
theorem ld_slab (xs0 : Vec Ideal S512x4096 .bf16) (cc : Fin 8) (off : Fin 2 → ℕ) (hoff : off = ![0, 512 * cc.val])
    (inb : ∀ a, off a + S512x512.size a ≤ S512x4096.size a) (r k : Fin 512) :
    View.ld xs0 (Rect.unit off S512x512.size inb) (ix2 r k) = xs0 (ix2 r (kIdx cc k)) := by
  subst hoff
  show xs0 _ = xs0 _
  congr 1
  funext a
  apply Fin.ext
  match a with
  | ⟨0, _⟩ => show 0 + 1 * r.val = r.val; omega
  | ⟨1, _⟩ => show 512 * cc.val + 1 * k.val = cc.val * 512 + k.val; omega

/-- Chunk cc's product of the loaded slab with the loaded word rows is the chunk's sum over the whole arrays. -/
theorem chunk_sum (x1 : Vec Ideal S512x512 .i32) (xs0 : Vec Ideal S512x4096 .bf16) (cc : Fin 8)
    (offX offQ : Fin 2 → ℕ) (hX : offX = ![0, 512 * cc.val]) (hQ : offQ = ![64 * cc.val, 0])
    (inbX : ∀ a, offX a + S512x512.size a ≤ S512x4096.size a) (inbQ : ∀ a, offQ a + S64x512.size a ≤ S512x512.size a)
    (r n : Fin 512) :
    (∑ k : Fin 512, View.ld xs0 (Rect.unit offX S512x512.size inbX) (ix2 r k)
        * blkNib (View.ld x1 (Rect.unit offQ S64x512.size inbQ)) k n)
      = ∑ k : Fin 512, xs0 (ix2 r (kIdx cc k)) * nibAt x1 cc k n :=
  Finset.sum_congr rfl fun k _ => by rw [ld_slab xs0 cc offX hX inbX r k, blkNib_ld x1 cc offQ hQ inbQ k n]

/-! ## The accumulator's chain: it starts from zero, and each chunk's load of it reads what the chunk before stored -/

theorem v29_apply (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec Ideal S512x4096 .f32) (x1 : Vec Ideal S512x512 .i32) (x2 : Vec Ideal S3x512 .f32)
    (xs0 : Vec Ideal S512x4096 .bf16) (xs1 : Vec Ideal S512x1 .f32) (r n : Fin 512) :
    kernelRun0_B.sl.v29 (F := Ideal) c arg8 (ix2 r n) = 0 := by
  unfold kernelRun0_B.sl.v29 kernelRun0_B.sl.HS2_1
  rw [View.readCov_cons_toLoadRect]
  exact k0_pay3_apply r n

theorem v54_apply (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec Ideal S512x4096 .f32) (x1 : Vec Ideal S512x512 .i32) (x2 : Vec Ideal S3x512 .f32)
    (xs0 : Vec Ideal S512x4096 .bf16) (xs1 : Vec Ideal S512x1 .f32) (r n : Fin 512) :
    kernelRun0_B.sl.v54 (F := Ideal) c arg3 harg3 arg6 harg6 arg8 x1 xs0 (ix2 r n)
      = kernelRun0_B.sl.v29 (F := Ideal) c arg8 (ix2 r n) + ∑ k : Fin 512, xs0 (ix2 r (kIdx 0 k)) * nibAt x1 0 k n := by
  unfold kernelRun0_B.sl.v54 kernelRun0_B.sl.HS2_2
  rw [View.readCov_cons_toLoadRect, k0_pay8_apply]
  simp only [View.readAt_eq_ld, harg3.read_unread, harg6.read_unread]
  exact congrArg (_ + ·) (chunk_sum x1 xs0 0 _ _ rfl rfl _ _ r n)

theorem v79_apply (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec Ideal S512x4096 .f32) (x1 : Vec Ideal S512x512 .i32) (x2 : Vec Ideal S3x512 .f32)
    (xs0 : Vec Ideal S512x4096 .bf16) (xs1 : Vec Ideal S512x1 .f32) (r n : Fin 512) :
    kernelRun0_B.sl.v79 (F := Ideal) c arg3 harg3 arg6 harg6 arg8 x1 xs0 (ix2 r n)
      = kernelRun0_B.sl.v54 (F := Ideal) c arg3 harg3 arg6 harg6 arg8 x1 xs0 (ix2 r n) + ∑ k : Fin 512, xs0 (ix2 r (kIdx 1 k)) * nibAt x1 1 k n := by
  unfold kernelRun0_B.sl.v79 kernelRun0_B.sl.HS2_3
  rw [View.readCov_cons_toLoadRect, k0_pay12_apply]
  simp only [View.readAt_eq_ld, harg3.read_unread, harg6.read_unread]
  exact congrArg (_ + ·) (chunk_sum x1 xs0 1 _ _ rfl rfl _ _ r n)

theorem v104_apply (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec Ideal S512x4096 .f32) (x1 : Vec Ideal S512x512 .i32) (x2 : Vec Ideal S3x512 .f32)
    (xs0 : Vec Ideal S512x4096 .bf16) (xs1 : Vec Ideal S512x1 .f32) (r n : Fin 512) :
    kernelRun0_B.sl.v104 (F := Ideal) c arg3 harg3 arg6 harg6 arg8 x1 xs0 (ix2 r n)
      = kernelRun0_B.sl.v79 (F := Ideal) c arg3 harg3 arg6 harg6 arg8 x1 xs0 (ix2 r n) + ∑ k : Fin 512, xs0 (ix2 r (kIdx 2 k)) * nibAt x1 2 k n := by
  unfold kernelRun0_B.sl.v104 kernelRun0_B.sl.HS2_4 kernelRun0_B.sl.r
  rw [View.readCov_cons_toLoadRect, k0_pay17_apply]
  simp only [View.readAt_eq_ld, harg3.read_unread, harg6.read_unread]
  exact congrArg (_ + ·) (chunk_sum x1 xs0 2 _ _ rfl rfl _ _ r n)

theorem v129_apply (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec Ideal S512x4096 .f32) (x1 : Vec Ideal S512x512 .i32) (x2 : Vec Ideal S3x512 .f32)
    (xs0 : Vec Ideal S512x4096 .bf16) (xs1 : Vec Ideal S512x1 .f32) (r n : Fin 512) :
    kernelRun0_B.sl.v129 (F := Ideal) c arg3 harg3 arg6 harg6 arg8 x1 xs0 (ix2 r n)
      = kernelRun0_B.sl.v104 (F := Ideal) c arg3 harg3 arg6 harg6 arg8 x1 xs0 (ix2 r n) + ∑ k : Fin 512, xs0 (ix2 r (kIdx 3 k)) * nibAt x1 3 k n := by
  unfold kernelRun0_B.sl.v129 kernelRun0_B.sl.HS2_5
  rw [View.readCov_cons_toLoadRect, k0_pay21_apply]
  simp only [View.readAt_eq_ld, harg3.read_unread, harg6.read_unread]
  exact congrArg (_ + ·) (chunk_sum x1 xs0 3 _ _ rfl rfl _ _ r n)

theorem v154_apply (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec Ideal S512x4096 .f32) (x1 : Vec Ideal S512x512 .i32) (x2 : Vec Ideal S3x512 .f32)
    (xs0 : Vec Ideal S512x4096 .bf16) (xs1 : Vec Ideal S512x1 .f32) (r n : Fin 512) :
    kernelRun0_B.sl.v154 (F := Ideal) c arg3 harg3 arg6 harg6 arg8 x1 xs0 (ix2 r n)
      = kernelRun0_B.sl.v129 (F := Ideal) c arg3 harg3 arg6 harg6 arg8 x1 xs0 (ix2 r n) + ∑ k : Fin 512, xs0 (ix2 r (kIdx 4 k)) * nibAt x1 4 k n := by
  unfold kernelRun0_B.sl.v154 kernelRun0_B.sl.HS2_6
  rw [View.readCov_cons_toLoadRect, k0_pay25_apply]
  simp only [View.readAt_eq_ld, harg3.read_unread, harg6.read_unread]
  exact congrArg (_ + ·) (chunk_sum x1 xs0 4 _ _ rfl rfl _ _ r n)

theorem v179_apply (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec Ideal S512x4096 .f32) (x1 : Vec Ideal S512x512 .i32) (x2 : Vec Ideal S3x512 .f32)
    (xs0 : Vec Ideal S512x4096 .bf16) (xs1 : Vec Ideal S512x1 .f32) (r n : Fin 512) :
    kernelRun0_B.sl.v179 (F := Ideal) c arg3 harg3 arg6 harg6 arg8 x1 xs0 (ix2 r n)
      = kernelRun0_B.sl.v154 (F := Ideal) c arg3 harg3 arg6 harg6 arg8 x1 xs0 (ix2 r n) + ∑ k : Fin 512, xs0 (ix2 r (kIdx 5 k)) * nibAt x1 5 k n := by
  unfold kernelRun0_B.sl.v179 kernelRun0_B.sl.HS2_7 kernelRun0_B.sl.r_1
  rw [View.readCov_cons_toLoadRect, k0_pay30_apply]
  simp only [View.readAt_eq_ld, harg3.read_unread, harg6.read_unread]
  exact congrArg (_ + ·) (chunk_sum x1 xs0 5 _ _ rfl rfl _ _ r n)

theorem v204_apply (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec Ideal S512x4096 .f32) (x1 : Vec Ideal S512x512 .i32) (x2 : Vec Ideal S3x512 .f32)
    (xs0 : Vec Ideal S512x4096 .bf16) (xs1 : Vec Ideal S512x1 .f32) (r n : Fin 512) :
    kernelRun0_B.sl.v204 (F := Ideal) c arg3 harg3 arg6 harg6 arg8 x1 xs0 (ix2 r n)
      = kernelRun0_B.sl.v179 (F := Ideal) c arg3 harg3 arg6 harg6 arg8 x1 xs0 (ix2 r n) + ∑ k : Fin 512, xs0 (ix2 r (kIdx 6 k)) * nibAt x1 6 k n := by
  unfold kernelRun0_B.sl.v204 kernelRun0_B.sl.HS2_8
  rw [View.readCov_cons_toLoadRect, k0_pay34_apply]
  simp only [View.readAt_eq_ld, harg3.read_unread, harg6.read_unread]
  exact congrArg (_ + ·) (chunk_sum x1 xs0 6 _ _ rfl rfl _ _ r n)

theorem v216_apply (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec Ideal S512x4096 .f32) (x1 : Vec Ideal S512x512 .i32) (x2 : Vec Ideal S3x512 .f32)
    (xs0 : Vec Ideal S512x4096 .bf16) (xs1 : Vec Ideal S512x1 .f32) (r n : Fin 512) :
    kernelRun0_B.sl.v216 (F := Ideal) c arg3 harg3 arg6 harg6 arg8 x1 xs0 (ix2 r n)
      = kernelRun0_B.sl.v204 (F := Ideal) c arg3 harg3 arg6 harg6 arg8 x1 xs0 (ix2 r n) + ∑ k : Fin 512, xs0 (ix2 r (kIdx 7 k)) * nibAt x1 7 k n := by
  unfold kernelRun0_B.sl.v216 kernelRun0_B.sl.HS2_9
  rw [View.readCov_cons_toLoadRect, k0_pay38_apply]
  simp only [View.readAt_eq_ld, harg3.read_unread, harg6.read_unread]
  exact congrArg (_ + ·) (chunk_sum x1 xs0 7 _ _ rfl rfl _ _ r n)

/-- The accumulator after the eight chunks: the eight chunk sums added to zero in order. -/
theorem v216_eq_fold8 (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec Ideal S512x4096 .f32) (x1 : Vec Ideal S512x512 .i32) (x2 : Vec Ideal S3x512 .f32)
    (xs0 : Vec Ideal S512x4096 .bf16) (xs1 : Vec Ideal S512x1 .f32) (r n : Fin 512) :
    kernelRun0_B.sl.v216 (F := Ideal) c arg3 harg3 arg6 harg6 arg8 x1 xs0 (ix2 r n)
      = fold8 (fun cc => ∑ k : Fin 512, xs0 (ix2 r (kIdx cc k)) * nibAt x1 cc k n) := by
  rw [v216_apply c i arg2 harg2 arg3 harg3 arg4 harg4 arg5 harg5 arg6 harg6 arg7 harg7 arg8 harg8 hc0 hc1 hc2 hc3 hc4 hc5 hc6 hc7 hc8 x0 x1 x2 xs0 xs1 r n, v204_apply c i arg2 harg2 arg3 harg3 arg4 harg4 arg5 harg5 arg6 harg6 arg7 harg7 arg8 harg8 hc0 hc1 hc2 hc3 hc4 hc5 hc6 hc7 hc8 x0 x1 x2 xs0 xs1 r n, v179_apply c i arg2 harg2 arg3 harg3 arg4 harg4 arg5 harg5 arg6 harg6 arg7 harg7 arg8 harg8 hc0 hc1 hc2 hc3 hc4 hc5 hc6 hc7 hc8 x0 x1 x2 xs0 xs1 r n, v154_apply c i arg2 harg2 arg3 harg3 arg4 harg4 arg5 harg5 arg6 harg6 arg7 harg7 arg8 harg8 hc0 hc1 hc2 hc3 hc4 hc5 hc6 hc7 hc8 x0 x1 x2 xs0 xs1 r n,
    v129_apply c i arg2 harg2 arg3 harg3 arg4 harg4 arg5 harg5 arg6 harg6 arg7 harg7 arg8 harg8 hc0 hc1 hc2 hc3 hc4 hc5 hc6 hc7 hc8 x0 x1 x2 xs0 xs1 r n, v104_apply c i arg2 harg2 arg3 harg3 arg4 harg4 arg5 harg5 arg6 harg6 arg7 harg7 arg8 harg8 hc0 hc1 hc2 hc3 hc4 hc5 hc6 hc7 hc8 x0 x1 x2 xs0 xs1 r n, v79_apply c i arg2 harg2 arg3 harg3 arg4 harg4 arg5 harg5 arg6 harg6 arg7 harg7 arg8 harg8 hc0 hc1 hc2 hc3 hc4 hc5 hc6 hc7 hc8 x0 x1 x2 xs0 xs1 r n, v54_apply c i arg2 harg2 arg3 harg3 arg4 harg4 arg5 harg5 arg6 harg6 arg7 harg7 arg8 harg8 hc0 hc1 hc2 hc3 hc4 hc5 hc6 hc7 hc8 x0 x1 x2 xs0 xs1 r n,
    v29_apply c i arg2 harg2 arg3 harg3 arg4 harg4 arg5 harg5 arg6 harg6 arg7 harg7 arg8 harg8 hc0 hc1 hc2 hc3 hc4 hc5 hc6 hc7 hc8 x0 x1 x2 xs0 xs1 r n]
  rfl

end B

theorem out0_B_3_apply (c : Dev nD) (i : grid0.Coords) (arg2 : Memref sig .tc .vmem S512x4096 .f32) (harg2 : arg2.IsWhole) (arg3 : Memref sig .tc .vmem S512x512 .i32) (harg3 : arg3.IsWhole) (arg4 : Memref sig .tc .vmem S3x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (arg8 : Memref sig .tc .vmem S512x512 .f32) (harg8 : arg8.IsWhole)
    (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec Ideal S512x4096 .f32) (x1 : Vec Ideal S512x512 .i32) (x2 : Vec Ideal S3x512 .f32)
    (xs0 : Vec Ideal S512x4096 .bf16) (xs1 : Vec Ideal S512x1 .f32) (r n : Fin 512) :
    out0_B_3 (F := Ideal) c i arg2 harg2 arg3 harg3 arg4 harg4 arg5 harg5 arg6 harg6 arg7 harg7 arg8 harg8 hc0 hc1 hc2 hc3 hc4 hc5 hc6 hc7 hc8 x0 x1 x2 xs0 xs1 (ix2 r n)
      = x2 (ix2 (0 : Fin 3) n) * fold8 (fun cc => ∑ k : Fin 512, xs0 (ix2 r (kIdx cc k)) * nibAt x1 cc k n)
        - x2 (ix2 (1 : Fin 3) n) * xs1 (ix2 r (0 : Fin 1)) + x2 (ix2 (2 : Fin 3) n) := by
  unfold out0_B_3
  rw [View.read_writes_eq_canon _ _ _ (cover0_B_3 c i arg2 harg2 arg3 harg3 arg4 harg4 arg5 harg5 arg6 harg6 arg7 harg7 arg8 harg8 hc0 hc1 hc2 hc3 hc4 hc5 hc6 hc7 hc8 x0 x1 x2 xs0 xs1)]
  unfold kernelRun0_B
  dsimp only
  rw [View.canon_unit_zero B.hz2, k0_pay1_apply]
  unfold kernelRun0_B.sl.r_2 kernelRun0_B.sl.r_3 kernelRun0_B.sl.r_4
  rw [k0_pay39_apply, k0_pay40_apply, k0_pay41_apply]
  simp only [View.readAt_eq_ld, harg4.read_unread, harg7.read_unread]
  have e0 : View.ld x2 (Rect.unit ![0, 0] S1x512.size inb_S3x512_S1x512_0_0) (ix2 (0 : Fin 1) n) = x2 (ix2 (0 : Fin 3) n) :=
    B.ld_row x2 0 _ rfl _ n
  have e1 : View.ld x2 (Rect.unit ![1, 0] S1x512.size inb_S3x512_S1x512_1_0) (ix2 (0 : Fin 1) n) = x2 (ix2 (1 : Fin 3) n) :=
    B.ld_row x2 1 _ rfl _ n
  have e2 : View.ld x2 (Rect.unit ![2, 0] S1x512.size inb_S3x512_S1x512_2_0) (ix2 (0 : Fin 1) n) = x2 (ix2 (2 : Fin 3) n) :=
    B.ld_row x2 2 _ rfl _ n
  have es : View.ld xs1 (Rect.unit ![0, 0] S512x1.size inb_S512x1_S512x1_0_0) = xs1 :=
    View.ld_unit_zero (S := S512x1) B.hz2 _ xs1
  rw [e0, e1, e2, es, B.v216_eq_fold8 c i arg2 harg2 arg3 harg3 arg4 harg4 arg5 harg5 arg6 harg6 arg7 harg7 arg8 harg8 hc0 hc1 hc2 hc3 hc4 hc5 hc6 hc7 hc8 x0 x1 x2 xs0 xs1 r n]

end Cert.KernelIdeal.Val

end
-- ==== Proof.KI.Invariant.lean ====
/-
  What the buffers hold after every grid point, in terms of the arrays as the region finds them. After the
  point at position t (row block t / 8, column block t % 8):
    the cast row block is rows 512·(t/8) … 512·(t/8)+511 of the flattened activations;
    the row sums are, for each of those rows, the eight chunks' sums added to zero in order;
    the output window's buffer is, at (r, n), scale · (Σ over chunks of Σ_k x q) − zero · rowsum + bias at row
    512·(t/8)+r and column 512·(t%8)+n.
  By induction on the position: a position that is a multiple of 8 rebuilds everything from its own blocks; any
  other is in the same row block as the one before, whose cast row block and row sums it finds unchanged.
-/
import proofs.«400840_j54331336294693_3_alg».proof.Proof.KI.Blocks
import proofs.«400840_j54331336294693_3_alg».proof.Proof.KI.PiecesA
import proofs.«400840_j54331336294693_3_alg».proof.Proof.KI.PiecesB

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Frm

variable (m : (ℓ : Loc nD τ sig) → Buf (Elt Ideal) ℓ)

open Cert.Spec (fold8 kIdx qv nib wordRow field)

/-- The array row of row r of the row block of position t, and the array column of column n of its column block. -/
def rowOf (t : ℕ) (ht : t < 128) (r : Fin 512) : Fin 8192 := ⟨512 * (t / 8) + r.val, by omega⟩
def colOf (t : ℕ) (n : Fin 512) : Fin 4096 := ⟨512 * (t % 8) + n.val, by omega⟩

/-- The kernel's value at row mm of the flattened activations and output feature nn, over the arrays as the
    region finds them. -/
def g5 (c : Dev nD) (mm : Fin 8192) (nn : Fin 4096) : EReal :=
  sarr m c (ix2 (0 : Fin 3) nn) * fold8 (fun cc => ∑ k : Fin 512, xarr m c (ix2 mm (kIdx cc k)) * qv (qarr m c) (kIdx cc k) nn)
    - sarr m c (ix2 (1 : Fin 3) nn) * fold8 (fun cc => ∑ k : Fin 512, xarr m c (ix2 mm (kIdx cc k)))
    + sarr m c (ix2 (2 : Fin 3) nn)

/-- The chunk's integer weights read through the packed weights' block are the array's. -/
theorem nibAt_qblk (c : Dev nD) (t : Fin cfg0.N) (cc : Fin 8) (k : Fin 512) (n : Fin 512) :
    nibAt (qblk m c t) cc k n = qv (qarr m c) (kIdx cc k) (colOf t.val n) := by
  unfold nibAt qv
  rw [qblk_apply]
  have e1 : (⟨64 * cc.val + k.val / 8, by omega⟩ : Fin 512) = wordRow (kIdx cc k) := Fin.ext (by
    show 64 * cc.val + k.val / 8 = (cc.val * 512 + k.val) / 8; omega)
  have e2 : (⟨k.val % 8, by omega⟩ : Fin 8) = field (kIdx cc k) := Fin.ext (by
    show k.val % 8 = (cc.val * 512 + k.val) % 8; omega)
  rw [e1, e2]; rfl

/-- The value a first point of a row block computes, over the arrays. -/
theorem outA_eq (c : Dev nD) (t : Fin cfg0.N) (x0 : Vec Ideal S512x4096 .f32)
    (hx : ∀ r kk, x0 (ix2 r kk) = xarr m c (ix2 (rowOf t.val (tN t) r) kk)) (r n : Fin 512) :
    sblk m c t (ix2 (0 : Fin 3) n) * fold8 (fun cc => ∑ k : Fin 512, x0 (ix2 r (kIdx cc k)) * nibAt (qblk m c t) cc k n)
      - sblk m c t (ix2 (1 : Fin 3) n) * fold8 (fun cc => ∑ k : Fin 512, x0 (ix2 r (kIdx cc k))) + sblk m c t (ix2 (2 : Fin 3) n)
    = g5 m c (rowOf t.val (tN t) r) (colOf t.val n) := by
  unfold g5
  rw [sblk_apply, sblk_apply, sblk_apply]
  have h1 : (fun cc => ∑ k : Fin 512, x0 (ix2 r (kIdx cc k)) * nibAt (qblk m c t) cc k n)
      = (fun cc => ∑ k : Fin 512, xarr m c (ix2 (rowOf t.val (tN t) r) (kIdx cc k)) * qv (qarr m c) (kIdx cc k) (colOf t.val n)) :=
    funext fun cc => Finset.sum_congr rfl fun k _ => by rw [hx, nibAt_qblk]
  have h2 : (fun cc => ∑ k : Fin 512, x0 (ix2 r (kIdx cc k)))
      = (fun cc => ∑ k : Fin 512, xarr m c (ix2 (rowOf t.val (tN t) r) (kIdx cc k))) :=
    funext fun cc => Finset.sum_congr rfl fun k _ => by rw [hx]
  rw [h1, h2]; rfl

/-- The value a later point computes from the carried buffers, over the arrays. -/
theorem outB_eq (c : Dev nD) (t : Fin cfg0.N) (xs0 : Vec Ideal S512x4096 .bf16) (xs1 : Vec Ideal S512x1 .f32)
    (hx : ∀ r kk, xs0 (ix2 r kk) = xarr m c (ix2 (rowOf t.val (tN t) r) kk))
    (hs : ∀ r, xs1 (ix2 r (0 : Fin 1)) = fold8 (fun cc => ∑ k : Fin 512, xarr m c (ix2 (rowOf t.val (tN t) r) (kIdx cc k))))
    (r n : Fin 512) :
    sblk m c t (ix2 (0 : Fin 3) n) * fold8 (fun cc => ∑ k : Fin 512, xs0 (ix2 r (kIdx cc k)) * nibAt (qblk m c t) cc k n)
      - sblk m c t (ix2 (1 : Fin 3) n) * xs1 (ix2 r (0 : Fin 1)) + sblk m c t (ix2 (2 : Fin 3) n)
    = g5 m c (rowOf t.val (tN t) r) (colOf t.val n) := by
  unfold g5
  rw [sblk_apply, sblk_apply, sblk_apply, hs]
  have h1 : (fun cc => ∑ k : Fin 512, xs0 (ix2 r (kIdx cc k)) * nibAt (qblk m c t) cc k n)
      = (fun cc => ∑ k : Fin 512, xarr m c (ix2 (rowOf t.val (tN t) r) (kIdx cc k)) * qv (qarr m c) (kIdx cc k) (colOf t.val n)) :=
    funext fun cc => Finset.sum_congr rfl fun k _ => by rw [hx, nibAt_qblk]
  rw [h1]; rfl

/-- What holds after position n. -/
def Inv (c : Dev nD) (n : ℕ) (hn : n < cfg0.N) : Prop :=
  (∀ (r : Fin 512) (kk : Fin 4096), (outsAt0 m c n hn).2.1 (ix2 r kk) = xarr m c (ix2 (rowOf n (lt_of_lt_of_eq hn N_0) r) kk))
  ∧ (∀ r : Fin 512, (outsAt0 m c n hn).2.2 (ix2 r (0 : Fin 1)) = fold8 (fun cc => ∑ k : Fin 512, xarr m c (ix2 (rowOf n (lt_of_lt_of_eq hn N_0) r) (kIdx cc k))))
  ∧ (∀ r nn : Fin 512, (outsAt0 m c n hn).1 (ix2 r nn) = g5 m c (rowOf n (lt_of_lt_of_eq hn N_0) r) (colOf n nn))

/-- A position that is a multiple of 8. -/
theorem inv_A (c : Dev nD) (t : Fin cfg0.N) (h0 : t.val % 8 = 0) : Inv m c t.val t.isLt := by
  unfold Inv
  rw [outsAt0_A m c t h0]
  dsimp only
  have hx : ∀ (r : Fin 512) (kk : Fin 4096), sout0_A_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h0) ((hcond0_2 t).mpr h0) ((hcond0_3 t).mpr h0) ((hcond0_4 t).mpr h0) ((hcond0_5 t).mpr h0) ((hcond0_6 t).mpr h0) ((hcond0_7 t).mpr h0) ((hcond0_8 t).mpr h0) (iblk m c 0 t) (iblk m c 1 t) (iblk m c 2 t) (ix2 r kk) = xarr m c (ix2 (rowOf t.val (tN t) r) kk) := fun r kk =>
    (sout0_A_0_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h0) ((hcond0_2 t).mpr h0) ((hcond0_3 t).mpr h0) ((hcond0_4 t).mpr h0) ((hcond0_5 t).mpr h0) ((hcond0_6 t).mpr h0) ((hcond0_7 t).mpr h0) ((hcond0_8 t).mpr h0) (iblk m c 0 t) (iblk m c 1 t) (iblk m c 2 t) r kk).trans (xblk_apply m c t r kk)
  refine ⟨hx, fun r => ?_, fun r nn => ?_⟩
  · refine (sout0_A_1_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h0) ((hcond0_2 t).mpr h0) ((hcond0_3 t).mpr h0) ((hcond0_4 t).mpr h0) ((hcond0_5 t).mpr h0) ((hcond0_6 t).mpr h0) ((hcond0_7 t).mpr h0) ((hcond0_8 t).mpr h0) (iblk m c 0 t) (iblk m c 1 t) (iblk m c 2 t) r).trans ?_
    exact congrArg fold8 (funext fun cc => Finset.sum_congr rfl fun k _ => xblk_apply m c t r (kIdx cc k))
  · refine (out0_A_3_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h0) ((hcond0_2 t).mpr h0) ((hcond0_3 t).mpr h0) ((hcond0_4 t).mpr h0) ((hcond0_5 t).mpr h0) ((hcond0_6 t).mpr h0) ((hcond0_7 t).mpr h0) ((hcond0_8 t).mpr h0) (iblk m c 0 t) (iblk m c 1 t) (iblk m c 2 t) r nn).trans ?_
    exact outA_eq m c t (iblk m c 0 t) (fun r kk => xblk_apply m c t r kk) r nn

/-- Any other position, from the one before. -/
theorem inv_B (c : Dev nD) (n : ℕ) (hn : n + 1 < cfg0.N) (h0 : ¬(n + 1) % 8 = 0) (ih : Inv m c n (Nat.lt_of_succ_lt hn)) :
    Inv m c (n + 1) hn := by
  obtain ⟨ih0, ih1, -⟩ := ih
  have hN : n + 1 < 128 := lt_of_lt_of_eq hn N_0
  have hrow : ∀ r : Fin 512, rowOf n (Nat.lt_of_succ_lt hN) r = rowOf (n + 1) hN r := fun r => Fin.ext (by
    show 512 * (n / 8) + r.val = 512 * ((n + 1) / 8) + r.val; omega)
  have e : outsAt0 m c (n + 1) hn = (out0_B_3 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h0 ((hcond0_1 ⟨n + 1, hn⟩).mp h)) (fun h => h0 ((hcond0_2 ⟨n + 1, hn⟩).mp h)) (fun h => h0 ((hcond0_3 ⟨n + 1, hn⟩).mp h)) (fun h => h0 ((hcond0_4 ⟨n + 1, hn⟩).mp h)) (fun h => h0 ((hcond0_5 ⟨n + 1, hn⟩).mp h)) (fun h => h0 ((hcond0_6 ⟨n + 1, hn⟩).mp h)) (fun h => h0 ((hcond0_7 ⟨n + 1, hn⟩).mp h)) (fun h => h0 ((hcond0_8 ⟨n + 1, hn⟩).mp h)) (iblk m c 0 ⟨n + 1, hn⟩) (iblk m c 1 ⟨n + 1, hn⟩) (iblk m c 2 ⟨n + 1, hn⟩) (outsAt0 m c n (Nat.lt_of_succ_lt hn)).2.1 (outsAt0 m c n (Nat.lt_of_succ_lt hn)).2.2, (outsAt0 m c n (Nat.lt_of_succ_lt hn)).2.1, (outsAt0 m c n (Nat.lt_of_succ_lt hn)).2.2) :=
    (dif_neg h0).trans rfl
  unfold Inv
  rw [e]
  dsimp only
  have hx : ∀ (r : Fin 512) (kk : Fin 4096), (outsAt0 m c n (Nat.lt_of_succ_lt hn)).2.1 (ix2 r kk) = xarr m c (ix2 (rowOf (n + 1) hN r) kk) := fun r kk => by
    rw [ih0 r kk, hrow]
  have hs : ∀ r : Fin 512, (outsAt0 m c n (Nat.lt_of_succ_lt hn)).2.2 (ix2 r (0 : Fin 1)) = fold8 (fun cc => ∑ k : Fin 512, xarr m c (ix2 (rowOf (n + 1) hN r) (kIdx cc k))) := fun r => by
    rw [ih1 r, hrow]
  refine ⟨hx, hs, fun r nn => ?_⟩
  refine (out0_B_3_apply c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h0 ((hcond0_1 ⟨n + 1, hn⟩).mp h)) (fun h => h0 ((hcond0_2 ⟨n + 1, hn⟩).mp h)) (fun h => h0 ((hcond0_3 ⟨n + 1, hn⟩).mp h)) (fun h => h0 ((hcond0_4 ⟨n + 1, hn⟩).mp h)) (fun h => h0 ((hcond0_5 ⟨n + 1, hn⟩).mp h)) (fun h => h0 ((hcond0_6 ⟨n + 1, hn⟩).mp h)) (fun h => h0 ((hcond0_7 ⟨n + 1, hn⟩).mp h)) (fun h => h0 ((hcond0_8 ⟨n + 1, hn⟩).mp h)) (iblk m c 0 ⟨n + 1, hn⟩) (iblk m c 1 ⟨n + 1, hn⟩) (iblk m c 2 ⟨n + 1, hn⟩) (outsAt0 m c n (Nat.lt_of_succ_lt hn)).2.1 (outsAt0 m c n (Nat.lt_of_succ_lt hn)).2.2 r nn).trans ?_
  exact outB_eq m c ⟨n + 1, hn⟩ (outsAt0 m c n (Nat.lt_of_succ_lt hn)).2.1 (outsAt0 m c n (Nat.lt_of_succ_lt hn)).2.2 hx hs r nn

/-- After every position. -/
theorem inv (c : Dev nD) : ∀ (n : ℕ) (hn : n < cfg0.N), Inv m c n hn := by
  intro n
  induction n with
  | zero => intro hn; exact inv_A m c ⟨0, hn⟩ (Nat.zero_mod _)
  | succ n ih =>
    intro hn
    by_cases h0 : (n + 1) % 8 = 0
    · exact inv_A m c ⟨n + 1, hn⟩ h0
    · exact inv_B m c n hn h0 (ih (Nat.lt_of_succ_lt hn))

end Cert.KernelIdeal.Val

end
-- ==== Proof.KI.HostVal.lean ====
/-
  What the host operations around the region compute, read at an index on the extended reals: before the
  region the activations are flattened to 8192 rows (row b·2048 + s is activation row (b, s)) and the three
  per-column vectors — scales, zero points, bias — are laid side by side as the three rows of one 3×4096
  array; after the region the 8192×4096 result is folded back to 4×2048×4096.
-/
import proofs.«400840_j54331336294693_3_alg».proof.Proof.KI.Frame
import Idealize.ShloMosaic.Lib.ValueIdx
import Idealize.ShloMosaic.Lib.Pipeline.Value
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Frm

variable (m : (ℓ : Loc nD τ sig) → Buf (Elt Ideal) ℓ)

/-- The flattened activations are the launch contents of argument 0 recast to 8192 rows. -/
theorem host_v0_eq (c : Dev nD) :
    (V m c main_v0 : S8192x4096.Idx → EReal) = shapeCast _ (m ((c : Thread nD τ).loc main_arg0)) shapeCasts_S4x2048x4096_S8192x4096 := by
  dsimp only [V, V0]
  simp only [hostOps0, List.flatten_cons, List.flatten_nil, List.append_nil, List.cons_append, List.nil_append]
  after_results
  rfl

/-- The flattened activations as the region finds them: row mm is activation row (mm / 2048, mm % 2048). -/
theorem v0_apply (c : Dev nD) (mm : Fin 8192) (k : Fin 4096) :
    (V m c main_v0 : S8192x4096.Idx → EReal) (ix2 mm k)
      = (m ((c : Thread nD τ).loc main_arg0) : S4x2048x4096.Idx → EReal) (ix3 (⟨mm.val / 2048, by omega⟩ : Fin 4) (⟨mm.val % 2048, by omega⟩ : Fin 2048) k) := by
  rw [host_v0_eq m c]
  exact shapeCast_apply _ shapeCasts_S4x2048x4096_S8192x4096 (ix2 mm k) (ix3 (⟨mm.val / 2048, by omega⟩ : Fin 4) (⟨mm.val % 2048, by omega⟩ : Fin 2048) k)
    (by rewrite [Shape.rowMajor_val_three, Shape.rowMajor_val_two]; have h0 : mm.val < 8192 := mm.isLt; have h1 : k.val < 4096 := k.isLt; show (mm.val / 2048 * 2048 + mm.val % 2048) * 4096 + k.val = mm.val * 4096 + k.val; omega)

/-- The three per-column vectors (scales, zero points, bias) of the launch contents, each recast to one row of
    4096 entries. -/
abbrev hostRows (c : Dev nD) : List ((s : Shape) × (s.Idx → EReal)) :=
  [⟨S1x4096, shapeCast _ (m ((c : Thread nD τ).loc main_arg2)) shapeCasts_S4096x1_S1x4096⟩,
   ⟨S1x4096, shapeCast _ (m ((c : Thread nD τ).loc main_arg3)) shapeCasts_S4096x1_S1x4096⟩,
   ⟨S1x4096, shapeCast _ (m ((c : Thread nD τ).loc main_arg4)) shapeCasts_S4096_S1x4096⟩]

/-- The side-by-side array is the concatenation of the three rows along the first axis: the concatenation reads
    its three operands where the three reshapes before it left them, and no later reshape overwrites an earlier
    one's result. -/
theorem host_v4_eq (c : Dev nD) :
    (V m c main_v4 : S3x4096.Idx → EReal) = concatenate S3x4096 0 (hostRows m c) concatenates_S1x4096_S1x4096_S1x4096_S3x4096_d0 := by
  dsimp only [V, V0, hostRows]
  simp only [hostOps0, List.flatten_cons, List.flatten_nil, List.append_nil, List.cons_append, List.nil_append]
  simp only [StableHlo.after_cons, StableHlo.after_nil]
  rw [StableHlo.nary_result]
  dsimp only [Matrix.cons_val]
  repeat (first
    | rw [StableHlo.reshape_result]
    | (rw [StableHlo.reshape_result_ne]; rotate_left; decide))
  rfl

/-- Row r of the side-by-side array is piece r of the concatenation read at the same column: r pieces of one row
    each lie before it, and its own single row is row 0. -/
theorem host_v4_row (c : Dev nD) (r : Fin 3) (n : Fin 4096) (x : S1x4096.Idx → EReal)
    (hx : (hostRows m c)[r.val]'(r.isLt) = ⟨S1x4096, x⟩) :
    (V m c main_v4 : S3x4096.Idx → EReal) (ix2 r n) = x (ix2 (0 : Fin 1) n) := by
  rw [host_v4_eq m c]
  refine concatenate_apply_piece (t := S3x4096) (0 : Fin 2) (hostRows m c) concatenates_S1x4096_S1x4096_S1x4096_S3x4096_d0 (ix2 r n) r.val r.isLt S1x4096 x hx rfl r.val ?_
    (ix2 (0 : Fin 1) n) ?_ ?_
  · match r with
    | ⟨0, _⟩ => rfl
    | ⟨1, _⟩ => rfl
    | ⟨2, _⟩ => rfl
  · intro b hb
    match b, hb with
    | ⟨0, _⟩, hb => exact absurd rfl hb
    | ⟨1, _⟩, _ => rfl
  · show r.val + 0 = r.val
    omega

/-- The three rows of the side-by-side array: scales, zero points, bias. -/
theorem v4_apply0 (c : Dev nD) (n : Fin 4096) :
    (V m c main_v4 : S3x4096.Idx → EReal) (ix2 (0 : Fin 3) n) = (m ((c : Thread nD τ).loc main_arg2) : S4096x1.Idx → EReal) (ix2 n (0 : Fin 1)) := by
  refine (host_v4_row m c 0 n _ rfl).trans ?_
  exact shapeCast_apply _ shapeCasts_S4096x1_S1x4096 (ix2 (0 : Fin 1) n) (ix2 n (0 : Fin 1))
    (by rewrite [Shape.rowMajor_val_two, Shape.rowMajor_val_two]; show n.val * 1 + 0 = 0 * 4096 + n.val; omega)
theorem v4_apply1 (c : Dev nD) (n : Fin 4096) :
    (V m c main_v4 : S3x4096.Idx → EReal) (ix2 (1 : Fin 3) n) = (m ((c : Thread nD τ).loc main_arg3) : S4096x1.Idx → EReal) (ix2 n (0 : Fin 1)) := by
  refine (host_v4_row m c 1 n _ rfl).trans ?_
  exact shapeCast_apply _ shapeCasts_S4096x1_S1x4096 (ix2 (0 : Fin 1) n) (ix2 n (0 : Fin 1))
    (by rewrite [Shape.rowMajor_val_two, Shape.rowMajor_val_two]; show n.val * 1 + 0 = 0 * 4096 + n.val; omega)
theorem v4_apply2 (c : Dev nD) (n : Fin 4096) :
    (V m c main_v4 : S3x4096.Idx → EReal) (ix2 (2 : Fin 3) n) = (m ((c : Thread nD τ).loc main_arg4) : S4096.Idx → EReal) (ix1 n) := by
  refine (host_v4_row m c 2 n _ rfl).trans ?_
  exact shapeCast_apply _ shapeCasts_S4096_S1x4096 (ix2 (0 : Fin 1) n) (ix1 n)
    (by rewrite [Shape.rowMajor_val_one, Shape.rowMajor_val_two]; show n.val = 0 * 4096 + n.val; omega)

/-- The program's result is the pipeline's output array as the region leaves it, recast to 4×2048×4096: the
    reshape after the region reads the output window's array, which the region leaves at the proof data's value. -/
theorem host_v6_eq (c : Dev nD) :
    (Pipeline.afterTail₀ cfgs (dats m) 0 (V0 m) [hostOps1] c main_v6 : S4x2048x4096.Idx → EReal)
      = shapeCast _ ((dats m 0 c).arrAt 3 cfg0.N : S8192x4096.Idx → EReal) shapeCasts_S8192x4096_S4x2048x4096 := by
  have h5 : Pipeline.withArrays spec0 c (V0 m c) (fun w => (dats m 0 c).arrAt w cfg0.N) (Proc.devRef .tc main_v5)
      = (dats m 0 c).arrAt 3 cfg0.N :=
    Pipeline.withArrays_arr spec0 launch0.win.arr_inj c _ _ 3
  unfold Pipeline.afterTail₀
  show StableHlo.after hostOps1 _ (Proc.devRef .tc main_v6) = _
  after_results
  rw [h5]
  rfl

/-- After the region: the program's result is the pipeline's output array folded back, entry (b, s, n) its entry
    (b·2048 + s, n). -/
theorem v6_apply (c : Dev nD) (b : Fin 4) (s : Fin 2048) (n : Fin 4096) :
    (Pipeline.afterTail₀ cfgs (dats m) 0 (V0 m) [hostOps1] c main_v6 : S4x2048x4096.Idx → EReal) (ix3 b s n)
      = ((dats m 0 c).arrAt 3 cfg0.N : S8192x4096.Idx → EReal) (ix2 (⟨b.val * 2048 + s.val, by omega⟩ : Fin 8192) n) := by
  rw [host_v6_eq m c]
  exact shapeCast_apply _ shapeCasts_S8192x4096_S4x2048x4096 (ix3 b s n) (ix2 (⟨b.val * 2048 + s.val, by omega⟩ : Fin 8192) n)
    (by rewrite [Shape.rowMajor_val_two, Shape.rowMajor_val_three]; rfl)

end Cert.KernelIdeal.Val

end
-- ==== Proof.KI.Final.lean ====
/-
  From the output window's blocks to the program's result. The 16 × 8 output blocks tile the 8192 × 4096 array,
  each written back once with the value the invariant names, so the array ends as one function of the arrays the
  region found; the reshape after the region folds it to 4 × 2048 × 4096; and through the host operations before
  the region that function is the specification's kernel form of the five arguments.
-/
import proofs.«400840_j54331336294693_3_alg».proof.Proof.KI.Invariant
import proofs.«400840_j54331336294693_3_alg».proof.Proof.KI.HostVal

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Frm

variable (m : (ℓ : Loc nD τ sig) → Buf (Elt Ideal) ℓ)

open Cert.Spec (fold8 kIdx qv nib wordRow field)

/-- The pipeline's output array as one function of the arrays the region found. -/
def G5 (c : Dev nD) : S8192x4096.Idx → EReal := fun i => g5 m c ⟨(i 0).val, (i 0).isLt⟩ ⟨(i 1).val, (i 1).isLt⟩

/-- What the point at position t writes back is block t of that function. -/
theorem flushed3_eq (c : Dev nD) (t : Fin cfg0.N) :
    (dats m 0 c).flushed 3 t = ((cfg0.win 3).blk t).view.read (Elt Ideal) (G5 m c) := by
  show (cfg0.win 3).cut (grid0.coords t) ((dats m 0 c).after 3 t) = _
  rw [after0_3]
  obtain ⟨-, -, -, -, -, -, e0, e1⟩ := idx_facts t
  funext j
  obtain ⟨p, q, rfl⟩ : ∃ (p : Fin 512) (q : Fin 512), j = ix2 p q := ⟨j 0, j 1, eq_ix2 j⟩
  show (outsAt0 m c t.val t.isLt).1 (ix2 p q) = G5 m c (((cfg0.win 3).blk t).view.emb (ix2 p q))
  rw [(inv m c t.val t.isLt).2.2 p q]
  unfold G5
  have hr : rowOf t.val (lt_of_lt_of_eq t.isLt N_0) p = ⟨((((cfg0.win 3).blk t).view.emb (ix2 p q)) 0).val, ((((cfg0.win 3).blk t).view.emb (ix2 p q)) 0).isLt⟩ := Fin.ext (by
    show 512 * (t.val / 8) + p.val = win0_3.index t (0 : Fin 2) * 512 + 1 * p.val; omega)
  have hc : colOf t.val q = ⟨((((cfg0.win 3).blk t).view.emb (ix2 p q)) 1).val, ((((cfg0.win 3).blk t).view.emb (ix2 p q)) 1).isLt⟩ := Fin.ext (by
    show 512 * (t.val % 8) + q.val = win0_3.index t (1 : Fin 2) * 512 + 1 * q.val; omega)
  rw [hr, hc]

/-- An index of the array is in the block of position t iff each coordinate is in the block's range. -/
theorem mem_blk3 (t : Fin cfg0.N) (i : S8192x4096.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v5).slice (win0_3.rect t)).set ↔ _
  rw [View.set_slice_whole, Rect.mem_set_unit]
  exact Iff.rfl

/-- Every index of the array is in some position's block: row block (row / 512), column block (column / 512). -/
theorem cover3 (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hlt : 8 * ((i 0).val / 512) + (i 1).val / 512 < cfg0.N := lt_of_lt_of_eq (by omega) N_0.symm
  refine ⟨⟨8 * ((i 0).val / 512) + (i 1).val / 512, hlt⟩, flush0_3 _, ?_⟩
  rw [mem_blk3]
  obtain ⟨-, -, -, -, -, -, e0, e1⟩ := idx_facts ⟨8 * ((i 0).val / 512) + (i 1).val / 512, hlt⟩
  intro a
  match a with
  | ⟨0, _⟩ =>
    show win0_3.index _ (0 : Fin 2) * 512 ≤ (i 0).val ∧ (i 0).val < win0_3.index _ (0 : Fin 2) * 512 + 512
    rw [e0]; dsimp only; omega
  | ⟨1, _⟩ =>
    show win0_3.index _ (1 : Fin 2) * 512 ≤ (i 1).val ∧ (i 1).val < win0_3.index _ (1 : Fin 2) * 512 + 512
    rw [e1]; dsimp only; omega

/-- The array after the run. -/
theorem final3 (c : Dev nD) : (dats m 0 c).arrAt 3 cfg0.N = G5 m c :=
  (dats m 0 c).arrAt_eq_of_cover 3 (G5 m c) (fun t _ => flushed3_eq m c t) (cover3)

/-- The five argument arrays at their literal types. -/
abbrev aX (c : Dev nD) : Vec Ideal S4x2048x4096 .f32 := m ((c : Thread nD τ).loc main_arg0)
abbrev aQ (c : Dev nD) : Vec Ideal S512x4096 .i32 := m ((c : Thread nD τ).loc main_arg1)
abbrev aS (c : Dev nD) : Vec Ideal S4096x1 .f32 := m ((c : Thread nD τ).loc main_arg2)
abbrev aZ (c : Dev nD) : Vec Ideal S4096x1 .f32 := m ((c : Thread nD τ).loc main_arg3)
abbrev aB (c : Dev nD) : Vec Ideal S4096 .f32 := m ((c : Thread nD τ).loc main_arg4)

/-- The rows of the side-by-side array and the flattened activations over them. -/
theorem sarr_apply0 (c : Dev nD) (n : Fin 4096) : sarr m c (ix2 (0 : Fin 3) n) = aS m c (ix2 n (0 : Fin 1)) := v4_apply0 m c n
theorem sarr_apply1 (c : Dev nD) (n : Fin 4096) : sarr m c (ix2 (1 : Fin 3) n) = aZ m c (ix2 n (0 : Fin 1)) := v4_apply1 m c n
theorem sarr_apply2 (c : Dev nD) (n : Fin 4096) : sarr m c (ix2 (2 : Fin 3) n) = aB m c (ix1 n) := v4_apply2 m c n
theorem xarr_apply (c : Dev nD) (b : Fin 4) (s : Fin 2048) (k : Fin 4096) :
    xarr m c (ix2 (⟨b.val * 2048 + s.val, by omega⟩ : Fin 8192) k) = aX m c (ix3 b s k) := by
  have hb : (⟨(b.val * 2048 + s.val) / 2048, by omega⟩ : Fin 4) = b := Fin.ext (by show (b.val * 2048 + s.val) / 2048 = b.val; omega)
  have hs : (⟨(b.val * 2048 + s.val) % 2048, by omega⟩ : Fin 2048) = s := Fin.ext (by show (b.val * 2048 + s.val) % 2048 = s.val; omega)
  refine (v0_apply m c (⟨b.val * 2048 + s.val, by omega⟩ : Fin 8192) k).trans ?_
  rw [hb, hs]
theorem qarr_eq (c : Dev nD) : qarr m c = aQ m c := V_main_arg1 m c

/-- The kernel's value over the arrays the region found is the specification's kernel form of the arguments. -/
theorem g5_eq (c : Dev nD) (b : Fin 4) (s : Fin 2048) (n : Fin 4096) :
    g5 m c (⟨b.val * 2048 + s.val, by omega⟩ : Fin 8192) n
      = Cert.Spec.GkAt (aX m c) (aQ m c) (aS m c) (aZ m c) (aB m c) b s n := by
  unfold g5 Cert.Spec.GkAt Cert.Spec.chunkDot Cert.Spec.chunkSum
  rw [sarr_apply0, sarr_apply1, sarr_apply2, qarr_eq]
  have h1 : (fun cc => ∑ k : Fin 512, xarr m c (ix2 (⟨b.val * 2048 + s.val, by omega⟩ : Fin 8192) (kIdx cc k)) * qv (aQ m c) (kIdx cc k) n)
      = (fun cc => ∑ k : Fin 512, aX m c (ix3 b s (kIdx cc k)) * qv (aQ m c) (kIdx cc k) n) :=
    funext fun cc => Finset.sum_congr rfl fun k _ => by rw [xarr_apply]
  have h2 : (fun cc => ∑ k : Fin 512, xarr m c (ix2 (⟨b.val * 2048 + s.val, by omega⟩ : Fin 8192) (kIdx cc k)))
      = (fun cc => ∑ k : Fin 512, aX m c (ix3 b s (kIdx cc k))) :=
    funext fun cc => Finset.sum_congr rfl fun k _ => by rw [xarr_apply]
  rw [h1, h2]

/-- The program's result buffer after the run. -/
theorem result_eq (c : Dev nD) :
    (Pipeline.afterTail₀ cfgs (dats m) 0 (V0 m) [hostOps1] c main_v6 : S4x2048x4096.Idx → EReal)
      = Cert.Spec.Gk (aX m c) (aQ m c) (aS m c) (aZ m c) (aB m c) := by
  funext i
  obtain ⟨b, s, n, rfl⟩ : ∃ (b : Fin 4) (s : Fin 2048) (n : Fin 4096), i = ix3 b s n := ⟨i 0, i 1, i 2, eq_ix3 i⟩
  rw [v6_apply, final3]
  show g5 m c _ _ = Cert.Spec.GkAt _ _ _ _ _ b s n
  exact g5_eq m c b s n

/-- The run of @main with its result named: the specification's kernel form of the arguments, and the arguments
    unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v6) = Cert.Spec.Gk (aX m c) (aQ m c) (aS m c) (aZ m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    (((h c).2 main_v6 (Pipeline.mem_restRefs_of main_v6 (by decide) (by decide))).trans (result_eq m c)),
    (((h c).2 main_arg0 (Pipeline.mem_restRefs_of main_arg0 (by decide) (by decide))).trans (W_main_arg0 m (dats m) c)),
    ((h c).1 1).trans (((dats m 0 c).arrAt_in 1 rfl _).trans ((A_eq m c 1).trans (V_main_arg1 m c))),
    (((h c).2 main_arg2 (Pipeline.mem_restRefs_of main_arg2 (by decide) (by decide))).trans (W_main_arg2 m (dats m) c)),
    (((h c).2 main_arg3 (Pipeline.mem_restRefs_of main_arg3 (by decide) (by decide))).trans (W_main_arg3 m (dats m) c)),
    (((h c).2 main_arg4 (Pipeline.mem_restRefs_of main_arg4 (by decide) (by decide))).trans (W_main_arg4 m (dats m) c))⟩)
    (run_main m ρ)

end Cert.KernelIdeal.Val

end
-- ==== Proof.RefValue.lean ====
/-
  The reference's result as a function of the argument arrays: entry (b, s, n) is the product of activation
  row (b, s) with column n of the dequantised weights s_n · q − z_n, plus the bias b_n.
-/
import proofs.«400840_j54331336294693_3_alg».proof.Proof.Gen.ReferenceIdeal.Run
import proofs.«400840_j54331336294693_3_alg».proof.Proof.Gen.ReferenceIdeal.Read
import proofs.«400840_j54331336294693_3_alg».proof.Proof.Spec

noncomputable section

namespace Cert.ReferenceIdeal.RefValue

open Cert.ReferenceIdeal Cert.ReferenceIdeal.Gen Idealize.ShloMosaic Idealize.ShloMosaic.ValueIdx

/-- Every shift amount 4r, r < 8, is below the word width. -/
theorem shift_lt (r : Fin 8) : (BitVec.ofNat 32 r.val * 4#32).toNat < 32 := by
  fin_cases r <;> decide

/-- Row (b, s) of the flattened activations at column k is entry (b, s, k). -/
theorem act_idx (b : Fin 4) (s : Fin 2048) (n k : Fin 4096) :
    Read.idx_main_v0 (Read.lidx_main_v19 (Read.idx_main_v23 (ix3 b s n)) k) = ix3 b s k :=
  funext fun a => Fin.ext (by
    have hb := b.isLt; have hs := s.isLt; have hn := n.isLt; have hk := k.isLt
    match a with
    | ⟨0, _⟩ => show ((((b.val * 2048 + s.val) * 4096 + n.val) / 4096) * 4096 + k.val) / 8388608 = b.val; omega
    | ⟨1, _⟩ => show ((((b.val * 2048 + s.val) * 4096 + n.val) / 4096) * 4096 + k.val) / 4096 % 2048 = s.val; omega
    | ⟨2, _⟩ => show ((((b.val * 2048 + s.val) * 4096 + n.val) / 4096) * 4096 + k.val) % 4096 = k.val; omega)

/-- The weight entry the product reads at (b, s, n), k is entry (k, n). -/
theorem wt_idx (b : Fin 4) (s : Fin 2048) (n k : Fin 4096) :
    Read.ridx_main_v19 (Read.idx_main_v23 (ix3 b s n)) k = ix2 k n :=
  funext fun a => Fin.ext (by
    have hb := b.isLt; have hs := s.isLt; have hn := n.isLt; have hk := k.isLt
    match a with
    | ⟨0, _⟩ => rfl
    | ⟨1, _⟩ => show ((b.val * 2048 + s.val) * 4096 + n.val) % 4096 = n.val; omega)

/-- The bias entry read at (b, s, n) is entry n. -/
theorem bias_idx (b : Fin 4) (s : Fin 2048) (n : Fin 4096) :
    Read.idx_main_v20 (Read.idx_main_v21 (Read.idx_main_v23 (ix3 b s n))) = ix1 n :=
  funext fun a => Fin.ext (by
    have hb := b.isLt; have hs := s.isLt; have hn := n.isLt
    match a with
    | ⟨0, _⟩ => show ((b.val * 2048 + s.val) * 4096 + n.val) % 4096 = n.val; omega)

/-- The scale entry read at (k, n) is entry (n, 0). -/
theorem col_idx (k n : Fin 4096) :
    Read.idx_main_v13 (Read.idx_main_v14 (ix2 k n)) = ix2 n 0 :=
  funext fun a => Fin.ext (by
    match a with
    | ⟨0, _⟩ => rfl
    | ⟨1, _⟩ => rfl)
/-- The zero-point entry read at (k, n) is entry (n, 0) likewise. -/
theorem col_idx' (k n : Fin 4096) :
    Read.idx_main_v16 (Read.idx_main_v17 (ix2 k n)) = ix2 n 0 :=
  funext fun a => Fin.ext (by
    match a with
    | ⟨0, _⟩ => rfl
    | ⟨1, _⟩ => rfl)

/-- The packed word read at (k, n) is word (k / 8, n). -/
theorem word_idx (k n : Fin 4096) :
    Read.idx_main_v5 (Read.idx_main_v6 (Read.idx_main_v11 (ix2 k n))) = ix2 (Cert.Spec.wordRow k) n :=
  funext fun a => Fin.ext (by
    have hn := n.isLt; have hk := k.isLt
    match a with
    | ⟨0, _⟩ => show (k.val * 4096 + n.val) / 32768 = k.val / 8; omega
    | ⟨1, _⟩ => show (k.val * 4096 + n.val) % 4096 = n.val; omega)

/-- The shift read at (k, n) is that of field k mod 8. -/
theorem field_idx (k n : Fin 4096) :
    Read.idx_main_v4 (Read.idx_main_v7 (Read.idx_main_v11 (ix2 k n))) = ix1 (Cert.Spec.field k) :=
  funext fun a => Fin.ext (by
    have hn := n.isLt; have hk := k.isLt
    match a with
    | ⟨0, _⟩ => show (k.val * 4096 + n.val) / 4096 % 8 = k.val % 8; omega)

/-- An arithmetic shift right by 4r, r < 8, is in range. -/
theorem shrsi_field (w : BitVec 32) (r : Fin 8) :
    IntOp.shrsi .host w (IntOp.muli (BitVec.ofNat 32 r.val) 4#32) = w.sshiftRight' (BitVec.ofNat 32 r.val * 4#32) := by
  show (if (BitVec.ofNat 32 r.val * 4#32).toNat < 32 then _ else _) = _
  rw [if_pos (shift_lt r)]
  rfl

/-- Entry (k, n) of the dequantised weights: the scale times field k mod 8 of word (k / 8, n), less the zero point. -/
theorem weight_entry (x1 : (⟨S512x4096, .i32⟩ : BufTy).Contents (Elt Ideal))
    (x2 x3 : (⟨S4096x1, .f32⟩ : BufTy).Contents (Elt Ideal)) (k n : Fin 4096) :
    Read.val_main_v18 (F := Ideal) x1 x2 x3 (ix2 k n) = x2 (ix2 n 0) * Cert.Spec.qv x1 k n - x3 (ix2 n 0) := by
  rw [Read.val_main_v18_apply, Read.val_main_v15_apply, Read.val_main_v14_apply, Read.val_main_v13_apply,
    Read.val_main_v12_apply, Read.val_main_v11_apply, Read.val_main_v10_apply, Read.val_main_v8_apply,
    Read.val_main_v6_apply, Read.val_main_v5_apply, Read.val_main_v7_apply, Read.val_main_v4_apply,
    Read.val_main_v3_apply, Read.val_main_v1_apply, Read.val_main_v2_apply, Read.val_main_c_apply,
    Read.val_main_v9_apply, Read.val_main_c_0_apply, Read.val_main_v17_apply, Read.val_main_v16_apply,
    col_idx, col_idx', word_idx, field_idx]
  show x2 (ix2 n 0) * (((IntOp.andi (IntOp.shrsi .host (x1 (ix2 (Cert.Spec.wordRow k) n)) (IntOp.muli (BitVec.ofNat 32 (Cert.Spec.field k).val) 4#32)) 15#32).toInt : ℝ) : EReal) - x3 (ix2 n 0) = _
  rw [shrsi_field]
  rfl

/-- The last stage of the reference, read at an index, is the specification's reference form. -/
theorem result_eq (x0 : (⟨S4x2048x4096, .f32⟩ : BufTy).Contents (Elt Ideal)) (x1 : (⟨S512x4096, .i32⟩ : BufTy).Contents (Elt Ideal))
    (x2 x3 : (⟨S4096x1, .f32⟩ : BufTy).Contents (Elt Ideal)) (x4 : (⟨S4096, .f32⟩ : BufTy).Contents (Elt Ideal)) :
    Cert.ReferenceIdeal.Read.val_main_v23 (F := Ideal) x0 x1 x2 x3 x4 = Cert.Spec.Gr x0 x1 x2 x3 x4 := by
  funext i
  obtain ⟨b, s, n, rfl⟩ : ∃ (b : Fin 4) (s : Fin 2048) (n : Fin 4096), i = ix3 b s n := ⟨i 0, i 1, i 2, eq_ix3 i⟩
  show _ = Cert.Spec.GrAt x0 x1 x2 x3 x4 b s n
  rw [Read.val_main_v23_apply, Read.val_main_v22_apply, Read.val_main_v19_apply, Read.val_main_v21_apply,
    Read.val_main_v20_apply, bias_idx, Ideal.addf_def]
  unfold Cert.Spec.GrAt
  congr 1
  refine Finset.sum_congr rfl fun k _ => ?_
  rw [Read.val_main_v0_apply, act_idx, wt_idx, weight_entry]

end Cert.ReferenceIdeal.RefValue

end
-- ==== Proof.Law.lean ====
/-
  The law that joins the two sides: for real x, s, z, b and integer fields q,
    s · Σ_c Σ_{k in chunk c} x_k q_k − z · Σ_c Σ_{k in chunk c} x_k + b  =  Σ_k x_k (s q_k − z) + b,
  the 4096 input features split into 8 chunks of 512.
-/
import proofs.«400840_j54331336294693_3_alg».proof.Proof.Spec

noncomputable section

namespace Cert.Spec

open Idealize.ShloMosaic Idealize.ShloMosaic.ValueIdx

/-- The coercion of a finite sum of reals is the sum of the coercions. -/
theorem coe_finsum {ι : Type} (t : Finset ι) (f : ι → ℝ) :
    ((∑ i ∈ t, f i : ℝ) : EReal) = ∑ i ∈ t, (f i : EReal) := by
  classical
  refine Finset.induction_on t (by simp) ?_
  intro a t ha ih
  rw [Finset.sum_insert ha, Finset.sum_insert ha, EReal.coe_add, ih]

/-- Eight reals added to zero one after the other: the coercion of their sum. -/
theorem fold8_coe (A : Fin 8 → ℝ) :
    fold8 (fun c => (A c : EReal)) = ((∑ c : Fin 8, A c : ℝ) : EReal) := by
  unfold fold8
  rw [Fin.sum_univ_eight, zero_add]
  simp only [EReal.coe_add]

/-- The 4096 input features are the 8 chunks of 512: feature c * 512 + k is entry k of chunk c. -/
theorem sum_chunks (g : Fin 4096 → ℝ) :
    ∑ c : Fin 8, ∑ k : Fin 512, g (kIdx c k) = ∑ k : Fin 4096, g k := by
  rw [← Fintype.sum_prod_type' (f := fun c k => g (kIdx c k))]
  refine Fintype.sum_equiv (finProdFinEquiv (m := 8) (n := 512)) _ _ ?_
  rintro ⟨c, k⟩
  refine congrArg g (Fin.ext ?_)
  simp only [kIdx, finProdFinEquiv_apply_val]
  omega

/-- The law on the reals: distribute s and z over the sums, then join the chunks. -/
theorem law_real (x q : Fin 4096 → ℝ) (sc z bb : ℝ) :
    sc * (∑ c : Fin 8, ∑ k : Fin 512, x (kIdx c k) * q (kIdx c k))
      - z * (∑ c : Fin 8, ∑ k : Fin 512, x (kIdx c k)) + bb
      = (∑ k : Fin 4096, x k * (sc * q k - z)) + bb := by
  rw [sum_chunks (fun k => x k * q k), sum_chunks x, Finset.mul_sum, Finset.mul_sum,
    ← Finset.sum_sub_distrib]
  congr 1
  refine Finset.sum_congr rfl fun k _ => ?_
  ring

theorem GkAt_eq_GrAt (X : SX.Idx → EReal) (Q : SQ.Idx → BitVec 32) (Sc Z : SC.Idx → EReal) (B : SB.Idx → EReal)
    (hX : ∀ i, ∃ r : ℝ, X i = (r : EReal)) (hS : ∀ i, ∃ r : ℝ, Sc i = (r : EReal))
    (hZ : ∀ i, ∃ r : ℝ, Z i = (r : EReal)) (hB : ∀ i, ∃ r : ℝ, B i = (r : EReal))
    (b : Fin 4) (s : Fin 2048) (n : Fin 4096) :
    GkAt X Q Sc Z B b s n = GrAt X Q Sc Z B b s n := by
  choose xr hxr using hX
  choose sr hsr using hS
  choose zr hzr using hZ
  choose br hbr using hB
  -- a field of a packed word is an integer, so a real
  have hQ : ∀ k : Fin 4096, ∃ r : ℝ, qv Q k n = (r : EReal) := fun k => ⟨_, rfl⟩
  choose qr hq using hQ
  -- each chunk's share, the reference's sum, as coercions of real sums
  have hdot : chunkDot X Q b s n
      = fun c => ((∑ k : Fin 512, xr (ix3 b s (kIdx c k)) * qr (kIdx c k) : ℝ) : EReal) := by
    funext c
    unfold chunkDot
    rw [coe_finsum]
    refine Finset.sum_congr rfl fun k _ => ?_
    rw [hxr, hq, EReal.coe_mul]
  have hsum : chunkSum X b s
      = fun c => ((∑ k : Fin 512, xr (ix3 b s (kIdx c k)) : ℝ) : EReal) := by
    funext c
    unfold chunkSum
    rw [coe_finsum]
    exact Finset.sum_congr rfl fun k _ => hxr _
  have href : (∑ k : Fin 4096, X (ix3 b s k) * (Sc (ix2 n 0) * qv Q k n - Z (ix2 n 0)))
      = ((∑ k : Fin 4096, xr (ix3 b s k) * (sr (ix2 n 0) * qr k - zr (ix2 n 0)) : ℝ) : EReal) := by
    rw [coe_finsum]
    refine Finset.sum_congr rfl fun k _ => ?_
    rw [hxr, hsr, hzr, hq, EReal.coe_mul, EReal.coe_sub, EReal.coe_mul]
  unfold GkAt GrAt
  rw [hdot, hsum, fold8_coe, fold8_coe, href, hsr, hzr, hbr, ← EReal.coe_mul, ← EReal.coe_mul,
    ← EReal.coe_sub, ← EReal.coe_add, ← EReal.coe_add]
  exact congrArg _ (law_real (fun k => xr (ix3 b s k)) qr _ _ _)

theorem Gk_eq_Gr (X : SX.Idx → EReal) (Q : SQ.Idx → BitVec 32) (Sc Z : SC.Idx → EReal) (B : SB.Idx → EReal)
    (hX : ∀ i, ∃ r : ℝ, X i = (r : EReal)) (hS : ∀ i, ∃ r : ℝ, Sc i = (r : EReal))
    (hZ : ∀ i, ∃ r : ℝ, Z i = (r : EReal)) (hB : ∀ i, ∃ r : ℝ, B i = (r : EReal)) :
    Gk X Q Sc Z B = Gr X Q Sc Z B :=
  funext fun i => GkAt_eq_GrAt X Q Sc Z B hX hS hZ hB (i 0) (i 1) (i 2)

end Cert.Spec

end
-- ==== Proof.Finite.lean ====
/-
  From the precondition to real numbers: the precondition says of each of the four float arguments that the
  absolute value of every entry is below +infinity; on the extended reals that makes every entry a real number.
-/
import proofs.«400840_j54331336294693_3_alg».proof.Pre_finite_inputs
import proofs.«400840_j54331336294693_3_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Finite

open Idealize.ShloMosaic Cert.Pre_finite_inputs

/-- On the extended reals, max x (-x) < +infinity excludes both infinities: x is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The f32 pattern 0x7F800000 (sign 0, exponent all ones, fraction 0) denotes +infinity. -/
theorem ofBits_inf : Ideal.ofBits .f32 0x7F800000#32 = (⊤ : EReal) := by simp [Ideal.ofBits, Ideal.ieee]

/-- If every entry of a, in absolute value, compares below the broadcast constant +infinity, every entry of a is
    a real number. At an index i the comparison reads max (a i) (-a i) < ⊤. -/
theorem reals_of_all {s : Shape} (hb : S_.BroadcastsInDim s (![] : Fin 0 → Fin s.rank)) (a : FVec Ideal s .f32)
    (h : ∀ i, cmpf .olt (Host.absf a) (broadcastInDim s ![] hb (constant S_ .f32 0x7F800000#32)) i = 1#1) :
    ∀ i, ∃ r : ℝ, a i = (r : EReal) := by
  intro i
  have hi := h i
  simp only [cmpf, Host.absf, broadcastInDim, constant, Ideal.hostAbsf_def, Ideal.cmpf_def, Ideal.absf_def,
    Ideal.ofBits_def, ofBits_inf, Ideal.cmp] at hi
  have hlt : max (a i) (-a i) < ⊤ := by
    by_contra hn
    rw [decide_eq_false hn] at hi
    exact absurd hi (by decide)
  exact real_of_abs_lt_top _ hlt

theorem reals_of_pre (a0 : FVec Ideal S4x2048x4096 .f32) (a1 : IVec S512x4096 32) (a2 a3 : FVec Ideal S4096x1 .f32) (a4 : FVec Ideal S4096 .f32)
    (h : Cert.Pre_finite_inputs.fn (F := Ideal) a0 a1 a2 a3 a4 = (fun _ => 1#1)) :
    (∀ i, ∃ r : ℝ, a0 i = (r : EReal)) ∧ (∀ i, ∃ r : ℝ, a2 i = (r : EReal))
      ∧ (∀ i, ∃ r : ℝ, a3 i = (r : EReal)) ∧ (∀ i, ∃ r : ℝ, a4 i = (r : EReal)) := by
  -- the result has rank 0, so it has one index
  haveI : Subsingleton S_.Idx := ⟨fun a b => funext fun d => d.elim0⟩
  have h0 := congrFun h ValueIdx.ix0
  dsimp only [fn, fn_part1] at h0
  -- the result is the conjunction of four reductions by "and", one per argument: each of them is 1
  obtain ⟨h012, h4⟩ := IntOp.andi_eq_one.1 h0
  obtain ⟨h01, h3⟩ := IntOp.andi_eq_one.1 h012
  obtain ⟨h0', h2⟩ := IntOp.andi_eq_one.1 h01
  -- a reduction by "and" over all axes that is 1 met a 1 at every index
  exact ⟨reals_of_all _ a0 (Host.reduce_andi_all _ _ _ _ _ h0'), reals_of_all _ a2 (Host.reduce_andi_all _ _ _ _ _ h2),
    reals_of_all _ a3 (Host.reduce_andi_all _ _ _ _ _ h3), reals_of_all _ a4 (Host.reduce_andi_all _ _ _ _ _ h4)⟩

end Cert.Finite

end
-- ==== Proof.lean ====
/-
  The claim: the three frames, the (empty) idealization ledger, and the equality of the two idealized
  programs' results on the extended reals.

  The kernel multiplies the activations, a row block at a time, with the packed 4-bit weights unpacked in
  eight chunks of 512 input features, keeps the cast row block and its row sums across the eight column
  blocks of a row block, and finishes each output block as scale · (x·q) − zero · rowsum(x) + bias. The
  reference dequantises the weights first, scale · q − zero, multiplies, and adds the bias. With finite
  activations, scales, zero points and bias the two are the same real number at every index.
-/
import proofs.«400840_j54331336294693_3_alg».proof.Defs
import proofs.«400840_j54331336294693_3_alg».proof.Proof.K.Frame
import proofs.«400840_j54331336294693_3_alg».proof.Proof.KI.Frame
import proofs.«400840_j54331336294693_3_alg».proof.Proof.KI.Final
import proofs.«400840_j54331336294693_3_alg».proof.Proof.RefValue
import proofs.«400840_j54331336294693_3_alg».proof.Proof.Law
import proofs.«400840_j54331336294693_3_alg».proof.Proof.Finite
import proofs.«400840_j54331336294693_3_alg».proof.Proof.Gen.ReferenceIdeal.Run
import proofs.«400840_j54331336294693_3_alg».proof.Proof.Gen.Pre_finite_inputs
import Idealize.ShloMosaic.Adequacy
import Idealize.ShloMosaic.Init

noncomputable section

namespace Cert.Proof

open Idealize.ShloMosaic Idealize.SL.Sem

theorem frame_p : Cert.frame_Kernel := fun m ρ _ => Cert.Kernel.Frm.frame m ρ

theorem frame_pi : Cert.frame_KernelIdeal := fun m ρ _ => Cert.KernelIdeal.Frm.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => Cert.Spec.Gk (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Val.run m ρ, ?_⟩
  refine (θ_run Cert.ReferenceIdeal.defs _ _).mono (fun _ h c => ⟨?_, (h c).2⟩)
    (Cert.ReferenceIdeal.Value.run (F := Ideal) m' ρ')
  obtain ⟨hX, hS, hZ, hB⟩ := Cert.Finite.reals_of_pre _ _ _ _ _ (hpre c)
  refine (h c).1.trans ?_
  rw [Cert.ReferenceIdeal.Read.val_main_v23_eq, Cert.ReferenceIdeal.RefValue.result_eq,
    (hagree c).1, (hagree c).2.1, (hagree c).2.2.1, (hagree c).2.2.2.1, (hagree c).2.2.2.2]
  exact (Cert.Spec.Gk_eq_Gr _ _ _ _ _ hX hS hZ hB).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
